-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v109)) (v2 : (c : Dev Cert.KernelIdeal.nD) → Buf (Elt Ideal) ((c.tc : Thread Cert.KernelIdeal.nD Cert.KernelIdeal.τ).loc Cert.KernelIdeal.main_v110)) (v3 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_v110) = v2 c
          ∧ r.2.mem ((c.tc : Thread Cert.KernelIdeal.nD Cert.KernelIdeal.τ).loc Cert.KernelIdeal.main_v88) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S128x1 .f32) (main_arg9 : FVec F S1 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S3x128 .f32) (main_arg6 : FVec F S128x128 .f32) (main_arg7 : FVec F S128 .f32) (main_arg8 : FVec F S128x1 .f32) (main_arg9 : FVec F S1 .f32) (main_arg10 : FVec F S128x128 .f32) (main_arg11 : FVec F S128 .f32) (main_arg12 : FVec F S128x1 .f32) (main_arg13 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x256 .f32) (main_arg1 : IVec S2x600000 32) (main_arg2 : FVec F S256x128 .f32) (main_arg3 : FVec F S128 .f32) (main_arg4 : FVec F S3x128x128 .f32) (main_arg5 : FVec F S3x128 .f32) (main_arg6 : FVec F S128x128 .f32) (main_arg7 : FVec F S128 .f32) (main_arg8 : FVec F S128x1 .f32) (main_arg9 : FVec F S1 .f32) (main_arg10 : FVec F S128x128 .f32) (main_arg11 : FVec F S128 .f32) (main_arg12 : FVec F S128x1 .f32) (main_arg13 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_arg11 main_arg12 main_arg13 main_v13 main_v16
-- ==== Kernel.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S650000x128 : Shape := ⟨2, ![650000, 128]⟩
abbrev S1x128x128 : Shape := ⟨3, ![1, 128, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S1x256 : Shape := ⟨2, ![1, 256]⟩
abbrev S1x2 : Shape := ⟨2, ![1, 2]⟩
abbrev S50000x2 : Shape := ⟨2, ![50000, 2]⟩
abbrev S5000x2 : Shape := ⟨2, ![5000, 2]⟩
abbrev S50000x1 : Shape := ⟨2, ![50000, 1]⟩
abbrev S50000x4 : Shape := ⟨2, ![50000, 4]⟩

abbrev nBuf : Space → Nat
  | .hbm => 150
  | .vmem => 38
  | .smem => 0
  | _ => 0

abbrev hbmTy0_0 (i : Nat) : BufTy := match i % 128 with
  | 0 => ⟨S50000x256, .f32⟩
  | 1 => ⟨S2x600000, .i32⟩
  | 2 => ⟨S256x128, .f32⟩
  | 3 => ⟨S128, .f32⟩
  | 4 => ⟨S3x128x128, .f32⟩
  | 5 => ⟨S3x128, .f32⟩
  | 6 => ⟨S128x128, .f32⟩
  | 7 => ⟨S128, .f32⟩
  | 8 => ⟨S128x1, .f32⟩
  | 9 => ⟨S1, .f32⟩
  | 10 => ⟨S128x128, .f32⟩
  | 11 => ⟨S128, .f32⟩
  | 12 => ⟨S128x1, .f32⟩
  | 13 => ⟨S1, .f32⟩
  | 14 => ⟨S50000, .i32⟩
  | 15 => ⟨S1x600000, .i32⟩
  | 16 => ⟨S600000, .i32⟩
  | 17 => ⟨S650000, .i32⟩
  | 18 => ⟨S1x600000, .i32⟩
  | 19 => ⟨S600000, .i32⟩
  | 20 => ⟨S650000, .i32⟩
  | 21 => ⟨S_, .f32⟩
  | 22 => ⟨S650000, .f32⟩
  | 23 => ⟨S_, .f32⟩
  | 24 => ⟨S50000, .f32⟩
  | 25 => ⟨S650000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S1x128, .f32⟩
  | 55 => ⟨S50000x128, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000x128, .f32⟩
  | 65 => ⟨S650000x1, .f32⟩
  | 66 => ⟨S650000x128, .f32⟩
  | 67 => ⟨S650000x128, .f32⟩
  | 68 => ⟨S_, .f32⟩
  | 69 => ⟨S50000x128, .f32⟩
  | 70 => ⟨S650000x1, .i32⟩
  | 71 => ⟨S50000x128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S50000x128, .f32⟩
  | 78 => ⟨S_, .i32⟩
  | 79 => ⟨S650000, .i32⟩
  | 80 => ⟨S650000, .i1⟩
  | 81 => ⟨S_, .i32⟩
  | 82 => ⟨S650000, .i32⟩
  | 83 => ⟨S650000, .i32⟩
  | 84 => ⟨S650000, .i32⟩
  | 85 => ⟨S650000x1, .i32⟩
  | 86 => ⟨S650000x128, .f32⟩
  | 87 => ⟨S650000x1, .f32⟩
  | 88 => ⟨S650000x128, .f32⟩
  | 89 => ⟨S650000x128, .f32⟩
  | 90 => ⟨S_, .f32⟩
  | 91 => ⟨S50000x128, .f32⟩
  | 92 => ⟨S650000x1, .i32⟩
  | 93 => ⟨S50000x128, .f32⟩
  | 94 => ⟨S1x128x128, .f32⟩
  | 95 => ⟨S128x128, .f32⟩
  | 96 => ⟨S1x128, .f32⟩
  | 97 => ⟨S128, .f32⟩
  | 98 => ⟨S1x128, .f32⟩
  | 99 => ⟨S50000x128, .f32⟩
  | 100 => ⟨S_, .i32⟩
  | 101 => ⟨S650000, .i32⟩
  | 102 => ⟨S650000, .i1⟩
  | 103 => ⟨S_, .i32⟩
  | 104 => ⟨S650000, .i32⟩
  | 105 => ⟨S650000, .i32⟩
  | 106 => ⟨S650000, .i32⟩
  | 107 => ⟨S650000x1, .i32⟩
  | 108 => ⟨S650000x128, .f32⟩
  | 109 => ⟨S650000x1, .f32⟩
  | 110 => ⟨S650000x128, .f32⟩
  | 111 => ⟨S650000x128, .f32⟩
  | 112 => ⟨S_, .f32⟩
  | 113 => ⟨S50000x128, .f32⟩
  | 114 => ⟨S650000x1, .i32⟩
  | 115 => ⟨S50000x128, .f32⟩
  | 116 => ⟨S1x128x128, .f32⟩
  | 117 => ⟨S128x128, .f32⟩
  | 118 => ⟨S1x128, .f32⟩
  | 119 => ⟨S128, .f32⟩
  | 120 => ⟨S1x128, .f32⟩
  | 121 => ⟨S50000x128, .f32⟩
  | 122 => ⟨S128x256, .f32⟩
  | 123 => ⟨S256, .f32⟩
  | 124 => ⟨S_, .f32⟩
  | 125 => ⟨S256x2, .f32⟩
  | 126 => ⟨S128, .f32⟩
  | 127 => ⟨S_, .i32⟩
  | _ => ⟨S50000x256, .f32⟩

abbrev hbmTy0_1 (i : Nat) : BufTy := match i % 128 with
  | 0 => ⟨S1, .i32⟩
  | 1 => ⟨S_, .i32⟩
  | 2 => ⟨S1, .i32⟩
  | 3 => ⟨S2, .i32⟩
  | 4 => ⟨S256x2, .f32⟩
  | 5 => ⟨S128, .f32⟩
  | 6 => ⟨S_, .i32⟩
  | 7 => ⟨S1, .i32⟩
  | 8 => ⟨S_, .i32⟩
  | 9 => ⟨S1, .i32⟩
  | 10 => ⟨S2, .i32⟩
  | 11 => ⟨S256x2, .f32⟩
  | 12 => ⟨S2, .f32⟩
  | 13 => ⟨S1x256, .f32⟩
  | 14 => ⟨S1x2, .f32⟩
  | 15 => ⟨S50000x2, .f32⟩
  | 16 => ⟨S50000x1, .f32⟩
  | 17 => ⟨S50000, .f32⟩
  | 18 => ⟨S50000x1, .f32⟩
  | 19 => ⟨S50000, .f32⟩
  | 20 => ⟨S_, .f32⟩
  | 21 => ⟨S50000x4, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x256, .f32⟩
  | .local _ .vmem, ⟨33, _⟩ => ⟨S1x256, .f32⟩
  | .local _ .vmem, ⟨34, _⟩ => ⟨S256x2, .f32⟩
  | .local _ .vmem, ⟨35, _⟩ => ⟨S1x2, .f32⟩
  | .local _ .vmem, ⟨36, _⟩ => ⟨S5000x2, .f32⟩
  | .local _ .vmem, ⟨37, _⟩ => ⟨S5000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_12 : Ref sig .tc := ⟨.hbm, 100, rfl⟩
abbrev main_v70 : Ref sig .tc := ⟨.hbm, 101, rfl⟩
abbrev main_v71 : Ref sig .tc := ⟨.hbm, 102, rfl⟩
abbrev main_c_13 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_15 : Ref sig .tc := ⟨.hbm, 124, rfl⟩
abbrev main_v91 : Ref sig .tc := ⟨.hbm, 125, rfl⟩
abbrev main_v92 : Ref sig .tc := ⟨.hbm, 126, rfl⟩
abbrev main_c_16 : Ref sig .tc := ⟨.hbm, 127, rfl⟩
abbrev main_v93 : Ref sig .tc := ⟨.hbm, 128, rfl⟩
abbrev main_c_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_18 : Ref sig .tc := ⟨.hbm, 134, rfl⟩
abbrev main_v98 : Ref sig .tc := ⟨.hbm, 135, rfl⟩
abbrev main_c_19 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_20 : Ref sig .tc := ⟨.hbm, 148, rfl⟩
abbrev main_v110 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S128x128_S128x128_S128x256_d1 : Shape.Concatenates [S128x128, S128x128] S128x256 1
  concatenates_S128_S128_S256_d0 : Shape.Concatenates [S128, S128] S256 0
  bcast_S_S256x2 : S_.BroadcastsInDim S256x2 (![] : Fin 0 → Fin S256x2.rank)
  shapeCasts_S128x1_S128 : S128x1.ShapeCasts S128
  bcast_S_S1 : S_.BroadcastsInDim S1 (![] : Fin 0 → Fin S1.rank)
  concatenates_S1_S1_S2_d0 : Shape.Concatenates [S1, S1] S2 0
  shapeCasts_S256_S1x256 : S256.ShapeCasts S1x256
  shapeCasts_S2_S1x2 : S2.ShapeCasts S1x2
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  slices_S50000x2_S50000x1_0_0 : S50000x2.Slices ![0, 0] S50000x1
  shapeCasts_S50000x1_S50000 : S50000x1.ShapeCasts S50000
  slices_S50000x2_S50000x1_0_1 : S50000x2.Slices ![0, 1] S50000x1
  bcast_S_S50000x4 : S_.BroadcastsInDim S50000x4 (![] : Fin 0 → Fin S50000x4.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x256_S256x128_S5000x128_1_0_0_1_n_n_wf : DotDims.WF S5000x256 S256x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  scatter_S256x2_S2_S128_0_1_01_0_wf : ScatterDims.WF S256x2 S2 S128 [0] [1] [0, 1] 0
  dot_S5000x128_S128x256_S5000x256_1_0_0_1_n_n_wf : DotDims.WF S5000x128 S128x256 S5000x256 [1] [0] [0] [1] [] []
  dot_S5000x256_S256x2_S5000x2_1_0_0_1_n_n_wf : DotDims.WF S5000x256 S256x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x2.size a ≤ S256x2.size a
  hwx4_3 : ∀ i : grid4.Coords, EltTy.bits .f32 = 32 ∨ (Rect.block (s := S256x2) S256x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x2.size a ≤ S50000x2.size a
  hwx4_5 : ∀ i : grid4.Coords, EltTy.bits .f32 = 32 ∨ (Rect.block (s := S50000x2) S5000x2.size (cc4_transform_5 i) (hinb4_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x2_S2_S128_0_1_01_0 : ScatterDims S256x2 S2 S128 where
  updateWindowDims := [0]
  insertedWindowDims := [1]
  scatterDimsToOperandDims := [0, 1]
  indexVectorDim := 0
  wf := scatter_S256x2_S2_S128_0_1_01_0_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x2_S5000x2_1_0_0_1_n_n : DotDims S5000x256 S256x2 S5000x2 where
  lhsContracting := [1]
  rhsContracting := [0]
  lhsNonContracting := [0]
  rhsNonContracting := [1]
  lhsBatch := []
  rhsBatch := []
  wf := dot_S5000x256_S256x2_S5000x2_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v84) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v88) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v103) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v101) S256x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v104) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v105) S5000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x600000 : Shape := ⟨2, ![2, 600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x1 : Shape := ⟨2, ![128, 1]⟩
abbrev S1 : Shape := ⟨1, ![1]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x128 : Shape := ⟨2, ![50000, 128]⟩
abbrev S1x128 : Shape := ⟨2, ![1, 128]⟩
abbrev S1x128x128 : Shape := ⟨3, ![1, 128, 128]⟩
abbrev S650000x128 : Shape := ⟨2, ![650000, 128]⟩
abbrev S50000x1 : Shape := ⟨2, ![50000, 1]⟩
abbrev S1x1 : Shape := ⟨2, ![1, 1]⟩
abbrev S50000x4 : Shape := ⟨2, ![50000, 4]⟩

abbrev nBuf : Space → Nat
  | .hbm => 187
  | .vmem => 0
  | .smem => 0
  | _ => 0

abbrev hbmTy0_0 (i : Nat) : BufTy := match i % 128 with
  | 0 => ⟨S50000x256, .f32⟩
  | 1 => ⟨S2x600000, .i32⟩
  | 2 => ⟨S256x128, .f32⟩
  | 3 => ⟨S128, .f32⟩
  | 4 => ⟨S3x128x128, .f32⟩
  | 5 => ⟨S3x128, .f32⟩
  | 6 => ⟨S128x128, .f32⟩
  | 7 => ⟨S128, .f32⟩
  | 8 => ⟨S128x1, .f32⟩
  | 9 => ⟨S1, .f32⟩
  | 10 => ⟨S128x128, .f32⟩
  | 11 => ⟨S128, .f32⟩
  | 12 => ⟨S128x1, .f32⟩
  | 13 => ⟨S1, .f32⟩
  | 14 => ⟨S50000, .i32⟩
  | 15 => ⟨S1x600000, .i32⟩
  | 16 => ⟨S600000, .i32⟩
  | 17 => ⟨S650000, .i32⟩
  | 18 => ⟨S1x600000, .i32⟩
  | 19 => ⟨S600000, .i32⟩
  | 20 => ⟨S650000, .i32⟩
  | 21 => ⟨S_, .f32⟩
  | 22 => ⟨S650000, .f32⟩
  | 23 => ⟨S_, .f32⟩
  | 24 => ⟨S50000, .f32⟩
  | 25 => ⟨S650000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S1x128x128, .f32⟩
  | 62 => ⟨S128x128, .f32⟩
  | 63 => ⟨S50000x128, .f32⟩
  | 64 => ⟨S_, .i32⟩
  | 65 => ⟨S650000, .i32⟩
  | 66 => ⟨S650000, .i1⟩
  | 67 => ⟨S_, .i32⟩
  | 68 => ⟨S650000, .i32⟩
  | 69 => ⟨S650000, .i32⟩
  | 70 => ⟨S650000, .i32⟩
  | 71 => ⟨S650000x1, .i32⟩
  | 72 => ⟨S650000x128, .f32⟩
  | 73 => ⟨S650000x1, .f32⟩
  | 74 => ⟨S650000x128, .f32⟩
  | 75 => ⟨S650000x128, .f32⟩
  | 76 => ⟨S_, .f32⟩
  | 77 => ⟨S50000x128, .f32⟩
  | 78 => ⟨S650000x1, .i32⟩
  | 79 => ⟨S50000x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S1x128x128, .f32⟩
  | 90 => ⟨S128x128, .f32⟩
  | 91 => ⟨S50000x128, .f32⟩
  | 92 => ⟨S_, .i32⟩
  | 93 => ⟨S650000, .i32⟩
  | 94 => ⟨S650000, .i1⟩
  | 95 => ⟨S_, .i32⟩
  | 96 => ⟨S650000, .i32⟩
  | 97 => ⟨S650000, .i32⟩
  | 98 => ⟨S650000, .i32⟩
  | 99 => ⟨S650000x1, .i32⟩
  | 100 => ⟨S650000x128, .f32⟩
  | 101 => ⟨S650000x1, .f32⟩
  | 102 => ⟨S650000x128, .f32⟩
  | 103 => ⟨S650000x128, .f32⟩
  | 104 => ⟨S_, .f32⟩
  | 105 => ⟨S50000x128, .f32⟩
  | 106 => ⟨S650000x1, .i32⟩
  | 107 => ⟨S50000x128, .f32⟩
  | 108 => ⟨S50000x128, .f32⟩
  | 109 => ⟨S1x128, .f32⟩
  | 110 => ⟨S128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S1x128x128, .f32⟩
  | 118 => ⟨S128x128, .f32⟩
  | 119 => ⟨S50000x128, .f32⟩
  | 120 => ⟨S_, .i32⟩
  | 121 => ⟨S650000, .i32⟩
  | 122 => ⟨S650000, .i1⟩
  | 123 => ⟨S_, .i32⟩
  | 124 => ⟨S650000, .i32⟩
  | 125 => ⟨S650000, .i32⟩
  | 126 => ⟨S650000, .i32⟩
  | 127 => ⟨S650000x1, .i32⟩
  | _ => ⟨S50000x256, .f32⟩

abbrev hbmTy0_1 (i : Nat) : BufTy := match i % 128 with
  | 0 => ⟨S650000x128, .f32⟩
  | 1 => ⟨S650000x1, .f32⟩
  | 2 => ⟨S650000x128, .f32⟩
  | 3 => ⟨S650000x128, .f32⟩
  | 4 => ⟨S_, .f32⟩
  | 5 => ⟨S50000x128, .f32⟩
  | 6 => ⟨S650000x1, .i32⟩
  | 7 => ⟨S50000x128, .f32⟩
  | 8 => ⟨S50000x128, .f32⟩
  | 9 => ⟨S1x128, .f32⟩
  | 10 => ⟨S128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x1, .f32⟩
  | 25 => ⟨S1x1, .f32⟩
  | 26 => ⟨S50000x1, .f32⟩
  | 27 => ⟨S50000x1, .f32⟩
  | 28 => ⟨S50000x1, .f32⟩
  | 29 => ⟨S50000x1, .f32⟩
  | 30 => ⟨S_, .f32⟩
  | 31 => ⟨S50000x1, .f32⟩
  | 32 => ⟨S50000x1, .f32⟩
  | 33 => ⟨S_, .f32⟩
  | 34 => ⟨S50000x1, .f32⟩
  | 35 => ⟨S50000x1, .f32⟩
  | 36 => ⟨S50000, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x1, .f32⟩
  | 45 => ⟨S1x1, .f32⟩
  | 46 => ⟨S50000x1, .f32⟩
  | 47 => ⟨S50000x1, .f32⟩
  | 48 => ⟨S50000x1, .f32⟩
  | 49 => ⟨S50000x1, .f32⟩
  | 50 => ⟨S_, .f32⟩
  | 51 => ⟨S50000x1, .f32⟩
  | 52 => ⟨S50000x1, .f32⟩
  | 53 => ⟨S_, .f32⟩
  | 54 => ⟨S50000x1, .f32⟩
  | 55 => ⟨S50000x1, .f32⟩
  | 56 => ⟨S50000, .f32⟩
  | 57 => ⟨S_, .f32⟩
  | 58 => ⟨S50000x4, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_cst : Ref sig .tc := ⟨.hbm, 58, rfl⟩
abbrev main_call1_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_6 : Ref sig .tc := ⟨.hbm, 64, rfl⟩
abbrev main_v38 : Ref sig .tc := ⟨.hbm, 65, rfl⟩
abbrev main_v39 : Ref sig .tc := ⟨.hbm, 66, rfl⟩
abbrev main_c_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call2_cst : Ref sig .tc := ⟨.hbm, 86, rfl⟩
abbrev main_call2_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_9 : Ref sig .tc := ⟨.hbm, 92, rfl⟩
abbrev main_v61 : Ref sig .tc := ⟨.hbm, 93, rfl⟩
abbrev main_v62 : Ref sig .tc := ⟨.hbm, 94, rfl⟩
abbrev main_c_10 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_call3_cst : Ref sig .tc := ⟨.hbm, 114, rfl⟩
abbrev main_call3_v0 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_12 : Ref sig .tc := ⟨.hbm, 120, rfl⟩
abbrev main_v84 : Ref sig .tc := ⟨.hbm, 121, rfl⟩
abbrev main_v85 : Ref sig .tc := ⟨.hbm, 122, rfl⟩
abbrev main_c_13 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_14 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_call4_cst : Ref sig .tc := ⟨.hbm, 142, rfl⟩
abbrev main_call4_v0 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_call5_cst : Ref sig .tc := ⟨.hbm, 149, rfl⟩
abbrev main_call5_v0 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_15 : Ref sig .tc := ⟨.hbm, 158, rfl⟩
abbrev main_v115 : Ref sig .tc := ⟨.hbm, 159, rfl⟩
abbrev main_v116 : Ref sig .tc := ⟨.hbm, 160, rfl⟩
abbrev main_cst_16 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_call6_cst : Ref sig .tc := ⟨.hbm, 169, rfl⟩
abbrev main_call6_v0 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_17 : Ref sig .tc := ⟨.hbm, 178, rfl⟩
abbrev main_v131 : Ref sig .tc := ⟨.hbm, 179, rfl⟩
abbrev main_v132 : Ref sig .tc := ⟨.hbm, 180, rfl⟩
abbrev main_cst_18 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_19 : Ref sig .tc := ⟨.hbm, 185, rfl⟩
abbrev main_v136 : Ref sig .tc := ⟨.hbm, 186, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bcast_S650000x1_S650000x128_0_1 : S650000x1.BroadcastsInDim S650000x128 (![0, 1] : Fin 2 → Fin S650000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  bcast_S_S50000x4 : S_.BroadcastsInDim S50000x4 (![] : Fin 0 → Fin S50000x4.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x1_S50000x1_1_0_0_1_n_n_wf : DotDims.WF S50000x128 S128x1 S50000x1 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Spec.lean ====
/-
  The mathematics of the graph network, on the extended reals, free of any program.

  A layer takes node features h (N rows of D numbers), an edge list given as a source row r e and the set S n of
  the edges that land on node n, an edge weight nrm e, a D by D matrix W and a bias b.  One program aggregates
  first and multiplies after,

      max ((h n j + sum_k (0 + sum_{e in S n} h (r e) k * nrm e) * W k j) + b j) 0,

  the other multiplies first and aggregates after,

      max ((h n j + (0 + sum_{e in S n} (sum_k h (r e) k * W k j) * nrm e)) + b j) 0.

  The two agree when every number involved is a real number: over the reals both double sums are
  sum_k sum_e h (r e) k * nrm e * W k j.  On the extended reals the step needs that hypothesis, because
  multiplication does not distribute over a sum that may hold both infinities.  Real inputs give real outputs, so
  the hypothesis is carried from layer to layer.

  The two classifier heads are computed by one program as a single product with the two first-layer matrices laid
  side by side and the two second-layer columns laid block-diagonally, the off-diagonal blocks zero; column c of
  that product is head c, because the off-diagonal terms are products with zero.
-/
import Idealize.ShloMosaic.PureOps.Ideal
import Idealize.ShloMosaic.Lib.ValueIdx

noncomputable section

open scoped BigOperators

namespace Cert.Spec

open Idealize.ShloMosaic Idealize.ShloMosaic.ValueIdx

/-! ## Matrices as functions of two coordinates -/

/-- A rank-2 array read by its two coordinates. -/
def cur {n0 n1 : Nat} (a : (⟨2, ![n0, n1]⟩ : Shape).Idx → EReal) : Fin n0 → Fin n1 → EReal := fun p q => a (ix2 p q)

/-- A function of two coordinates as a rank-2 array. -/
def arrOf {n0 n1 : Nat} (f : Fin n0 → Fin n1 → EReal) : (⟨2, ![n0, n1]⟩ : Shape).Idx → EReal :=
  fun i => f ⟨(i 0).val, idx2_lt0 i⟩ ⟨(i 1).val, idx2_lt1 i⟩

theorem arrOf_ix2 {n0 n1 : Nat} (f : Fin n0 → Fin n1 → EReal) (p : Fin n0) (q : Fin n1) : arrOf f (ix2 p q) = f p q := rfl

theorem cur_arrOf {n0 n1 : Nat} (f : Fin n0 → Fin n1 → EReal) : cur (arrOf f) = f := rfl

theorem arrOf_cur {n0 n1 : Nat} (a : (⟨2, ![n0, n1]⟩ : Shape).Idx → EReal) : arrOf (cur a) = a := by
  funext i
  show a (ix2 ⟨(i 0).val, idx2_lt0 i⟩ ⟨(i 1).val, idx2_lt1 i⟩) = a i
  exact congrArg a (eq_ix2 i).symm

/-! ## Real numbers among the extended reals -/

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Aggregating before or after the matrix product -/

/-- Over real numbers, the weighted sum over edges of rows, then multiplied into a column of W, is the weighted sum
    over edges of the rows already multiplied into that column. -/
theorem swap_real {E D : Type} [Fintype D] (S : Finset E) (a : E → D → ℝ) (w : E → ℝ) (W : D → ℝ) :
    (∑ k, ((0 : EReal) + ∑ e ∈ S, (a e k : EReal) * (w e : EReal)) * (W k : EReal))
      = (0 : EReal) + ∑ e ∈ S, (∑ k, (a e k : EReal) * (W k : EReal)) * (w e : EReal) := by
  have h1 : ∀ k, ((0 : EReal) + ∑ e ∈ S, (a e k : EReal) * (w e : EReal)) * (W k : EReal)
      = ((∑ e ∈ S, a e k * w e * W k : ℝ) : EReal) := by
    intro k
    rw [zero_add, Finset.sum_congr rfl (fun e _ => (EReal.coe_mul (a e k) (w e)).symm), ← coe_sum,
      ← EReal.coe_mul, Finset.sum_mul]
  have h2 : ∀ e, (∑ k, (a e k : EReal) * (W k : EReal)) * (w e : EReal)
      = ((∑ k, a e k * w e * W k : ℝ) : EReal) := by
    intro e
    rw [Finset.sum_congr rfl (fun k _ => (EReal.coe_mul (a e k) (W k)).symm), ← coe_sum, ← EReal.coe_mul,
      Finset.sum_mul]
    exact congrArg _ (Finset.sum_congr rfl fun k _ => by ring)
  rw [zero_add, Finset.sum_congr rfl (fun k _ => h1 k), Finset.sum_congr rfl (fun e _ => h2 e), ← coe_sum, ← coe_sum,
    Finset.sum_comm]

variable {N E D K : ℕ}

/-- The dense half of a layer: the features plus the aggregate times W, plus the bias, positive part. -/
def gcn (agg h : Fin N → Fin D → EReal) (W : Fin D → Fin D → EReal) (b : Fin D → EReal) : Fin N → Fin D → EReal :=
  fun n j => max ((h n j + ∑ k, agg n k * W k j) + b j) 0

/-- The weighted sum of the source rows of the edges that land on a node, from zero. -/
def aggK (r : Fin E → Fin N) (S : Fin N → Finset (Fin E)) (nrm : Fin E → EReal) (h : Fin N → Fin D → EReal) :
    Fin N → Fin D → EReal :=
  fun n k => (0 : EReal) + ∑ e ∈ S n, h (r e) k * nrm e

/-- A layer that aggregates the neighbours' rows first and multiplies by W after. -/
def layK (r : Fin E → Fin N) (S : Fin N → Finset (Fin E)) (nrm : Fin E → EReal) (h : Fin N → Fin D → EReal)
    (W : Fin D → Fin D → EReal) (b : Fin D → EReal) : Fin N → Fin D → EReal :=
  gcn (aggK r S nrm h) h W b

/-- A layer that multiplies every row by W first and aggregates the neighbours' products after. -/
def layR (r : Fin E → Fin N) (S : Fin N → Finset (Fin E)) (nrm : Fin E → EReal) (h : Fin N → Fin D → EReal)
    (W : Fin D → Fin D → EReal) (b : Fin D → EReal) : Fin N → Fin D → EReal :=
  fun n j => max ((h n j + ((0 : EReal) + ∑ e ∈ S n, (∑ k, h (r e) k * W k j) * nrm e)) + b j) 0

/-- On real features, real edge weights and a real matrix the two layers are one function. -/
theorem layK_eq_layR (r : Fin E → Fin N) (S : Fin N → Finset (Fin E)) (nrm : Fin E → EReal)
    (h : Fin N → Fin D → EReal) (W : Fin D → Fin D → EReal) (b : Fin D → EReal)
    (hh : ∀ n k, IsReal (h n k)) (hn : ∀ e, IsReal (nrm e)) (hW : ∀ k j, IsReal (W k j)) :
    layK r S nrm h W b = layR r S nrm h W b := by
  choose h' eh using hh
  choose n' en using hn
  choose W' eW using hW
  funext n j
  unfold layK layR gcn aggK
  have key : (∑ k, ((0 : EReal) + ∑ e ∈ S n, h (r e) k * nrm e) * W k j)
      = (0 : EReal) + ∑ e ∈ S n, (∑ k, h (r e) k * W k j) * nrm e := by
    have := swap_real (S n) (fun e k => h' (r e) k) n' (fun k => W' k j)
    simpa only [eh, en, eW] using this
  rw [key]

/-- A layer of real features, weights, matrix and bias has real features. -/
theorem layR_real (r : Fin E → Fin N) (S : Fin N → Finset (Fin E)) (nrm : Fin E → EReal)
    (h : Fin N → Fin D → EReal) (W : Fin D → Fin D → EReal) (b : Fin D → EReal)
    (hh : ∀ n k, IsReal (h n k)) (hn : ∀ e, IsReal (nrm e)) (hW : ∀ k j, IsReal (W k j)) (hb : ∀ j, IsReal (b j))
    (n : Fin N) (j : Fin D) : IsReal (layR r S nrm h W b n j) := by
  unfold layR
  refine IsReal.max (((hh n j).add (isReal_zero.add ?_)).add (hb j)) isReal_zero
  exact isReal_sum _ _ fun e _ => (isReal_sum _ _ fun k _ => (hh (r e) k).mul (hW k j)).mul (hn e)

/-- The input projection: a product with a matrix, a bias, and the positive part. -/
def lin (x : Fin N → Fin K → EReal) (w : Fin K → Fin D → EReal) (b : Fin D → EReal) : Fin N → Fin D → EReal :=
  fun n j => max ((∑ k, x n k * w k j) + b j) 0

theorem lin_real (x : Fin N → Fin K → EReal) (w : Fin K → Fin D → EReal) (b : Fin D → EReal)
    (hx : ∀ n k, IsReal (x n k)) (hw : ∀ k j, IsReal (w k j)) (hb : ∀ j, IsReal (b j)) (n : Fin N) (j : Fin D) :
    IsReal (lin x w b n j) := by
  unfold lin
  exact IsReal.max ((isReal_sum _ _ fun k _ => (hx n k).mul (hw k j)).add (hb j)) isReal_zero

/-! ## The two heads as one block product -/

/-- One head: a hidden layer with the positive part, a product with one column, a bias, the logistic function
    spelt as a quotient. -/
def headR (h : Fin N → Fin D → EReal) (w1 : Fin D → Fin D → EReal) (b1 : Fin D → EReal) (w2 : Fin D → EReal)
    (b2 : EReal) : Fin N → EReal :=
  fun n => Ideal.div 1 (1 + Ideal.exp (-((∑ k, max ((∑ j, h n j * w1 j k) + b1 k) 0 * w2 k) + b2)))

/-- Both heads at once: the hidden layers side by side, the second layer a two-column matrix, the logistic function
    as one operation. -/
def headK (h : Fin N → Fin D → EReal) (w1 : Fin D → Fin (D + D) → EReal) (b1 : Fin (D + D) → EReal)
    (w2 : Fin (D + D) → Fin 2 → EReal) (b2 : Fin 2 → EReal) : Fin N → Fin 2 → EReal :=
  fun n c => Ideal.logistic ((∑ k, max ((∑ j, h n j * w1 j k) + b1 k) 0 * w2 k c) + b2 c)

/-- Column c of the block product is the head whose hidden layer fills the block that column keeps; the other
    block meets zeros. -/
theorem headK_eq (h : Fin N → Fin D → EReal) (w1 : Fin D → Fin (D + D) → EReal) (b1 : Fin (D + D) → EReal)
    (w2 : Fin (D + D) → Fin 2 → EReal) (b2 : Fin 2 → EReal)
    (wa wb : Fin D → Fin D → EReal) (ba bb : Fin D → EReal) (va vb : Fin D → EReal) (ca cb : EReal)
    (hw1a : ∀ j k, w1 j (Fin.castAdd D k) = wa j k) (hw1b : ∀ j k, w1 j (Fin.natAdd D k) = wb j k)
    (hb1a : ∀ k, b1 (Fin.castAdd D k) = ba k) (hb1b : ∀ k, b1 (Fin.natAdd D k) = bb k)
    (hw2a0 : ∀ k, w2 (Fin.castAdd D k) 0 = va k) (hw2b0 : ∀ k, w2 (Fin.natAdd D k) 0 = 0)
    (hw2a1 : ∀ k, w2 (Fin.castAdd D k) 1 = 0) (hw2b1 : ∀ k, w2 (Fin.natAdd D k) 1 = vb k)
    (hb20 : b2 0 = ca) (hb21 : b2 1 = cb) (n : Fin N) :
    headK h w1 b1 w2 b2 n 0 = headR h wa ba va ca n ∧ headK h w1 b1 w2 b2 n 1 = headR h wb bb vb cb n := by
  unfold headK headR Ideal.logistic
  constructor
  · rw [Fin.sum_univ_add]
    simp only [hw1a, hw1b, hb1a, hb1b, hw2a0, hw2b0, hb20, mul_zero, Finset.sum_const_zero, add_zero]
  · rw [Fin.sum_univ_add]
    simp only [hw1a, hw1b, hb1a, hb1b, hw2a1, hw2b1, hb21, mul_zero, Finset.sum_const_zero, zero_add]

end Cert.Spec

end
-- ==== Proof.Net.lean ====
/-
  The network's data and its layers, named once for both programs.

  From the edge list both programs build the same three things: for every edge e (the 600000 given edges, then one
  self loop per node) its source row src e, a node index clamped into range; for every node n the set land n of the
  edges whose target is n; and the edge weight nrm e, the product of the two end nodes' inverse square-root degrees.
  They are read off the stages of the reference's run: the index column the row gather takes, the index column
  the segment sum takes, and the vector of weights.

  h0 is the input projection.  hK1, hK2, hK3 are the three layers computed aggregate-first, hR1, hR2, hR3 the same
  layers computed product-first.  head is one classifier head.
-/
import proofs.«419781_j4337916969237_4_alg».proof.Proof.RefRead
import proofs.«419781_j4337916969237_4_alg».proof.Proof.Spec

noncomputable section

namespace Cert.Net

open Idealize.ShloMosaic Idealize.ShloMosaic.ValueIdx Cert.ReferenceIdeal Cert.ReferenceIdeal.ReadP Cert.Spec

/-- The source row of edge e: entry e of the gather's index column, read signed and clamped into the node range. -/
def src (x1 : S2x600000.Idx → BitVec 32) (e : Fin 650000) : Fin 50000 :=
  ⟨min ((val_main_v20 (F := Ideal) x1 (ix2 e (0 : Fin 1)) : BitVec 32)).toInt.toNat (50000 - 1), by omega⟩

/-- The edges that land on node n: those whose entry of the segment sum's index column, read signed, is n. -/
def land (x1 : S2x600000.Idx → BitVec 32) (n : Fin 50000) : Finset (Fin 650000) :=
  Finset.univ.filter fun e => ((val_main_v9 (F := Ideal) x1 (ix2 e (0 : Fin 1)) : BitVec 32)).toInt = (n.val : Int)

/-- The weight of edge e. -/
def nrm (x1 : S2x600000.Idx → BitVec 32) (e : Fin 650000) : EReal := val_main_v29 (F := Ideal) x1 (ix1 e)

/-- The input projection of the node features. -/
def h0 (x0 : S50000x256.Idx → EReal) (x2 : S256x128.Idx → EReal) (x3 : S128.Idx → EReal) : Fin 50000 → Fin 128 → EReal :=
  lin (cur x0) (cur x2) (fun j => x3 (ix1 j))

/-- Layer l's matrix. -/
def Wl (x4 : S3x128x128.Idx → EReal) (l : Fin 3) : Fin 128 → Fin 128 → EReal := fun k j => x4 (ix3 l k j)

/-- Layer l's bias. -/
def bl (x5 : S3x128.Idx → EReal) (l : Fin 3) : Fin 128 → EReal := fun j => x5 (ix2 l j)

section Layers
variable (x0 : S50000x256.Idx → EReal) (x1 : S2x600000.Idx → BitVec 32) (x2 : S256x128.Idx → EReal)
  (x3 : S128.Idx → EReal) (x4 : S3x128x128.Idx → EReal) (x5 : S3x128.Idx → EReal)

def hK1 : Fin 50000 → Fin 128 → EReal := layK (src x1) (land x1) (nrm x1) (h0 x0 x2 x3) (Wl x4 0) (bl x5 0)
def hK2 : Fin 50000 → Fin 128 → EReal := layK (src x1) (land x1) (nrm x1) (hK1 x0 x1 x2 x3 x4 x5) (Wl x4 1) (bl x5 1)
def hK3 : Fin 50000 → Fin 128 → EReal := layK (src x1) (land x1) (nrm x1) (hK2 x0 x1 x2 x3 x4 x5) (Wl x4 2) (bl x5 2)

def hR1 : Fin 50000 → Fin 128 → EReal := layR (src x1) (land x1) (nrm x1) (h0 x0 x2 x3) (Wl x4 0) (bl x5 0)
def hR2 : Fin 50000 → Fin 128 → EReal := layR (src x1) (land x1) (nrm x1) (hR1 x0 x1 x2 x3 x4 x5) (Wl x4 1) (bl x5 1)
def hR3 : Fin 50000 → Fin 128 → EReal := layR (src x1) (land x1) (nrm x1) (hR2 x0 x1 x2 x3 x4 x5) (Wl x4 2) (bl x5 2)

end Layers

/-- One classifier head over features h. -/
def head (h : Fin 50000 → Fin 128 → EReal) (w1 : S128x128.Idx → EReal) (b1 : S128.Idx → EReal) (w2 : S128x1.Idx → EReal)
    (b2 : S1.Idx → EReal) : Fin 50000 → EReal :=
  headR h (cur w1) (fun k => b1 (ix1 k)) (fun k => w2 (ix2 k (0 : Fin 1))) (b2 (ix1 (0 : Fin 1)))

/-- A function of the node as a rank-1 array. -/
def vecOf (f : Fin 50000 → EReal) : S50000.Idx → EReal := fun i => f ⟨(i 0).val, (i 0).isLt⟩

theorem vecOf_ix1 (f : Fin 50000 → EReal) (n : Fin 50000) : vecOf f (ix1 n) = f n := rfl

end Cert.Net

end
-- ==== Proof.KGraph.lean ====
/-
  The edge data of the kernel's program are the reference's.

  The kernel program's first host operations, up to the product of the two gathered inverse square-root degrees, are
  the reference's first operations, one for one: the list of source nodes (the given sources, then every node once),
  the list of target nodes, and the edge weights are the same functions of the edge list.  The index column a layer's
  row gather takes (a negative entry moved up by the node count) and the index column its segment sum takes are the
  reference's too.  Nothing here depends on what a float is, so it is stated for every float family.
-/
import proofs.«419781_j4337916969237_4_alg».proof.Proof.Gen.KernelIdeal.Frame
import proofs.«419781_j4337916969237_4_alg».proof.Proof.Net

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ) (ρ : Dev nD → PrngReg)

/-- The source list, at the first region's entry. -/
theorem W3_row (c : Dev nD) :
    W3 m ρ c (Proc.devRef .tc main_v3) = Cert.ReferenceIdeal.ReadP.val_main_v3 (F := F) (m ((c : Thread nD τ).loc main_arg1)) := by
  dsimp only [W3, W2, W1]
  after_results_simp
  rfl

/-- The target list, at the first region's entry. -/
theorem W3_col (c : Dev nD) :
    W3 m ρ c (Proc.devRef .tc main_v6) = Cert.ReferenceIdeal.ReadP.val_main_v6 (F := F) (m ((c : Thread nD τ).loc main_arg1)) := by
  dsimp only [W3, W2, W1]
  after_results_simp
  rfl

/-- The edge weights, at the first region's entry. -/
theorem W3_nrm (c : Dev nD) :
    W3 m ρ c (Proc.devRef .tc main_v29) = Cert.ReferenceIdeal.ReadP.val_main_v29 (F := F) (m ((c : Thread nD τ).loc main_arg1)) := by
  dsimp only [W3, W2, W1]
  after_results_simp
  rfl

/-- The input projection's bias row, at the first region's entry. -/
theorem W3_bin (c : Dev nD) :
    W3 m ρ c (Proc.devRef .tc main_v30) = shapeCast S1x128 (m ((c : Thread nD τ).loc main_arg3)) shapeCasts_S128_S1x128 := by
  dsimp only [W3, W2, W1]
  after_results_simp
  rfl

/-- A layer's gather index column, built from the source list, is the reference's. -/
theorem rowcol_eq (x1 : Cert.ReferenceIdeal.S2x600000.Idx → BitVec 32) (v3 : S650000.Idx → BitVec 32)
    (h : v3 = Cert.ReferenceIdeal.ReadP.val_main_v3 (F := F) x1) :
    broadcastInDim S650000x1 ![0] bcast_S650000_S650000x1_0
        (select (cmpi .slt v3 (broadcastInDim S650000 ![] bcast_S_S650000 (constantI S_ 32 0#32)))
          (addi v3 (broadcastInDim S650000 ![] bcast_S_S650000 (constantI S_ 32 50000#32))) v3)
      = Cert.ReferenceIdeal.ReadP.val_main_v20 (F := F) x1 := by
  subst h
  rfl

/-- A layer's segment-sum index column, built from the target list, is the reference's. -/
theorem colcol_eq (x1 : Cert.ReferenceIdeal.S2x600000.Idx → BitVec 32) (v6 : S650000.Idx → BitVec 32)
    (h : v6 = Cert.ReferenceIdeal.ReadP.val_main_v6 (F := F) x1) :
    broadcastInDim S650000x1 ![0] bcast_S650000_S650000x1_0 v6 = Cert.ReferenceIdeal.ReadP.val_main_v9 (F := F) x1 := by
  subst h
  rfl

end Cert.KernelIdeal.Val

end
-- ==== Proof.KRegion0.lean ====
/-
  The input projection's kernel, read as a whole array.

  The kernel runs on ten blocks of 5000 rows.  At a block it loads the block of x, all of w and the bias row,
  forms x w + b and takes the positive part.  Block t of the output array is rows 5000 t to 5000 t + 4999, so the
  blocks tile the array and entry (n, j) of the array is max (sum_k x n k * w k j + b j) 0.
-/
import proofs.«419781_j4337916969237_4_alg».proof.Proof.Gen.KernelIdeal.Frame
import proofs.«419781_j4337916969237_4_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec
open Idealize.ShloMosaic.Pipeline (Dat)

/-! ## The block's arithmetic at one entry -/

/-- Offsets that are both zero, as a constant function. -/
private theorem zeros2 : (![0, 0] : Fin 2 → Nat) = fun _ => 0 := funext fun a => by fin_cases a <;> rfl

/-- Along the rows the left factor of the block product is read at the output's row. -/
private theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl

/-- Along the columns the left factor is read at the summation index. -/
private theorem lhs_col (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q

/-- Along the rows the right factor is read at the summation index. -/
private theorem rhs_row (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q

/-- Along the columns the right factor is read at the output's column. -/
private theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The block product started from zero, at entry (p, q): the sum over k of x p k * w k q. -/
private theorem prod_entry (x : FVec Ideal S5000x256 .f32) (w : FVec Ideal S256x128 .f32) (p : Fin 5000) (q : Fin 128) :
    matmul dot_S5000x256_S256x128_S5000x128_1_0_0_1_n_n (some .fp32) x w (constant (F := Ideal) S5000x128 .f32 0x00000000#32) (ix2 p q)
      = ∑ k : Fin 256, x (ix2 p k) * w (ix2 k q) := by
  refine (Ideal.matmul_constant_zero_apply dot_S5000x256_S256x128_S5000x128_1_0_0_1_n_n (some .fp32) x w (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_row _ _
    | ⟨1, _⟩ => exact (lhs_col _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_row _ _).trans hk
    | ⟨1, _⟩ => exact rhs_col _ _)
  rw [el, er]

/-- What the body stores, at entry (p, q) of the block: the positive part of the product plus the bias. -/
private theorem stored_entry (x : Vec Ideal S5000x256 .f32) (w : Vec Ideal S256x128 .f32) (b : Vec Ideal S1x128 .f32)
    (p : Fin 5000) (q : Fin 128) :
    (k0_pay1 (F := Ideal) x w b : S5000x128.Idx → EReal) (ix2 p q)
      = max ((∑ k : Fin 256, (x (ix2 p k) : EReal) * (w (ix2 k q) : EReal)) + (b (ix2 (0 : Fin 1) q) : EReal)) 0 := by
  unfold k0_pay1
  refine (maximumf_apply _ _ (ix2 p q)).trans ?_
  refine congrArg₂ max ?_ Ideal.ofBits_zero_f32
  refine (addf_apply _ _ (ix2 p q)).trans ?_
  refine congrArg₂ (· + ·) (prod_entry x w p q) ?_
  refine (broadcastTo_1b_ab_apply _ _ p q).trans ?_
  exact congrFun (shapeCast_self b _) (ix2 (0 : Fin 1) q)

/-- An array of two coordinates read where the coordinates are known. -/
private theorem arrOf_at {n0 n1 : Nat} (f : Fin n0 → Fin n1 → EReal) (i : (⟨2, ![n0, n1]⟩ : Shape).Idx) (a : Fin n0) (b : Fin n1)
    (ha : (i 0).val = a.val) (hb : (i 1).val = b.val) : arrOf f i = f a b := by
  show f ⟨(i 0).val, idx2_lt0 i⟩ ⟨(i 1).val, idx2_lt1 i⟩ = f a b
  rw [show (⟨(i 0).val, idx2_lt0 i⟩ : Fin n0) = a from Fin.ext ha, show (⟨(i 1).val, idx2_lt1 i⟩ : Fin n1) = b from Fin.ext hb]

variable (V : (c : Dev nD) → (b : Ref sig .tc) → Buf (Elt Ideal) ((c : Thread nD τ).loc b))

/-! ## Where each window's block lies -/

/-- The block indices over the grid: the windows of x and of the output move down the rows with the point, the matrix
    and the bias row stay. -/
private theorem where_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block of x is row 5000 t + p of x. -/
private theorem x_block (c : Dev nD) (t : Fin cfg0.N) (p : Fin 5000) (k : Fin 256) (n : Fin 50000)
    (hn : n.val = t.val * 5000 + p.val) :
    (iblk0 V c 0 t : Vec Ideal S5000x256 .f32) (ix2 p k) = (V c main_arg0 : S50000x256.Idx → EReal) (ix2 n k) := by
  obtain ⟨e0, e1, -⟩ := where_blocks t
  unfold iblk0
  rw [View.read_apply]
  show V c main_arg0 _ = V c main_arg0 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 256 + 1 * k.val = k.val; rw [e1]; omega

/-- Every point's block of the matrix is the matrix. -/
private theorem w_block (c : Dev nD) (t : Fin cfg0.N) (k : Fin 256) (q : Fin 128) :
    (iblk0 V c 1 t : Vec Ideal S256x128 .f32) (ix2 k q) = (V c main_arg2 : S256x128.Idx → EReal) (ix2 k q) := by
  obtain ⟨-, -, e0, e1, -⟩ := where_blocks t
  unfold iblk0
  rw [View.read_apply]
  show V c main_arg2 _ = V c main_arg2 _
  congr 1
  funext a
  apply Fin.ext
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-- Every point's block of the bias row is the bias row. -/
private theorem b_block (c : Dev nD) (t : Fin cfg0.N) (q : Fin 128) :
    (iblk0 V c 2 t : Vec Ideal S1x128 .f32) (ix2 (0 : Fin 1) q) = (V c main_v30 : S1x128.Idx → EReal) (ix2 (0 : Fin 1) q) := by
  obtain ⟨-, -, -, -, e0, e1, -⟩ := where_blocks t
  unfold iblk0
  rw [View.read_apply]
  show V c main_v30 _ = V c main_v30 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-! ## From the blocks to the array -/

/-- What point t writes back is block t of the projection of the arrays the region found. -/
private theorem block_written (c : Dev nD) (t : Fin cfg0.N) :
    (dat0 (F := Ideal) V c).flushed 3 t = ((cfg0.win 3).blk t).view.read (Elt Ideal)
      (arrOf (lin (cur (V c main_arg0 : S50000x256.Idx → EReal)) (cur (V c main_arg2 : S256x128.Idx → EReal))
        (fun j => (V c main_v30 : S1x128.Idx → EReal) (ix2 (0 : Fin 1) j)))) := by
  show (cfg0.win 3).cut (grid0.coords t) ((dat0 V c).after 3 t) = _
  rw [after0_3]
  unfold out0_3
  rw [View.canon_unit_zero zeros2]
  simp only [View.ld_unit_zero (S := S5000x256) zeros2, View.ld_unit_zero (S := S256x128) zeros2, View.ld_unit_zero (S := S1x128) zeros2]
  obtain ⟨-, -, -, -, -, -, e0, e1⟩ := where_blocks t
  have ht : t.val < 10 := lt_of_lt_of_eq t.isLt N_0
  show (k0_pay1 (F := Ideal) (iblk0 V c 0 t) (iblk0 V c 1 t) (iblk0 V c 2 t) : S5000x128.Idx → EReal)
    = fun j : S5000x128.Idx => arrOf (lin (cur (V c main_arg0 : S50000x256.Idx → EReal)) (cur (V c main_arg2 : S256x128.Idx → EReal))
        (fun j => (V c main_v30 : S1x128.Idx → EReal) (ix2 (0 : Fin 1) j))) (((cfg0.win 3).blk t).view.emb j)
  funext j
  obtain ⟨p, q, rfl⟩ : ∃ (p : Fin 5000) (q : Fin 128), j = ix2 p q := ⟨j 0, j 1, eq_ix2 j⟩
  refine (stored_entry (iblk0 V c 0 t) (iblk0 V c 1 t) (iblk0 V c 2 t) p q).trans ?_
  have hp : p.val < 5000 := p.isLt
  have hn : t.val * 5000 + p.val < 50000 := by omega
  refine Eq.trans ?_ (arrOf_at _ (((cfg0.win 3).blk t).view.emb (ix2 p q)) ⟨t.val * 5000 + p.val, hn⟩ q ?_ ?_).symm
  · unfold lin cur
    exact congrArg₂ max (congrArg₂ (· + ·) (Finset.sum_congr rfl fun k _ =>
      congrArg₂ (· * ·) (x_block V c t p k ⟨t.val * 5000 + p.val, hn⟩ rfl) (w_block V c t k q)) (b_block V c t q)) rfl
  · show win0_3.index t (0 : Fin 2) * 5000 + 1 * p.val = t.val * 5000 + p.val
    rw [e0]; omega
  · show win0_3.index t (1 : Fin 2) * 128 + 1 * q.val = q.val
    rw [e1]; omega

/-- An entry of the array is in point t's block when each coordinate is in the block's range. -/
private theorem in_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v31).slice (win0_3.rect t)).set ↔ _
  rw [View.set_slice_whole, Rect.mem_set_unit]
  exact Iff.rfl

/-- Row r lies in the block of point r / 5000, so the ten blocks fill the array. -/
private theorem blocks_fill (i : S50000x128.Idx) :
    ∃ t : Fin cfg0.N, (cfg0.win 3).flush t = true ∧ i ∈ ((cfg0.win 3).blk t).view.set := by
  have h0 : (i 0).val < 50000 := idx2_lt0 i
  have h1 : (i 1).val < 128 := idx2_lt1 i
  have hN : cfg0.N = 10 := N_0
  refine ⟨⟨(i 0).val / 5000, by rw [hN]; omega⟩, flush0_3 _, ?_⟩
  rw [in_block]
  obtain ⟨-, -, -, -, -, -, e0, e1⟩ := where_blocks ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- After the first region its output array is the input projection of the arrays the region found. -/
theorem region0_arr (c : Dev nD) :
    ((dat0 (F := Ideal) V c).arrAt 3 cfg0.N : S50000x128.Idx → EReal)
      = arrOf (lin (cur (V c main_arg0 : S50000x256.Idx → EReal)) (cur (V c main_arg2 : S256x128.Idx → EReal))
          (fun j => (V c main_v30 : S1x128.Idx → EReal) (ix2 (0 : Fin 1) j))) :=
  (dat0 (F := Ideal) V c).arrAt_eq_of_cover 3 _ (fun t _ => block_written V c t) blocks_fill

end Cert.KernelIdeal.Val

end
-- ==== Proof.KRegion1.lean ====
/-
  A layer's dense kernel, read as a whole array.

  The kernel runs on ten blocks of 5000 rows.  At a block it loads the block of the aggregate, the block of the
  features, all of W and the bias row, and stores max ((h + agg W) + b) 0.  The blocks tile the array, so entry
  (n, j) of the output array is max ((h n j + sum_k agg n k * W k j) + b j) 0.
-/
import proofs.«419781_j4337916969237_4_alg».proof.Proof.Gen.KernelIdeal.Frame
import proofs.«419781_j4337916969237_4_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec
open Idealize.ShloMosaic.Pipeline (Dat)

/-! ## The block's arithmetic at one entry -/

/-- A block that starts at the origin has zero offsets. -/
private theorem r1_origin : (![0, 0] : Fin 2 → Nat) = fun _ => 0 := funext fun a => by fin_cases a <;> rfl

/-- The product's left operand is read at the output's row … -/
private theorem r1_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the summation index, … -/
private theorem r1_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … its right operand at the summation index … -/
private theorem r1_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
private theorem r1_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product started from zero, at entry (p, q): the sum over k of a p k * w k q. -/
private theorem r1_prod_apply (a : FVec Ideal S5000x128 .f32) (w : FVec Ideal S128x128 .f32) (p : Fin 5000) (q : Fin 128) :
    matmul dot_S5000x128_S128x128_S5000x128_1_0_0_1_n_n (some .fp32) a w (constant (F := Ideal) S5000x128 .f32 0x00000000#32) (ix2 p q)
      = ∑ k : Fin 128, a (ix2 p k) * w (ix2 k q) := by
  show FloatOps.matmul dot_S5000x128_S128x128_S5000x128_1_0_0_1_n_n (some .fp32) a w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact r1_lhs_0 _ _
    | ⟨1, _⟩ => exact (r1_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (r1_rhs_0 _ _).trans hk
    | ⟨1, _⟩ => exact r1_rhs_1 _ _)
  rw [el, er]

/-- What the body stores, at entry (p, q) of the block: the features plus the product of the aggregate's row with W's
    column, plus the bias, positive part. -/
private theorem r1_pay_apply (a : Vec Ideal S5000x128 .f32) (w : Vec Ideal S128x128 .f32) (h : Vec Ideal S5000x128 .f32)
    (b : Vec Ideal S1x128 .f32) (p : Fin 5000) (q : Fin 128) :
    k1_pay1 (F := Ideal) a w h b (ix2 p q)
      = max ((h (ix2 p q) + ∑ k : Fin 128, a (ix2 p k) * w (ix2 k q)) + b (ix2 (0 : Fin 1) q)) 0 := by
  unfold k1_pay1
  simp only [shapeCast_self]
  show max ((h (ix2 p q) + matmul dot_S5000x128_S128x128_S5000x128_1_0_0_1_n_n (some .fp32) a w (constant (F := Ideal) S5000x128 .f32 0x00000000#32) (ix2 p q))
      + broadcastTo S5000x128 b broadcasts_S1x128_S5000x128 (ix2 p q)) (Ideal.ofBits .f32 0x00000000#32) = _
  rw [r1_prod_apply, broadcastTo_1b_ab_apply, Ideal.ofBits_zero_f32]

/-! ## The blocks are rows of the arrays -/

variable (V : (c : Dev nD) → (b : Ref sig .tc) → Buf (Elt Ideal) ((c : Thread nD τ).loc b))

/-- Where each window's block sits at grid point t: the aggregate, the features and the output at block (t, 0);
    W and the bias row whole. -/
private theorem r1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of the aggregate's block at point t is row 5000 t + p of the aggregate. -/
private theorem r1_agg_blk (c : Dev nD) (t : Fin cfg1.N) (p : Fin 5000) (k : Fin 128) (n : Fin 50000)
    (hn : n.val = t.val * 5000 + p.val) :
    (iblk1 V c 0 t : Vec Ideal S5000x128 .f32) (ix2 p k) = (V c main_v44 : S50000x128.Idx → EReal) (ix2 n k) := by
  obtain ⟨e0, e1, -⟩ := r1_idx t
  unfold iblk1
  rw [View.read_apply]
  show (V c main_v44 : S50000x128.Idx → EReal) _ = _
  refine congrArg _ (funext fun a => Fin.ext ?_)
  match a with
  | ⟨0, _⟩ => show win1_0.index t (0 : Fin 2) * 5000 + 1 * p.val = n.val; omega
  | ⟨1, _⟩ => show win1_0.index t (1 : Fin 2) * 128 + 1 * k.val = k.val; omega

/-- Row p of the features' block at point t is row 5000 t + p of the features. -/
private theorem r1_h_blk (c : Dev nD) (t : Fin cfg1.N) (p : Fin 5000) (q : Fin 128) (n : Fin 50000)
    (hn : n.val = t.val * 5000 + p.val) :
    (iblk1 V c 1 t : Vec Ideal S5000x128 .f32) (ix2 p q) = (V c main_v31 : S50000x128.Idx → EReal) (ix2 n q) := by
  obtain ⟨-, -, e0, e1, -⟩ := r1_idx t
  unfold iblk1
  rw [View.read_apply]
  show (V c main_v31 : S50000x128.Idx → EReal) _ = _
  refine congrArg _ (funext fun a => Fin.ext ?_)
  match a with
  | ⟨0, _⟩ => show win1_1.index t (0 : Fin 2) * 5000 + 1 * p.val = n.val; omega
  | ⟨1, _⟩ => show win1_1.index t (1 : Fin 2) * 128 + 1 * q.val = q.val; omega

/-- W's block is all of W at every point. -/
private theorem r1_W_blk (c : Dev nD) (t : Fin cfg1.N) (k q : Fin 128) :
    (iblk1 V c 2 t : Vec Ideal S128x128 .f32) (ix2 k q) = (V c main_v46 : S128x128.Idx → EReal) (ix2 k q) := by
  obtain ⟨-, -, -, -, e0, e1, -⟩ := r1_idx t
  unfold iblk1
  rw [View.read_apply]
  show (V c main_v46 : S128x128.Idx → EReal) _ = _
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias's block is the whole bias row at every point. -/
private theorem r1_b_blk (c : Dev nD) (t : Fin cfg1.N) (q : Fin 128) :
    (iblk1 V c 3 t : Vec Ideal S1x128 .f32) (ix2 (0 : Fin 1) q) = (V c main_v49 : S1x128.Idx → EReal) (ix2 (0 : Fin 1) q) := by
  obtain ⟨-, -, -, -, -, -, e0, e1, -⟩ := r1_idx t
  unfold iblk1
  rw [View.read_apply]
  show (V c main_v49 : S1x128.Idx → EReal) _ = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-! ## What a grid point writes back, and the whole array -/

/-- Grid point t writes back block t of the layer's dense half of the arrays the region found. -/
private theorem r1_flushed (c : Dev nD) (t : Fin cfg1.N) :
    (dat1 (F := Ideal) V c).flushed 4 t = ((cfg1.win 4).blk t).view.read (Elt Ideal)
      (arrOf (gcn (cur (V c main_v44 : S50000x128.Idx → EReal)) (cur (V c main_v31 : S50000x128.Idx → EReal))
          (cur (V c main_v46 : S128x128.Idx → EReal)) (fun j => (V c main_v49 : S1x128.Idx → EReal) (ix2 (0 : Fin 1) j)))) := by
  show (cfg1.win 4).cut (grid1.coords t) ((dat1 (F := Ideal) V c).after 4 t) = _
  rw [after1_4]
  unfold out1_4
  rw [View.canon_unit_zero r1_origin]
  simp only [View.ld_unit_zero (S := S5000x128) r1_origin, View.ld_unit_zero (S := S128x128) r1_origin,
    View.ld_unit_zero (S := S1x128) r1_origin]
  obtain ⟨-, -, -, -, -, -, -, -, e0, e1⟩ := r1_idx t
  have hN : cfg1.N = 10 := N_1
  funext j
  obtain ⟨p, q, rfl⟩ : ∃ (p : Fin 5000) (q : Fin 128), j = ix2 p q := ⟨j 0, j 1, eq_ix2 j⟩
  have hn : t.val * 5000 + p.val < 50000 := by have := t.isLt; have := p.isLt; omega
  have hemb : ((cfg1.win 4).blk t).view.emb (ix2 p q) = ix2 (⟨t.val * 5000 + p.val, hn⟩ : Fin 50000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  rw [View.read_apply, hemb, arrOf_ix2]
  refine (r1_pay_apply (iblk1 V c 0 t) (iblk1 V c 2 t) (iblk1 V c 1 t) (iblk1 V c 3 t) p q).trans ?_
  unfold gcn cur
  exact congrArg₂ max (congrArg₂ (· + ·) (congrArg₂ (· + ·) (r1_h_blk V c t p q ⟨_, hn⟩ rfl)
    (Finset.sum_congr rfl fun k _ => congrArg₂ (· * ·) (r1_agg_blk V c t p k ⟨_, hn⟩ rfl) (r1_W_blk V c t k q)))
    (r1_b_blk V c t q)) rfl

/-- An index of the output array is in point t's block when its row is among the block's 5000 rows. -/
private theorem r1_mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v50).slice (win1_4.rect t)).set ↔ _
  rw [View.set_slice_whole, Rect.mem_set_unit]
  exact Iff.rfl

/-- The ten blocks tile the array: row r lies in the block of point r / 5000. -/
private theorem r1_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, -, -, -, e0, e1⟩ := r1_idx t
  refine ⟨t, flush1_4 t, ?_⟩
  rw [r1_mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- After the region its output array is the dense half of a layer of the arrays the region found. -/
theorem region1_arr (c : Dev nD) :
    ((dat1 (F := Ideal) V c).arrAt 4 cfg1.N : S50000x128.Idx → EReal)
      = arrOf (gcn (cur (V c main_v44 : S50000x128.Idx → EReal)) (cur (V c main_v31 : S50000x128.Idx → EReal))
          (cur (V c main_v46 : S128x128.Idx → EReal)) (fun j => (V c main_v49 : S1x128.Idx → EReal) (ix2 (0 : Fin 1) j))) :=
  (dat1 (F := Ideal) V c).arrAt_eq_of_cover 4 _ (fun t _ => r1_flushed V c t) r1_cover

end Cert.KernelIdeal.Val

end
-- ==== Proof.KRegion2.lean ====
/-
  A layer's dense kernel, read as a whole array.

  The kernel runs on ten blocks of 5000 rows.  At a block it loads the block of the aggregate, the block of the
  features, all of W and the bias row, and stores max ((h + agg W) + b) 0.  The blocks tile the array, so entry
  (n, j) of the output array is max ((h n j + sum_k agg n k * W k j) + b j) 0.
-/
import proofs.«419781_j4337916969237_4_alg».proof.Proof.Gen.KernelIdeal.Frame
import proofs.«419781_j4337916969237_4_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec
open Idealize.ShloMosaic.Pipeline (Dat)

/-! ## The block's arithmetic at one entry -/

/-- A block that starts at the origin has zero offsets. -/
private theorem r2_origin : (![0, 0] : Fin 2 → Nat) = fun _ => 0 := funext fun a => by fin_cases a <;> rfl

/-- The product's left operand is read at the output's row … -/
private theorem r2_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the summation index, … -/
private theorem r2_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … its right operand at the summation index … -/
private theorem r2_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
private theorem r2_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product started from zero, at entry (p, q): the sum over k of a p k * w k q. -/
private theorem r2_prod_apply (a : FVec Ideal S5000x128 .f32) (w : FVec Ideal S128x128 .f32) (p : Fin 5000) (q : Fin 128) :
    matmul dot_S5000x128_S128x128_S5000x128_1_0_0_1_n_n (some .fp32) a w (constant (F := Ideal) S5000x128 .f32 0x00000000#32) (ix2 p q)
      = ∑ k : Fin 128, a (ix2 p k) * w (ix2 k q) := by
  show FloatOps.matmul dot_S5000x128_S128x128_S5000x128_1_0_0_1_n_n (some .fp32) a w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact r2_lhs_0 _ _
    | ⟨1, _⟩ => exact (r2_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (r2_rhs_0 _ _).trans hk
    | ⟨1, _⟩ => exact r2_rhs_1 _ _)
  rw [el, er]

/-- What the body stores, at entry (p, q) of the block: the features plus the product of the aggregate's row with W's
    column, plus the bias, positive part. -/
private theorem r2_pay_apply (a : Vec Ideal S5000x128 .f32) (w : Vec Ideal S128x128 .f32) (h : Vec Ideal S5000x128 .f32)
    (b : Vec Ideal S1x128 .f32) (p : Fin 5000) (q : Fin 128) :
    k2_pay1 (F := Ideal) a w h b (ix2 p q)
      = max ((h (ix2 p q) + ∑ k : Fin 128, a (ix2 p k) * w (ix2 k q)) + b (ix2 (0 : Fin 1) q)) 0 := by
  unfold k2_pay1
  simp only [shapeCast_self]
  show max ((h (ix2 p q) + matmul dot_S5000x128_S128x128_S5000x128_1_0_0_1_n_n (some .fp32) a w (constant (F := Ideal) S5000x128 .f32 0x00000000#32) (ix2 p q))
      + broadcastTo S5000x128 b broadcasts_S1x128_S5000x128 (ix2 p q)) (Ideal.ofBits .f32 0x00000000#32) = _
  rw [r2_prod_apply, broadcastTo_1b_ab_apply, Ideal.ofBits_zero_f32]

/-! ## The blocks are rows of the arrays -/

variable (V : (c : Dev nD) → (b : Ref sig .tc) → Buf (Elt Ideal) ((c : Thread nD τ).loc b))

/-- Where each window's block sits at grid point t: the aggregate, the features and the output at block (t, 0);
    W and the bias row whole. -/
private theorem r2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of the aggregate's block at point t is row 5000 t + p of the aggregate. -/
private theorem r2_agg_blk (c : Dev nD) (t : Fin cfg2.N) (p : Fin 5000) (k : Fin 128) (n : Fin 50000)
    (hn : n.val = t.val * 5000 + p.val) :
    (iblk2 V c 0 t : Vec Ideal S5000x128 .f32) (ix2 p k) = (V c main_v63 : S50000x128.Idx → EReal) (ix2 n k) := by
  obtain ⟨e0, e1, -⟩ := r2_idx t
  unfold iblk2
  rw [View.read_apply]
  show (V c main_v63 : S50000x128.Idx → EReal) _ = _
  refine congrArg _ (funext fun a => Fin.ext ?_)
  match a with
  | ⟨0, _⟩ => show win2_0.index t (0 : Fin 2) * 5000 + 1 * p.val = n.val; omega
  | ⟨1, _⟩ => show win2_0.index t (1 : Fin 2) * 128 + 1 * k.val = k.val; omega

/-- Row p of the features' block at point t is row 5000 t + p of the features. -/
private theorem r2_h_blk (c : Dev nD) (t : Fin cfg2.N) (p : Fin 5000) (q : Fin 128) (n : Fin 50000)
    (hn : n.val = t.val * 5000 + p.val) :
    (iblk2 V c 1 t : Vec Ideal S5000x128 .f32) (ix2 p q) = (V c main_v50 : S50000x128.Idx → EReal) (ix2 n q) := by
  obtain ⟨-, -, e0, e1, -⟩ := r2_idx t
  unfold iblk2
  rw [View.read_apply]
  show (V c main_v50 : S50000x128.Idx → EReal) _ = _
  refine congrArg _ (funext fun a => Fin.ext ?_)
  match a with
  | ⟨0, _⟩ => show win2_1.index t (0 : Fin 2) * 5000 + 1 * p.val = n.val; omega
  | ⟨1, _⟩ => show win2_1.index t (1 : Fin 2) * 128 + 1 * q.val = q.val; omega

/-- W's block is all of W at every point. -/
private theorem r2_W_blk (c : Dev nD) (t : Fin cfg2.N) (k q : Fin 128) :
    (iblk2 V c 2 t : Vec Ideal S128x128 .f32) (ix2 k q) = (V c main_v65 : S128x128.Idx → EReal) (ix2 k q) := by
  obtain ⟨-, -, -, -, e0, e1, -⟩ := r2_idx t
  unfold iblk2
  rw [View.read_apply]
  show (V c main_v65 : S128x128.Idx → EReal) _ = _
  refine congrArg _ (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The bias's block is the whole bias row at every point. -/
private theorem r2_b_blk (c : Dev nD) (t : Fin cfg2.N) (q : Fin 128) :
    (iblk2 V c 3 t : Vec Ideal S1x128 .f32) (ix2 (0 : Fin 1) q) = (V c main_v68 : S1x128.Idx → EReal) (ix2 (0 : Fin 1) q) := by
  obtain ⟨-, -, -, -, -, -, e0, e1, -⟩ := r2_idx t
  unfold iblk2
  rw [View.read_apply]
  show (V c main_v68 : S1x128.Idx → EReal) _ = _
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-! ## What a grid point writes back, and the whole array -/

/-- Grid point t writes back block t of the layer's dense half of the arrays the region found. -/
private theorem r2_flushed (c : Dev nD) (t : Fin cfg2.N) :
    (dat2 (F := Ideal) V c).flushed 4 t = ((cfg2.win 4).blk t).view.read (Elt Ideal)
      (arrOf (gcn (cur (V c main_v63 : S50000x128.Idx → EReal)) (cur (V c main_v50 : S50000x128.Idx → EReal))
          (cur (V c main_v65 : S128x128.Idx → EReal)) (fun j => (V c main_v68 : S1x128.Idx → EReal) (ix2 (0 : Fin 1) j)))) := by
  show (cfg2.win 4).cut (grid2.coords t) ((dat2 (F := Ideal) V c).after 4 t) = _
  rw [after2_4]
  unfold out2_4
  rw [View.canon_unit_zero r2_origin]
  simp only [View.ld_unit_zero (S := S5000x128) r2_origin, View.ld_unit_zero (S := S128x128) r2_origin,
    View.ld_unit_zero (S := S1x128) r2_origin]
  obtain ⟨-, -, -, -, -, -, -, -, e0, e1⟩ := r2_idx t
  have hN : cfg2.N = 10 := N_2
  funext j
  obtain ⟨p, q, rfl⟩ : ∃ (p : Fin 5000) (q : Fin 128), j = ix2 p q := ⟨j 0, j 1, eq_ix2 j⟩
  have hn : t.val * 5000 + p.val < 50000 := by have := t.isLt; have := p.isLt; omega
  have hemb : ((cfg2.win 4).blk t).view.emb (ix2 p q) = ix2 (⟨t.val * 5000 + p.val, hn⟩ : Fin 50000) q := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  rw [View.read_apply, hemb, arrOf_ix2]
  refine (r2_pay_apply (iblk2 V c 0 t) (iblk2 V c 2 t) (iblk2 V c 1 t) (iblk2 V c 3 t) p q).trans ?_
  unfold gcn cur
  exact congrArg₂ max (congrArg₂ (· + ·) (congrArg₂ (· + ·) (r2_h_blk V c t p q ⟨_, hn⟩ rfl)
    (Finset.sum_congr rfl fun k _ => congrArg₂ (· * ·) (r2_agg_blk V c t p k ⟨_, hn⟩ rfl) (r2_W_blk V c t k q)))
    (r2_b_blk V c t q)) rfl

/-- An index of the output array is in point t's block when its row is among the block's 5000 rows. -/
private theorem r2_mem_blk (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v69).slice (win2_4.rect t)).set ↔ _
  rw [View.set_slice_whole, Rect.mem_set_unit]
  exact Iff.rfl

/-- The ten blocks tile the array: row r lies in the block of point r / 5000. -/
private theorem r2_cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, -, -, -, -, e0, e1⟩ := r2_idx t
  refine ⟨t, flush2_4 t, ?_⟩
  rw [r2_mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

/-- After the region its output array is the dense half of a layer of the arrays the region found. -/
theorem region2_arr (c : Dev nD) :
    ((dat2 (F := Ideal) V c).arrAt 4 cfg2.N : S50000x128.Idx → EReal)
      = arrOf (gcn (cur (V c main_v63 : S50000x128.Idx → EReal)) (cur (V c main_v50 : S50000x128.Idx → EReal))
          (cur (V c main_v65 : S128x128.Idx → EReal)) (fun j => (V c main_v68 : S1x128.Idx → EReal) (ix2 (0 : Fin 1) j))) :=
  (dat2 (F := Ideal) V c).arrAt_eq_of_cover 4 _ (fun t _ => r2_flushed V c t) r2_cover

end Cert.KernelIdeal.Val

end
-- ==== Proof.KRegion3.lean ====
/-
  A layer's dense kernel, read as a whole array.

  The kernel runs on ten blocks of 5000 rows.  At a block it loads the block of the aggregate, the block of the
  features, all of W and the bias row, and stores max ((h + agg W) + b) 0.  The blocks tile the array, so entry
  (n, j) of the output array is max ((h n j + sum_k agg n k * W k j) + b j) 0.
-/
import proofs.«419781_j4337916969237_4_alg».proof.Proof.Gen.KernelIdeal.Frame
import proofs.«419781_j4337916969237_4_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec
open Idealize.ShloMosaic.Pipeline (Dat)

/-! ## The block's arithmetic at one entry -/

/-- A block that starts at the origin has zero offsets. -/
private theorem r3_origin : (![0, 0] : Fin 2 → Nat) = fun _ => 0 := funext fun a => by fin_cases a <;> rfl

/-- The product's left operand is read at the output's row … -/
private theorem r3_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the summation index, … -/
private theorem r3_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … its right operand at the summation index … -/
private theorem r3_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
private theorem r3_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product started from zero, at entry (p, q): the sum over k of a p k * w k q. -/
private theorem r3_prod_apply (a : FVec Ideal S5000x128 .f32) (w : FVec Ideal S128x128 .f32) (p : Fin 5000) (q : Fin 128) :
    matmul dot_S5000x128_S128x128_S5000x128_1_0_0_1_n_n (some .fp32) a w (constant (F := Ideal) S5000x128 .f32 0x00000000#32) (ix2 p q)
      = ∑ k : Fin 128, a (ix2 p k) * w (ix2 k q) := by
  show FloatOps.matmul dot_S5000x128_S128x128_S5000x128_1_0_0_1_n_n (some .fp32) a w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact r3_lhs_0 _ _
    | ⟨1, _⟩ => exact (r3_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (r3_rhs_0 _ _).trans hk
    | ⟨1, _⟩ => exact r3_rhs_1 _ _)
  rw [el, er]

/-- What the body stores, at entry (p, q) of the block: the features plus the product of the aggregate's row with W's
    column, plus the bias, positive part. -/
private theorem r3_pay_apply (a : Vec Ideal S5000x128 .f32) (w : Vec Ideal S128x128 .f32) (h : Vec Ideal S5000x128 .f32)
    (b : Vec Ideal S1x128 .f32) (p : Fin 5000) (q : Fin 128) :
    k3_pay1 (F := Ideal) a w h b (ix2 p q)
      = max ((h (ix2 p q) + ∑ k : Fin 128, a (ix2 p k) * w (ix2 k q)) + b (ix2 (0 : Fin 1) q)) 0 := by
  unfold k3_pay1
  simp only [shapeCast_self]
  show max ((h (ix2 p q) + matmul dot_S5000x128_S128x128_S5000x128_1_0_0_1_n_n (some .fp32) a w (constant (F := Ideal) S5000x128 .f32 0x00000000#32) (ix2 p q))
      + broadcastTo S5000x128 b broadcasts_S1x128_S5000x128 (ix2 p q)) (Ideal.ofBits .f32 0x00000000#32) = _
  rw [r3_prod_apply, broadcastTo_1b_ab_apply, Ideal.ofBits_zero_f32]

/-! ## The blocks are rows of the arrays -/

variable (V : (c : Dev nD) → (b : Ref sig .tc) → Buf (Elt Ideal) ((c : Thread nD τ).loc b))

/-- Where each window's block sits at grid point t: the aggregate, the features and the output at block (t, 0);
    W and the bias row whole. -/
private theorem r3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of the aggregate's block at point t is row 5000 t + p of the aggregate. -/
private theorem r3_agg_blk (c : Dev nD) (t : Fin cfg3.N) (p : Fin 5000) (k : Fin 128) (n : Fin 50000)
    (hn : n.val = t.val * 5000 + p.val) :
    (iblk3 V c 0 t : Vec Ideal S5000x128 .f32) (ix2 p k) = (V c main_v82 : S50000x128.Idx → EReal) (ix2 n k) := by
  obtain ⟨e0, e1, -⟩ := r3_idx t
  unfold iblk3
  rw [View.read_apply]
  show (V c main_v82 : S50000x128.Idx → EReal) _ = _
  refine congrArg _ (funext fun a => Fin.ext ?_)
  match a with
  | ⟨0, _⟩ => show win3_0.index t (0 : Fin 2) * 5000 + 1 * p.val = n.val; omega
  | ⟨1, _⟩ => show win3_0.index t (1 : Fin 2) * 128 + 1 * k.val = k.val; omega

/-- Row p of the features' block at point t is row 5000 t + p of the features. -/
private theorem r3_h_blk (c : Dev nD) (t : Fin cfg3.N) (p : Fin 5000) (q : Fin 128) (n : Fin 50000)
    (hn : n.val = t.val * 5000 + p.val) :
    (iblk3 V c 1 t : Vec Ideal S5000x128 .f32) (ix2 p q) = (V c main_v69 : S50000x128.Idx → EReal) (ix2 n q) := by
  obtain ⟨-, -, e0, e1, -⟩ := r3_idx t
  unfold iblk3
  rw [View.read_apply]
  show (V c main_v69 : S50000x128.Idx → EReal) _ = _
  refine congrArg _ (funext fun a => Fin.ext ?_)
  match a with
  | ⟨0, _⟩ => show win3_1.index t (0 : Fin 2) * 5000 + 1 * p.val = n.val; omega
  | ⟨1, _⟩ => show win3_1.index t (1 : Fin 2) * 128 + 1 * q.val = q.val; omega

/-- W's block is all of W at every point. -/
private theorem r3_W_blk (c : Dev nD) (t : Fin cfg3.N) (k q : Fin 128) :
    (iblk3 V c 2 t : Vec Ideal S128x128 .f32) (ix2 k q) = (V c main_v84 : S128x128.Idx → EReal) (ix2 k q) := by
  obtain ⟨-, -, -, -, e0, e1, -⟩ := r3_idx t
  unfold iblk3
  rw [View.read_apply]
  show (V c main_v84 : S128x128.Idx → EReal) _ = _
  refine congrArg _ (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

/-- The bias's block is the whole bias row at every point. -/
private theorem r3_b_blk (c : Dev nD) (t : Fin cfg3.N) (q : Fin 128) :
    (iblk3 V c 3 t : Vec Ideal S1x128 .f32) (ix2 (0 : Fin 1) q) = (V c main_v87 : S1x128.Idx → EReal) (ix2 (0 : Fin 1) q) := by
  obtain ⟨-, -, -, -, -, -, e0, e1, -⟩ := r3_idx t
  unfold iblk3
  rw [View.read_apply]
  show (V c main_v87 : S1x128.Idx → EReal) _ = _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

/-! ## What a grid point writes back, and the whole array -/

/-- Grid point t writes back block t of the layer's dense half of the arrays the region found. -/
private theorem r3_flushed (c : Dev nD) (t : Fin cfg3.N) :
    (dat3 (F := Ideal) V c).flushed 4 t = ((cfg3.win 4).blk t).view.read (Elt Ideal)
      (arrOf (gcn (cur (V c main_v82 : S50000x128.Idx → EReal)) (cur (V c main_v69 : S50000x128.Idx → EReal))
          (cur (V c main_v84 : S128x128.Idx → EReal)) (fun j => (V c main_v87 : S1x128.Idx → EReal) (ix2 (0 : Fin 1) j)))) := by
  show (cfg3.win 4).cut (grid3.coords t) ((dat3 (F := Ideal) V c).after 4 t) = _
  rw [after3_4]
  unfold out3_4
  rw [View.canon_unit_zero r3_origin]
  simp only [View.ld_unit_zero (S := S5000x128) r3_origin, View.ld_unit_zero (S := S128x128) r3_origin,
    View.ld_unit_zero (S := S1x128) r3_origin]
  obtain ⟨-, -, -, -, -, -, -, -, e0, e1⟩ := r3_idx t
  have hN : cfg3.N = 10 := N_3
  funext j
  obtain ⟨p, q, rfl⟩ : ∃ (p : Fin 5000) (q : Fin 128), j = ix2 p q := ⟨j 0, j 1, eq_ix2 j⟩
  have hn : t.val * 5000 + p.val < 50000 := by have := t.isLt; have := p.isLt; omega
  have hemb : ((cfg3.win 4).blk t).view.emb (ix2 p q) = ix2 (⟨t.val * 5000 + p.val, hn⟩ : Fin 50000) q := by
    funext a; apply Fin.ext
    match a with
    | ⟨0, _⟩ => show win3_4.index t (0 : Fin 2) * 5000 + 1 * p.val = t.val * 5000 + p.val; omega
    | ⟨1, _⟩ => show win3_4.index t (1 : Fin 2) * 128 + 1 * q.val = q.val; omega
  rw [View.read_apply, hemb, arrOf_ix2]
  refine (r3_pay_apply (iblk3 V c 0 t) (iblk3 V c 2 t) (iblk3 V c 1 t) (iblk3 V c 3 t) p q).trans ?_
  unfold gcn cur
  exact congrArg₂ max (congrArg₂ (· + ·) (congrArg₂ (· + ·) (r3_h_blk V c t p q ⟨_, hn⟩ rfl)
    (Finset.sum_congr rfl fun k _ => congrArg₂ (· * ·) (r3_agg_blk V c t p k ⟨_, hn⟩ rfl) (r3_W_blk V c t k q)))
    (r3_b_blk V c t q)) rfl

/-- An index of the output array is in point t's block when its row is among the block's 5000 rows. -/
private theorem r3_mem_blk (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v88).slice (win3_4.rect t)).set ↔ _
  rw [View.set_slice_whole, Rect.mem_set_unit]
  exact Iff.rfl

/-- The ten blocks tile the array: row r lies in the block of point r / 5000. -/
private theorem r3_cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, -, -, e0, e1⟩ := r3_idx t
  refine ⟨t, flush3_4 t, ?_⟩
  rw [r3_mem_blk]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

/-- After the region its output array is the dense half of a layer of the arrays the region found. -/
theorem region3_arr (c : Dev nD) :
    ((dat3 (F := Ideal) V c).arrAt 4 cfg3.N : S50000x128.Idx → EReal)
      = arrOf (gcn (cur (V c main_v82 : S50000x128.Idx → EReal)) (cur (V c main_v69 : S50000x128.Idx → EReal))
          (cur (V c main_v84 : S128x128.Idx → EReal)) (fun j => (V c main_v87 : S1x128.Idx → EReal) (ix2 (0 : Fin 1) j))) :=
  (dat3 (F := Ideal) V c).arrAt_eq_of_cover 4 _ (fun t _ => r3_flushed V c t) r3_cover

end Cert.KernelIdeal.Val

end
-- ==== Proof.LibRows.lean ====
/-
  A row gather and a row scatter-add read at an index.

  `x[i]` along axis 0 of a matrix or of a rank-3 array is a gather whose start indices are an `[E, 1]` column of row
  numbers: the operand's axis 0 is collapsed and start-indexed, its other axes are offset axes. Result row `e` is the
  operand's row whose number is entry `e` of the column, read as a signed integer and clamped into `[0, N - 1]`
  (`gather_rows2`, `gather_rows3`).

  A segment sum along axis 0 is a scatter with an add body over the same column: the operand's axis 0 is inserted and
  indexed, the other axes are the updates' window axes. At the extended reals the result at row `n` is the operand's
  element plus the sum of the update rows `e` whose row number, read signed and NOT clamped, is `n`; a row number
  outside `[0, N)` lands nowhere and contributes nothing (`scatterAdd_rows2`, `scatterAdd_rows3`).

  Each is proved by reading the dimension numbers' index functions axis by axis: on the row axis the start is the
  column's entry and the window or offset coordinate is 0; on every other axis the start is 0 and the coordinate is
  the update's or result's own. For the scatters this gives "update `(e, c)` lands at `(n, c')` iff entry `e` is `n` and
  `c = c'`", and the filtered sum over update indices is re-indexed by the row `e` alone.
-/
import Idealize.ShloMosaic.PureOps.Ideal
import Idealize.ShloMosaic.PureOps.ShapeOps
import Idealize.ShloMosaic.PureOps.Contract
import Idealize.ShloMosaic.Lib.ValueIdx

noncomputable section

open scoped BigOperators

namespace Cert.LibRows

open Idealize.ShloMosaic Idealize.ShloMosaic.ValueIdx

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Axis 1 of two is not axis 0. -/
theorem fin2_one_nmem : (1 : Fin 2) ∉ ([0] : List (Fin 2)) := by decide
/-- Axis 1 of three is not axis 0. -/
theorem fin3_one_nmem : (1 : Fin 3) ∉ ([0] : List (Fin 3)) := by decide
/-- Axis 2 of three is not axis 0. -/
theorem fin3_two_nmem : (2 : Fin 3) ∉ ([0] : List (Fin 3)) := by decide

/-! ## The row scatter-add over a matrix: `[N, C]` operand, `[E, 1]` row numbers, `[E, C]` updates -/

section Scatter2
variable {N C E w : Nat} (d : ScatterDims ⟨2, ![N, C]⟩ ⟨2, ![E, 1]⟩ ⟨2, ![E, C]⟩)

/-- On the row axis the window of update `(e, c)` starts at row number `e`'s entry, read signed. -/
theorem sc2_start0 (huw : d.updateWindowDims = [1]) (hsd : d.scatterDimsToOperandDims = [0])
    (hivd : d.indexVectorDim = 1) (idx : IVec ⟨2, ![E, 1]⟩ w) (j : (⟨2, ![E, C]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On the column axis, which the map does not name, the window starts at 0. -/
theorem sc2_start1 (hsd : d.scatterDimsToOperandDims = [0])
    (idx : IVec ⟨2, ![E, 1]⟩ w) (j : (⟨2, ![E, C]⟩ : Shape).Idx) :
    d.start j idx 1 = 0 := by
  unfold ScatterDims.start
  rw [dif_neg (by rw [hsd]; exact fin2_one_nmem)]

/-- The row axis is inserted: its window coordinate is 0. -/
theorem sc2_window0 (hiw : d.insertedWindowDims = [0]) (j : (⟨2, ![E, C]⟩ : Shape).Idx) :
    d.window j 0 = 0 := by
  unfold ScatterDims.window
  rw [dif_neg (by rw [ScatterDims.sKept, mem_kept, hiw]; exact fun h => h (List.mem_singleton.mpr rfl))]

/-- The column axis takes the update's column. -/
theorem sc2_window1 (huw : d.updateWindowDims = [1]) (hiw : d.insertedWindowDims = [0])
    (j : (⟨2, ![E, C]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin2_one_nmem)]
  rfl

/-- Update `(e, c)` lands at `(n, c')` exactly when row number `e`'s entry, read signed, is `n` and the columns agree;
    an entry outside `[0, N)` lands nowhere. -/
theorem sc2_resultIdx (huw : d.updateWindowDims = [1]) (hiw : d.insertedWindowDims = [0])
    (hsd : d.scatterDimsToOperandDims = [0]) (hivd : d.indexVectorDim = 1)
    (idx : IVec ⟨2, ![E, 1]⟩ w) (e : Fin E) (c : Fin C) (n : Fin N) (c' : Fin C) :
    d.resultIdx? (ix2 e c) idx = some (ix2 n c') ↔ (idx (ix2 e (0 : Fin 1))).toInt = (n.val : Int) ∧ c = c' := by
  have hs0 : d.start (ix2 e c) idx 0 = (idx (ix2 e (0 : Fin 1))).toInt := sc2_start0 d huw hsd hivd idx _
  have hs1 : d.start (ix2 e c) idx 1 = 0 := sc2_start1 d hsd idx _
  have hw0 : d.window (ix2 e c) 0 = 0 := sc2_window0 d hiw _
  have hw1 : d.window (ix2 e c) 1 = c.val := sc2_window1 d huw hiw _
  generalize (idx (ix2 e (0 : Fin 1))).toInt = z at hs0 ⊢
  have hn := n.isLt
  have hc := c.isLt
  unfold ScatterDims.resultIdx?
  split
  · next h =>
    rw [Option.some.injEq]
    constructor
    · intro hf
      have h0 : (d.start (ix2 e c) idx 0 + (d.window (ix2 e c) 0 : Int)).toNat = n.val :=
        congrArg (fun f : (⟨2, ![N, C]⟩ : Shape).Idx => (f 0).val) hf
      have h1 : (d.start (ix2 e c) idx 1 + (d.window (ix2 e c) 1 : Int)).toNat = c'.val :=
        congrArg (fun f : (⟨2, ![N, C]⟩ : Shape).Idx => (f 1).val) hf
      have h00 := (h 0).1
      rw [hs0, hw0] at h0 h00
      rw [hs1, hw1] at h1
      exact ⟨by omega, Fin.ext (by omega)⟩
    · rintro ⟨hz, rfl⟩
      funext a
      match a with
      | ⟨0, _⟩ =>
        refine Fin.ext ?_
        show (d.start (ix2 e c) idx 0 + (d.window (ix2 e c) 0 : Int)).toNat = n.val
        rw [hs0, hw0]; omega
      | ⟨1, _⟩ =>
        refine Fin.ext ?_
        show (d.start (ix2 e c) idx 1 + (d.window (ix2 e c) 1 : Int)).toNat = c.val
        rw [hs1, hw1]; omega
  · next h =>
    constructor
    · intro hf; cases hf
    · rintro ⟨hz, rfl⟩
      refine absurd ?_ h
      intro a
      match a with
      | ⟨0, _⟩ =>
        show 0 ≤ d.start (ix2 e c) idx 0 + (d.window (ix2 e c) 0 : Int)
          ∧ d.start (ix2 e c) idx 0 + (d.window (ix2 e c) 0 : Int) < (N : Int)
        rw [hs0, hw0]; omega
      | ⟨1, _⟩ =>
        show 0 ≤ d.start (ix2 e c) idx 1 + (d.window (ix2 e c) 1 : Int)
          ∧ d.start (ix2 e c) idx 1 + (d.window (ix2 e c) 1 : Int) < (C : Int)
        rw [hs1, hw1]; omega

/-- THE ROW SCATTER-ADD READ AT `(n, c)` (a segment sum over a matrix: the operand's axis 0 inserted and indexed by the
    `[E, 1]` column of row numbers, its axis 1 the updates' window axis): the operand's element plus the sum of column `c`
    of the update rows `e` whose row number, read signed, is `n`. A row number outside `[0, N)` contributes nowhere. -/
theorem scatterAdd_rows2 (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd d x idx upd (ix2 n c) = x (ix2 n c)
      + ∑ e ∈ Finset.univ.filter (fun e : Fin E => (idx (ix2 e (0 : Fin 1))).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin C), j = ix2 e c' := ⟨j 0, j 1, eq_ix2 j⟩
    exact Finset.mem_filter.2 ⟨Finset.mem_univ _,
      ((sc2_resultIdx d huw hiw hsd hivd idx e c' n c).1 (Finset.mem_filter.1 hj).2).1⟩
  · intro e he
    exact Finset.mem_filter.2 ⟨Finset.mem_univ _,
      (sc2_resultIdx d huw hiw hsd hivd idx e c n c).2 ⟨(Finset.mem_filter.1 he).2, rfl⟩⟩
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl
  · intro e _
    rfl
  · intro j hj
    obtain ⟨e, c', rfl⟩ : ∃ (e : Fin E) (c' : Fin C), j = ix2 e c' := ⟨j 0, j 1, eq_ix2 j⟩
    obtain rfl := ((sc2_resultIdx d huw hiw hsd hivd idx e c' n c).1 (Finset.mem_filter.1 hj).2).2
    rfl

end Scatter2

/-! ## The row scatter-add over a rank-3 array: `[N, H, K]` operand, `[E, 1]` row numbers, `[E, H, K]` updates -/

section Scatter3
variable {N H K E w : Nat} (d : ScatterDims ⟨3, ![N, H, K]⟩ ⟨2, ![E, 1]⟩ ⟨3, ![E, H, K]⟩)

/-- On the row axis the window of update `(e, h, k)` starts at row number `e`'s entry, read signed. -/
theorem sc3_start0 (huw : d.updateWindowDims = [1, 2]) (hsd : d.scatterDimsToOperandDims = [0])
    (hivd : d.indexVectorDim = 1) (idx : IVec ⟨2, ![E, 1]⟩ w) (j : (⟨3, ![E, H, K]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- On axis 1, which the map does not name, the window starts at 0. -/
theorem sc3_start1 (hsd : d.scatterDimsToOperandDims = [0])
    (idx : IVec ⟨2, ![E, 1]⟩ w) (j : (⟨3, ![E, H, K]⟩ : Shape).Idx) :
    d.start j idx 1 = 0 := by
  unfold ScatterDims.start
  rw [dif_neg (by rw [hsd]; exact fin3_one_nmem)]

/-- On axis 2, which the map does not name, the window starts at 0. -/
theorem sc3_start2 (hsd : d.scatterDimsToOperandDims = [0])
    (idx : IVec ⟨2, ![E, 1]⟩ w) (j : (⟨3, ![E, H, K]⟩ : Shape).Idx) :
    d.start j idx 2 = 0 := by
  unfold ScatterDims.start
  rw [dif_neg (by rw [hsd]; exact fin3_two_nmem)]

/-- The row axis is inserted: its window coordinate is 0. -/
theorem sc3_window0 (hiw : d.insertedWindowDims = [0]) (j : (⟨3, ![E, H, K]⟩ : Shape).Idx) :
    d.window j 0 = 0 := by
  unfold ScatterDims.window
  rw [dif_neg (by rw [ScatterDims.sKept, mem_kept, hiw]; exact fun h => h (List.mem_singleton.mpr rfl))]

/-- Axis 1 takes the update's coordinate on its axis 1. -/
theorem sc3_window1 (huw : d.updateWindowDims = [1, 2]) (hiw : d.insertedWindowDims = [0])
    (j : (⟨3, ![E, H, K]⟩ : Shape).Idx) :
    d.window j 1 = (j 1).val := by
  obtain ⟨uw, iw, sd, ivd, wf⟩ := d
  simp only at huw hiw
  subst huw hiw
  unfold ScatterDims.window
  rw [dif_pos (by rw [ScatterDims.sKept, mem_kept]; exact fin3_one_nmem)]
  rfl

/-- Axis 2 takes the update's coordinate on its axis 2. -/
theorem sc3_window2 (huw : d.updateWindowDims = [1, 2]) (hiw : d.insertedWindowDims = [0])
    (j : (⟨3, ![E, H, K]⟩ : Shape).Idx) :
    d.window j 2 = (j 2).val := by
  obtain ⟨uw, iw, sd, ivd, wf⟩ := d
  simp only at huw hiw
  subst huw hiw
  unfold ScatterDims.window
  rw [dif_pos (by rw [ScatterDims.sKept, mem_kept]; exact fin3_two_nmem)]
  rfl

/-- Update `(e, h, k)` lands at `(n, h', k')` exactly when row number `e`'s entry, read signed, is `n` and the other two
    coordinates agree; an entry outside `[0, N)` lands nowhere. -/
theorem sc3_resultIdx (huw : d.updateWindowDims = [1, 2]) (hiw : d.insertedWindowDims = [0])
    (hsd : d.scatterDimsToOperandDims = [0]) (hivd : d.indexVectorDim = 1)
    (idx : IVec ⟨2, ![E, 1]⟩ w) (e : Fin E) (h : Fin H) (k : Fin K) (n : Fin N) (h' : Fin H) (k' : Fin K) :
    d.resultIdx? (ix3 e h k) idx = some (ix3 n h' k')
      ↔ (idx (ix2 e (0 : Fin 1))).toInt = (n.val : Int) ∧ h = h' ∧ k = k' := by
  have hs0 : d.start (ix3 e h k) idx 0 = (idx (ix2 e (0 : Fin 1))).toInt := sc3_start0 d huw hsd hivd idx _
  have hs1 : d.start (ix3 e h k) idx 1 = 0 := sc3_start1 d hsd idx _
  have hs2 : d.start (ix3 e h k) idx 2 = 0 := sc3_start2 d hsd idx _
  have hw0 : d.window (ix3 e h k) 0 = 0 := sc3_window0 d hiw _
  have hw1 : d.window (ix3 e h k) 1 = h.val := sc3_window1 d huw hiw _
  have hw2 : d.window (ix3 e h k) 2 = k.val := sc3_window2 d huw hiw _
  generalize (idx (ix2 e (0 : Fin 1))).toInt = z at hs0 ⊢
  have hn := n.isLt
  have hh := h.isLt
  have hk := k.isLt
  unfold ScatterDims.resultIdx?
  split
  · next hin =>
    rw [Option.some.injEq]
    constructor
    · intro hf
      have h0 : (d.start (ix3 e h k) idx 0 + (d.window (ix3 e h k) 0 : Int)).toNat = n.val :=
        congrArg (fun f : (⟨3, ![N, H, K]⟩ : Shape).Idx => (f 0).val) hf
      have h1 : (d.start (ix3 e h k) idx 1 + (d.window (ix3 e h k) 1 : Int)).toNat = h'.val :=
        congrArg (fun f : (⟨3, ![N, H, K]⟩ : Shape).Idx => (f 1).val) hf
      have h2 : (d.start (ix3 e h k) idx 2 + (d.window (ix3 e h k) 2 : Int)).toNat = k'.val :=
        congrArg (fun f : (⟨3, ![N, H, K]⟩ : Shape).Idx => (f 2).val) hf
      have h00 := (hin 0).1
      rw [hs0, hw0] at h0 h00
      rw [hs1, hw1] at h1
      rw [hs2, hw2] at h2
      exact ⟨by omega, Fin.ext (by omega), Fin.ext (by omega)⟩
    · rintro ⟨hz, rfl, rfl⟩
      funext a
      match a with
      | ⟨0, _⟩ =>
        refine Fin.ext ?_
        show (d.start (ix3 e h k) idx 0 + (d.window (ix3 e h k) 0 : Int)).toNat = n.val
        rw [hs0, hw0]; omega
      | ⟨1, _⟩ =>
        refine Fin.ext ?_
        show (d.start (ix3 e h k) idx 1 + (d.window (ix3 e h k) 1 : Int)).toNat = h.val
        rw [hs1, hw1]; omega
      | ⟨2, _⟩ =>
        refine Fin.ext ?_
        show (d.start (ix3 e h k) idx 2 + (d.window (ix3 e h k) 2 : Int)).toNat = k.val
        rw [hs2, hw2]; omega
  · next hin =>
    constructor
    · intro hf; cases hf
    · rintro ⟨hz, rfl, rfl⟩
      refine absurd ?_ hin
      intro a
      match a with
      | ⟨0, _⟩ =>
        show 0 ≤ d.start (ix3 e h k) idx 0 + (d.window (ix3 e h k) 0 : Int)
          ∧ d.start (ix3 e h k) idx 0 + (d.window (ix3 e h k) 0 : Int) < (N : Int)
        rw [hs0, hw0]; omega
      | ⟨1, _⟩ =>
        show 0 ≤ d.start (ix3 e h k) idx 1 + (d.window (ix3 e h k) 1 : Int)
          ∧ d.start (ix3 e h k) idx 1 + (d.window (ix3 e h k) 1 : Int) < (H : Int)
        rw [hs1, hw1]; omega
      | ⟨2, _⟩ =>
        show 0 ≤ d.start (ix3 e h k) idx 2 + (d.window (ix3 e h k) 2 : Int)
          ∧ d.start (ix3 e h k) idx 2 + (d.window (ix3 e h k) 2 : Int) < (K : Int)
        rw [hs2, hw2]; omega

/-- THE ROW SCATTER-ADD READ AT `(n, h, k)` (a segment sum over a rank-3 array: the operand's axis 0 inserted and indexed
    by the `[E, 1]` column of row numbers, its axes 1 and 2 the updates' window axes): the operand's element plus the sum
    of entry `(h, k)` of the update rows `e` whose row number, read signed, is `n`. A row number outside `[0, N)`
    contributes nowhere. -/
theorem scatterAdd_rows3 (huw : d.updateWindowDims = [1, 2]) (hiw : d.insertedWindowDims = [0])
    (hsd : d.scatterDimsToOperandDims = [0]) (hivd : d.indexVectorDim = 1)
    (x : (⟨3, ![N, H, K]⟩ : Shape).Idx → EReal) (idx : IVec ⟨2, ![E, 1]⟩ w)
    (upd : (⟨3, ![E, H, K]⟩ : Shape).Idx → EReal) (n : Fin N) (h : Fin H) (k : Fin K) :
    Ideal.hostScatterAdd d x idx upd (ix3 n h k) = x (ix3 n h k)
      + ∑ e ∈ Finset.univ.filter (fun e : Fin E => (idx (ix2 e (0 : Fin 1))).toInt = (n.val : Int)), upd (ix3 e h k) := by
  unfold Ideal.hostScatterAdd
  congr 1
  refine Finset.sum_bij' (fun j _ => (j 0 : Fin E)) (fun e _ => ix3 e h k) ?_ ?_ ?_ ?_ ?_
  · intro j hj
    obtain ⟨e, h', k', rfl⟩ : ∃ (e : Fin E) (h' : Fin H) (k' : Fin K), j = ix3 e h' k' := ⟨j 0, j 1, j 2, eq_ix3 j⟩
    exact Finset.mem_filter.2 ⟨Finset.mem_univ _,
      ((sc3_resultIdx d huw hiw hsd hivd idx e h' k' n h k).1 (Finset.mem_filter.1 hj).2).1⟩
  · intro e he
    exact Finset.mem_filter.2 ⟨Finset.mem_univ _,
      (sc3_resultIdx d huw hiw hsd hivd idx e h k n h k).2 ⟨(Finset.mem_filter.1 he).2, rfl, rfl⟩⟩
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl
  · intro e _
    rfl
  · intro j hj
    obtain ⟨e, h', k', rfl⟩ : ∃ (e : Fin E) (h' : Fin H) (k' : Fin K), j = ix3 e h' k' := ⟨j 0, j 1, j 2, eq_ix3 j⟩
    obtain ⟨-, rfl, rfl⟩ := (sc3_resultIdx d huw hiw hsd hivd idx e h' k' n h k).1 (Finset.mem_filter.1 hj).2
    rfl

end Scatter3

/-! ## The row gather from a matrix: `[N, C]` operand, `[E, 1]` row numbers, `[E, C]` result -/

section Gather2
variable {N C E w : Nat} (d : GatherDims ⟨2, ![N, C]⟩ ⟨2, ![E, 1]⟩ ⟨2, ![E, C]⟩)

/-- On the row axis the slice of result `(e, c)` starts at row number `e`'s entry, read signed and clamped into
    `[0, N - 1]`. -/
theorem g2_start0 (hoff : d.offsetDims = [1]) (hcoll : d.collapsedSliceDims = [0])
    (hsim : d.startIndexMap = [0]) (hivd : d.indexVectorDim = 1)
    (idx : IVec ⟨2, ![E, 1]⟩ w) (j : (⟨2, ![E, C]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On the column axis, which the start index map does not name, the slice starts at 0. -/
theorem g2_start1 (hsim : d.startIndexMap = [0]) (idx : IVec ⟨2, ![E, 1]⟩ w) (j : (⟨2, ![E, C]⟩ : Shape).Idx) :
    d.start j idx 1 = 0 := by
  unfold GatherDims.start
  rw [dif_neg (by rw [hsim]; exact fin2_one_nmem)]

/-- The row axis is collapsed: its offset coordinate is 0. -/
theorem g2_off0 (hcoll : d.collapsedSliceDims = [0]) (j : (⟨2, ![E, C]⟩ : Shape).Idx) :
    d.offCoord j 0 = 0 :=
  d.offCoord_eq_zero j 0 fun h => ((d.mem_sKept 0).1 h).1 (by rw [hcoll]; exact List.mem_singleton.mpr rfl)

/-- The column axis takes the result's column. -/
theorem g2_off1 (hoff : d.offsetDims = [1]) (hcoll : d.collapsedSliceDims = [0]) (hob : d.operandBatchingDims = [])
    (j : (⟨2, ![E, C]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin2_one_nmem, List.not_mem_nil⟩)]
  rfl

end Gather2

/-- THE ROW GATHER READ AT `(e, c)` (`x[i]` of a matrix: the operand's axis 0 collapsed and indexed by the `[E, 1]` column
    of row numbers, its axis 1 an offset axis): column `c` of the operand's row whose number is entry `e` of the column,
    read signed and clamped into `[0, N - 1]`. -/
theorem gather_rows2 {α : Type} {N C E w : Nat} (hN : 0 < N) (d : GatherDims ⟨2, ![N, C]⟩ ⟨2, ![E, 1]⟩ ⟨2, ![E, C]⟩)
    (hoff : d.offsetDims = [1]) (hcoll : d.collapsedSliceDims = [0])
    (hob : d.operandBatchingDims = []) (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c)
      = x (ix2 ⟨min (idx (ix2 e (0 : Fin 1))).toInt.toNat (N - 1), by omega⟩ c) := by
  have hb : ∀ a, d.batchCoord (ix2 e c) a = 0 := fun a =>
    d.batchCoord_eq_zero _ a (by rw [hob]; exact List.not_mem_nil)
  unfold Host.gather
  congr 1
  funext a
  refine Fin.ext ?_
  match a with
  | ⟨0, _⟩ =>
    show d.start (ix2 e c) idx 0 + d.batchCoord (ix2 e c) 0 + d.offCoord (ix2 e c) 0 = _
    rw [hb, g2_off0 d hcoll, g2_start0 d hoff hcoll hsim hivd]
    rfl
  | ⟨1, _⟩ =>
    show d.start (ix2 e c) idx 1 + d.batchCoord (ix2 e c) 1 + d.offCoord (ix2 e c) 1 = _
    rw [hb, g2_off1 d hoff hcoll hob, g2_start1 d hsim]
    show 0 + 0 + c.val = c.val
    omega

/-! ## The row gather from a rank-3 array: `[N, H, K]` operand, `[E, 1]` row numbers, `[E, H, K]` result -/

section Gather3
variable {N H K E w : Nat} (d : GatherDims ⟨3, ![N, H, K]⟩ ⟨2, ![E, 1]⟩ ⟨3, ![E, H, K]⟩)

/-- On the row axis the slice of result `(e, h, k)` starts at row number `e`'s entry, read signed and clamped into
    `[0, N - 1]`. -/
theorem g3_start0 (hoff : d.offsetDims = [1, 2]) (hcoll : d.collapsedSliceDims = [0])
    (hsim : d.startIndexMap = [0]) (hivd : d.indexVectorDim = 1)
    (idx : IVec ⟨2, ![E, 1]⟩ w) (j : (⟨3, ![E, H, K]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- On axis 1, which the start index map does not name, the slice starts at 0. -/
theorem g3_start1 (hsim : d.startIndexMap = [0]) (idx : IVec ⟨2, ![E, 1]⟩ w) (j : (⟨3, ![E, H, K]⟩ : Shape).Idx) :
    d.start j idx 1 = 0 := by
  unfold GatherDims.start
  rw [dif_neg (by rw [hsim]; exact fin3_one_nmem)]

/-- On axis 2, which the start index map does not name, the slice starts at 0. -/
theorem g3_start2 (hsim : d.startIndexMap = [0]) (idx : IVec ⟨2, ![E, 1]⟩ w) (j : (⟨3, ![E, H, K]⟩ : Shape).Idx) :
    d.start j idx 2 = 0 := by
  unfold GatherDims.start
  rw [dif_neg (by rw [hsim]; exact fin3_two_nmem)]

/-- The row axis is collapsed: its offset coordinate is 0. -/
theorem g3_off0 (hcoll : d.collapsedSliceDims = [0]) (j : (⟨3, ![E, H, K]⟩ : Shape).Idx) :
    d.offCoord j 0 = 0 :=
  d.offCoord_eq_zero j 0 fun h => ((d.mem_sKept 0).1 h).1 (by rw [hcoll]; exact List.mem_singleton.mpr rfl)

/-- Axis 1 takes the result's coordinate on its axis 1. -/
theorem g3_off1 (hoff : d.offsetDims = [1, 2]) (hcoll : d.collapsedSliceDims = [0]) (hob : d.operandBatchingDims = [])
    (j : (⟨3, ![E, H, K]⟩ : Shape).Idx) :
    d.offCoord j 1 = (j 1).val := by
  obtain ⟨od, cd, ob, sb, sm, ivd, ss, wf⟩ := d
  simp only at hoff hcoll hob
  subst hoff hcoll hob
  unfold GatherDims.offCoord
  rw [dif_pos (by rw [GatherDims.mem_sKept]; exact ⟨fin3_one_nmem, List.not_mem_nil⟩)]
  rfl

/-- Axis 2 takes the result's coordinate on its axis 2. -/
theorem g3_off2 (hoff : d.offsetDims = [1, 2]) (hcoll : d.collapsedSliceDims = [0]) (hob : d.operandBatchingDims = [])
    (j : (⟨3, ![E, H, K]⟩ : Shape).Idx) :
    d.offCoord j 2 = (j 2).val := by
  obtain ⟨od, cd, ob, sb, sm, ivd, ss, wf⟩ := d
  simp only at hoff hcoll hob
  subst hoff hcoll hob
  unfold GatherDims.offCoord
  rw [dif_pos (by rw [GatherDims.mem_sKept]; exact ⟨fin3_two_nmem, List.not_mem_nil⟩)]
  rfl

end Gather3

/-- THE ROW GATHER READ AT `(e, h, k)` (`x[i]` of a rank-3 array: the operand's axis 0 collapsed and indexed by the
    `[E, 1]` column of row numbers, its axes 1 and 2 offset axes): entry `(h, k)` of the operand's row whose number is entry
    `e` of the column, read signed and clamped into `[0, N - 1]`. -/
theorem gather_rows3 {α : Type} {N H K E w : Nat} (hN : 0 < N)
    (d : GatherDims ⟨3, ![N, H, K]⟩ ⟨2, ![E, 1]⟩ ⟨3, ![E, H, K]⟩)
    (hoff : d.offsetDims = [1, 2]) (hcoll : d.collapsedSliceDims = [0])
    (hob : d.operandBatchingDims = []) (hsim : d.startIndexMap = [0]) (hivd : d.indexVectorDim = 1)
    (x : (⟨3, ![N, H, K]⟩ : Shape).Idx → α) (idx : IVec ⟨2, ![E, 1]⟩ w) (e : Fin E) (h : Fin H) (k : Fin K) :
    Host.gather d x idx (ix3 e h k)
      = x (ix3 ⟨min (idx (ix2 e (0 : Fin 1))).toInt.toNat (N - 1), by omega⟩ h k) := by
  have hb : ∀ a, d.batchCoord (ix3 e h k) a = 0 := fun a =>
    d.batchCoord_eq_zero _ a (by rw [hob]; exact List.not_mem_nil)
  unfold Host.gather
  congr 1
  funext a
  refine Fin.ext ?_
  match a with
  | ⟨0, _⟩ =>
    show d.start (ix3 e h k) idx 0 + d.batchCoord (ix3 e h k) 0 + d.offCoord (ix3 e h k) 0 = _
    rw [hb, g3_off0 d hcoll, g3_start0 d hoff hcoll hsim hivd]
    rfl
  | ⟨1, _⟩ =>
    show d.start (ix3 e h k) idx 1 + d.batchCoord (ix3 e h k) 1 + d.offCoord (ix3 e h k) 1 = _
    rw [hb, g3_off1 d hoff hcoll hob, g3_start1 d hsim]
    show 0 + 0 + h.val = h.val
    omega
  | ⟨2, _⟩ =>
    show d.start (ix3 e h k) idx 2 + d.batchCoord (ix3 e h k) 2 + d.offCoord (ix3 e h k) 2 = _
    rw [hb, g3_off2 d hoff hcoll hob, g3_start2 d hsim]
    show 0 + 0 + k.val = k.val
    omega

end Cert.LibRows

end
-- ==== Proof.KHost.lean ====
/-
  Host operations of the kernel's program read at an index.

  The aggregate of a layer is a segment sum, along axis 0, of the gathered source rows each scaled by its edge
  weight: entry (n, k) is 0 plus the sum, over the edges e whose target entry read signed is n, of
  h (clamped source of e, k) times the weight of e.  A layer's matrix is one slice of the stacked matrices with the
  unit axis dropped, its bias one row of the stacked biases laid as a 1 by 128 row; a head is one column of the
  two-column output.
-/
import proofs.«419781_j4337916969237_4_alg».proof.Proof.Gen.KernelIdeal
import proofs.«419781_j4337916969237_4_alg».proof.Proof.Spec
import proofs.«419781_j4337916969237_4_alg».proof.Proof.LibRows
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec
open Idealize.ShloMosaic.Pipeline (Dat)

/-! ## The pieces of the aggregate -/

/-- The scalar zero spread over the node-feature matrix is zero everywhere: a rank-0 operand has one entry, and the
    word of all zero bits is the number 0. -/
private theorem zeros_apply (i : S50000x128.Idx) :
    broadcastInDim S50000x128 ![] bcast_S_S50000x128 (constant (F := Ideal) S_ .f32 0x00000000#32) i = (0 : EReal) := by
  refine (broadcastInDim_apply _ bcast_S_S50000x128 _ i ix0 (fun a => a.elim0)).trans ?_
  rw [constant_apply]
  exact Ideal.ofBits_zero_f32

/-- The edge weights, first stood up as a column and then repeated along each row, read at (e, k): the weight of
    edge e.  The column's unit axis reads at 0; the long axis keeps its coordinate. -/
private theorem weights_apply (nv : S650000.Idx → EReal) (e : Fin 650000) (k : Fin 128) :
    broadcastInDim S650000x128 ![0, 1] bcast_S650000x1_S650000x128_0_1
        (broadcastInDim S650000x1 ![0] bcast_S650000_S650000x1_0 nv) (ix2 e k) = nv (ix1 e) := by
  refine (broadcastInDim_apply _ bcast_S650000x1_S650000x128_0_1 _ (ix2 e k) (ix2 e (0 : Fin 1)) (fun a => match a with
    | ⟨0, _⟩ => by show e.val = if (650000 : Nat) = 1 then 0 else e.val; rw [if_neg (by decide)]
    | ⟨1, _⟩ => by show 0 = if (1 : Nat) = 1 then 0 else k.val; rw [if_pos rfl])).trans ?_
  exact broadcastInDim_apply _ bcast_S650000_S650000x1_0 nv (ix2 e (0 : Fin 1)) (ix1 e) (fun a => match a with
    | ⟨0, _⟩ => by show e.val = if (650000 : Nat) = 1 then 0 else e.val; rw [if_neg (by decide)])

/-- Row e of the gathered features is the row of h whose number is the source entry of e, read signed and clamped
    into the node range. -/
private theorem gathered_apply (h : S50000x128.Idx → EReal) (rowcol : S650000x1.Idx → BitVec 32)
    (e : Fin 650000) (k : Fin 128) :
    Host.gather gather_S50000x128_S650000x1_S650000x128_1_0_n_n_0_1_1128 h rowcol (ix2 e k)
      = h (ix2 (⟨min (rowcol (ix2 e (0 : Fin 1))).toInt.toNat (50000 - 1), by omega⟩ : Fin 50000) k) :=
  Cert.LibRows.gather_rows2 (by omega) gather_S50000x128_S650000x1_S650000x128_1_0_n_n_0_1_1128 rfl rfl rfl rfl rfl
    h rowcol e k

/-- The aggregate read at (n, k). -/
theorem agg_apply (h : S50000x128.Idx → EReal) (rowcol colcol : S650000x1.Idx → BitVec 32) (nv : S650000.Idx → EReal)
    (n : Fin 50000) (k : Fin 128) :
    Host.scatterAdd (F := Ideal) scatter_S50000x128_S650000x1_S650000x128_1_0_0_1
        (broadcastInDim S50000x128 ![] bcast_S_S50000x128 (constant S_ .f32 0x00000000#32)) colcol
        (mulf (Host.gather gather_S50000x128_S650000x1_S650000x128_1_0_n_n_0_1_1128 h rowcol)
          (broadcastInDim S650000x128 ![0, 1] bcast_S650000x1_S650000x128_0_1
            (broadcastInDim S650000x1 ![0] bcast_S650000_S650000x1_0 nv))) (ix2 n k)
      = (0 : EReal) + ∑ e ∈ Finset.univ.filter (fun e : Fin 650000 => (colcol (ix2 e (0 : Fin 1))).toInt = (n.val : Int)),
          h (ix2 (⟨min (rowcol (ix2 e (0 : Fin 1))).toInt.toNat (50000 - 1), by omega⟩ : Fin 50000) k) * nv (ix1 e) := by
  -- the accumulating scatter on the extended reals is the operand plus the sum of the updates that land there
  unfold Host.scatterAdd
  rw [Ideal.hostScatterAdd_def,
    Cert.LibRows.scatterAdd_rows2 scatter_S50000x128_S650000x1_S650000x128_1_0_0_1 rfl rfl rfl rfl, zeros_apply]
  -- each update row is the gathered row times the edge's weight
  refine congrArg _ (Finset.sum_congr rfl fun e _ => ?_)
  rw [mulf_apply, gathered_apply, weights_apply]

/-! ## Slices of the stacked parameters -/

/-- Slice l of the stacked matrices with its unit axis dropped: position (k, j) of the 128 by 128 matrix and
    position (0, k, j) of the 1 by 128 by 128 slice are the same row-major position, and the slice starts at l
    on axis 0. -/
private theorem wslice_at (l : Nat) (hl : l < 3) (hs : S3x128x128.Slices ![l, 0, 0] S1x128x128)
    (x4 : S3x128x128.Idx → EReal) (k j : Fin 128) :
    shapeCast S128x128 (extractStridedSlice S1x128x128 ![l, 0, 0] x4 hs) shapeCasts_S1x128x128_S128x128 (ix2 k j)
      = x4 (ix3 (⟨l, hl⟩ : Fin 3) k j) := by
  refine (shapeCast_apply _ shapeCasts_S1x128x128_S128x128 (ix2 k j) (ix3 (0 : Fin 1) k j) ?_).trans ?_
  · rewrite [Shape.rowMajor_val_three, Shape.rowMajor_val_two]
    show (0 * 128 + k.val) * 128 + j.val = k.val * 128 + j.val
    omega
  · exact extractStridedSlice_apply ![l, 0, 0] x4 hs (ix3 (0 : Fin 1) k j) (ix3 (⟨l, hl⟩ : Fin 3) k j) (fun a => match a with
      | ⟨0, _⟩ => by show l = l + 0; omega
      | ⟨1, _⟩ => by show k.val = 0 + k.val; omega
      | ⟨2, _⟩ => by show j.val = 0 + j.val; omega)

/-- Slice l of the stacked matrices with its unit axis dropped. -/
theorem wslice0 (x4 : S3x128x128.Idx → EReal) (k j : Fin 128) :
    shapeCast S128x128 (extractStridedSlice S1x128x128 ![0, 0, 0] x4 slices_S3x128x128_S1x128x128_0_0_0)
      shapeCasts_S1x128x128_S128x128 (ix2 k j) = x4 (ix3 (0 : Fin 3) k j) :=
  wslice_at 0 (by omega) slices_S3x128x128_S1x128x128_0_0_0 x4 k j
theorem wslice1 (x4 : S3x128x128.Idx → EReal) (k j : Fin 128) :
    shapeCast S128x128 (extractStridedSlice S1x128x128 ![1, 0, 0] x4 slices_S3x128x128_S1x128x128_1_0_0)
      shapeCasts_S1x128x128_S128x128 (ix2 k j) = x4 (ix3 (1 : Fin 3) k j) :=
  wslice_at 1 (by omega) slices_S3x128x128_S1x128x128_1_0_0 x4 k j
theorem wslice2 (x4 : S3x128x128.Idx → EReal) (k j : Fin 128) :
    shapeCast S128x128 (extractStridedSlice S1x128x128 ![2, 0, 0] x4 slices_S3x128x128_S1x128x128_2_0_0)
      shapeCasts_S1x128x128_S128x128 (ix2 k j) = x4 (ix3 (2 : Fin 3) k j) :=
  wslice_at 2 (by omega) slices_S3x128x128_S1x128x128_2_0_0 x4 k j

/-- A vector of 128 laid as a 1 by 128 row: entry (0, j) of the row and entry j of the vector are the same
    row-major position. -/
private theorem row_of_vec (v : S128.Idx → EReal) (j : Fin 128) :
    shapeCast S1x128 v shapeCasts_S128_S1x128 (ix2 (0 : Fin 1) j) = v (ix1 j) := by
  refine shapeCast_apply v shapeCasts_S128_S1x128 (ix2 (0 : Fin 1) j) (ix1 j) ?_
  rewrite [Shape.rowMajor_val_one, Shape.rowMajor_val_two]
  show j.val = 0 * 128 + j.val
  omega

/-- Row l of the stacked biases: the 1 by 128 slice starting at row l, flattened to a vector and laid as a row
    again; every step keeps the row-major position j. -/
private theorem bslice_at (l : Nat) (hl : l < 3) (hs : S3x128.Slices ![l, 0] S1x128)
    (x5 : S3x128.Idx → EReal) (j : Fin 128) :
    shapeCast S1x128 (shapeCast S128 (extractStridedSlice S1x128 ![l, 0] x5 hs) shapeCasts_S1x128_S128)
      shapeCasts_S128_S1x128 (ix2 (0 : Fin 1) j) = x5 (ix2 (⟨l, hl⟩ : Fin 3) j) := by
  refine (row_of_vec _ j).trans ?_
  refine (shapeCast_apply _ shapeCasts_S1x128_S128 (ix1 j) (ix2 (0 : Fin 1) j) ?_).trans ?_
  · rewrite [Shape.rowMajor_val_two, Shape.rowMajor_val_one]
    show 0 * 128 + j.val = j.val
    omega
  · exact extractStridedSlice_apply ![l, 0] x5 hs (ix2 (0 : Fin 1) j) (ix2 (⟨l, hl⟩ : Fin 3) j) (fun a => match a with
      | ⟨0, _⟩ => by show l = l + 0; omega
      | ⟨1, _⟩ => by show j.val = 0 + j.val; omega)

/-- Row l of the stacked biases, laid as a 1 by 128 row. -/
theorem bslice0 (x5 : S3x128.Idx → EReal) (j : Fin 128) :
    shapeCast S1x128 (shapeCast S128 (extractStridedSlice S1x128 ![0, 0] x5 slices_S3x128_S1x128_0_0) shapeCasts_S1x128_S128)
      shapeCasts_S128_S1x128 (ix2 (0 : Fin 1) j) = x5 (ix2 (0 : Fin 3) j) :=
  bslice_at 0 (by omega) slices_S3x128_S1x128_0_0 x5 j
theorem bslice1 (x5 : S3x128.Idx → EReal) (j : Fin 128) :
    shapeCast S1x128 (shapeCast S128 (extractStridedSlice S1x128 ![1, 0] x5 slices_S3x128_S1x128_1_0) shapeCasts_S1x128_S128)
      shapeCasts_S128_S1x128 (ix2 (0 : Fin 1) j) = x5 (ix2 (1 : Fin 3) j) :=
  bslice_at 1 (by omega) slices_S3x128_S1x128_1_0 x5 j
theorem bslice2 (x5 : S3x128.Idx → EReal) (j : Fin 128) :
    shapeCast S1x128 (shapeCast S128 (extractStridedSlice S1x128 ![2, 0] x5 slices_S3x128_S1x128_2_0) shapeCasts_S1x128_S128)
      shapeCasts_S128_S1x128 (ix2 (0 : Fin 1) j) = x5 (ix2 (2 : Fin 3) j) :=
  bslice_at 2 (by omega) slices_S3x128_S1x128_2_0 x5 j

/-- The input projection's bias laid as a 1 by 128 row. -/
theorem binrow (x3 : S128.Idx → EReal) (j : Fin 128) :
    shapeCast S1x128 x3 shapeCasts_S128_S1x128 (ix2 (0 : Fin 1) j) = x3 (ix1 j) :=
  row_of_vec x3 j

/-! ## The two heads as columns of the output -/

/-- Column c of the two-column output, as a vector: entry n of the vector and entry (n, 0) of the one-column
    slice are the same row-major position, and the slice starts at column c. -/
private theorem col_at (c : Nat) (hc : c < 2) (hs : S50000x2.Slices ![0, c] S50000x1)
    (y : S50000x2.Idx → EReal) (n : Fin 50000) :
    shapeCast S50000 (extractStridedSlice S50000x1 ![0, c] y hs) shapeCasts_S50000x1_S50000 (ix1 n)
      = y (ix2 n (⟨c, hc⟩ : Fin 2)) := by
  refine (shapeCast_apply _ shapeCasts_S50000x1_S50000 (ix1 n) (ix2 n (0 : Fin 1)) ?_).trans ?_
  · rewrite [Shape.rowMajor_val_two, Shape.rowMajor_val_one]
    show n.val * 1 + 0 = n.val
    omega
  · exact extractStridedSlice_apply ![0, c] y hs (ix2 n (0 : Fin 1)) (ix2 n (⟨c, hc⟩ : Fin 2)) (fun a => match a with
      | ⟨0, _⟩ => by show n.val = 0 + n.val; omega
      | ⟨1, _⟩ => by show c = c + 0; omega)

/-- Column 0 of the two-column output, as a vector. -/
theorem col0 (y : S50000x2.Idx → EReal) (n : Fin 50000) :
    shapeCast S50000 (extractStridedSlice S50000x1 ![0, 0] y slices_S50000x2_S50000x1_0_0) shapeCasts_S50000x1_S50000 (ix1 n)
      = y (ix2 n (0 : Fin 2)) :=
  col_at 0 (by omega) slices_S50000x2_S50000x1_0_0 y n
/-- Column 1 of the two-column output, as a vector. -/
theorem col1 (y : S50000x2.Idx → EReal) (n : Fin 50000) :
    shapeCast S50000 (extractStridedSlice S50000x1 ![0, 1] y slices_S50000x2_S50000x1_0_1) shapeCasts_S50000x1_S50000 (ix1 n)
      = y (ix2 n (1 : Fin 2)) :=
  col_at 1 (by omega) slices_S50000x2_S50000x1_0_1 y n

end Cert.KernelIdeal.Val

end
-- ==== Proof.KChain.lean ====
/-
  The features the kernel's program returns, as a function of its arguments.

  The program is six stretches of host operations around five kernel regions.  Walking the boundary contents from
  the launch: the first stretches build the edge data (the same operations as the reference's, so the same stage
  functions of the edge list); the first region leaves the input projection; each of the next three stretches forms
  the aggregate of the current features and slices out the layer's matrix and bias, and the region after it leaves
  the next features.  After the fourth region nothing writes the features again.
-/
import proofs.«419781_j4337916969237_4_alg».proof.Proof.Gen.KernelIdeal.Frame
import proofs.«419781_j4337916969237_4_alg».proof.Proof.Net
import proofs.«419781_j4337916969237_4_alg».proof.Proof.KGraph
import proofs.«419781_j4337916969237_4_alg».proof.Proof.KRegion0
import proofs.«419781_j4337916969237_4_alg».proof.Proof.KRegion1
import proofs.«419781_j4337916969237_4_alg».proof.Proof.KRegion2
import proofs.«419781_j4337916969237_4_alg».proof.Proof.KRegion3
import proofs.«419781_j4337916969237_4_alg».proof.Proof.KHost

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (m : (ℓ : Loc nD τ sig) → Buf (Elt Ideal) ℓ) (ρ : Dev nD → PrngReg)

/-! ## Moves along the walk -/

/-- A stretch of host operations leaves a buffer it never writes as it was. -/
local macro "host_skip" : tactic =>
  `(tactic| (refine StableHlo.after_of_forall_not_mem _ _ (List.forall_iff_forall_mem.mp ?_)
             simp only [hostOps0, hostOps0_1, hostOps0_2, hostOps1, hostOps2, hostOps3, hostOps4, hostOps5,
               List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

/-! ## The pure half of a layer

The aggregate as the program forms it, named once; and the step from "the arrays a layer's kernel finds are these" to
"the array it leaves is the next aggregate-first layer". -/

/-- The aggregate as the program forms it from the features, the source list, the target list and the edge weights:
    a negative source moved up by the node count, the source rows gathered, each scaled by its weight, and the scaled
    rows summed into the rows their targets name, from zero. -/
private def aggT (h : S50000x128.Idx → EReal) (v3 v6 : S650000.Idx → BitVec 32) (v29 : S650000.Idx → EReal) :
    S50000x128.Idx → EReal :=
  Host.scatterAdd (F := Ideal) scatter_S50000x128_S650000x1_S650000x128_1_0_0_1
    (broadcastInDim S50000x128 ![] bcast_S_S50000x128 (constant S_ .f32 0x00000000#32))
    (broadcastInDim S650000x1 ![0] bcast_S650000_S650000x1_0 v6)
    (mulf (Host.gather gather_S50000x128_S650000x1_S650000x128_1_0_n_n_0_1_1128 h
        (broadcastInDim S650000x1 ![0] bcast_S650000_S650000x1_0
          (select (cmpi .slt v3 (broadcastInDim S650000 ![] bcast_S_S650000 (constantI S_ 32 0#32)))
            (addi v3 (broadcastInDim S650000 ![] bcast_S_S650000 (constantI S_ 32 50000#32))) v3)))
      (broadcastInDim S650000x128 ![0, 1] bcast_S650000x1_S650000x128_0_1
        (broadcastInDim S650000x1 ![0] bcast_S650000_S650000x1_0 v29)))

/-- One layer, free of the walk: if the features are hp, the three edge arrays are the reference's, and the matrix and
    bias arrays read as W and b, then the dense kernel's result over the program's aggregate is the aggregate-first
    layer of hp. -/
private theorem layer_step (x1 : Cert.ReferenceIdeal.S2x600000.Idx → BitVec 32)
    (h : S50000x128.Idx → EReal) (v3 v6 : S650000.Idx → BitVec 32) (v29 : S650000.Idx → EReal)
    (Wm : S128x128.Idx → EReal) (bm : S1x128.Idx → EReal)
    (hp : Fin 50000 → Fin 128 → EReal) (W : Fin 128 → Fin 128 → EReal) (b : Fin 128 → EReal)
    (h3 : v3 = Cert.ReferenceIdeal.ReadP.val_main_v3 (F := Ideal) x1)
    (h6 : v6 = Cert.ReferenceIdeal.ReadP.val_main_v6 (F := Ideal) x1)
    (h29 : v29 = Cert.ReferenceIdeal.ReadP.val_main_v29 (F := Ideal) x1)
    (hh : h = arrOf hp) (hW : ∀ k j, Wm (ix2 k j) = W k j) (hb : ∀ j, bm (ix2 (0 : Fin 1) j) = b j) :
    gcn (cur (aggT h v3 v6 v29)) (cur h) (cur Wm) (fun j => bm (ix2 (0 : Fin 1) j))
      = layK (Cert.Net.src x1) (Cert.Net.land x1) (Cert.Net.nrm x1) hp W b := by
  have e1 : cur (aggT h v3 v6 v29) = aggK (Cert.Net.src x1) (Cert.Net.land x1) (Cert.Net.nrm x1) hp := by
    funext n k
    show aggT h v3 v6 v29 (ix2 n k) = _
    unfold aggT
    rw [rowcol_eq x1 v3 h3, colcol_eq x1 v6 h6, agg_apply, h29, hh]
    rfl
  have e2 : cur h = hp := by rw [hh]; rfl
  have e3 : cur Wm = W := funext fun k => funext fun j => hW k j
  have e4 : (fun j => bm (ix2 (0 : Fin 1) j)) = b := funext hb
  rw [e1, e2, e3, e4]
  rfl

section Walk

variable (c : Dev nD)

/-! ## What stays put

The edge data are written before the first region and by nothing after its entry; the arguments are written by nothing at
all.  Between the first region's entry and the third aggregating stretch they keep their contents. -/

/-- The source list, the target list, the edge weights and the two stacked layer parameters: what every aggregating
    stretch reads besides the features. -/
private def kept : List (Ref sig .tc) := [main_v3, main_v6, main_v29, main_arg4, main_arg5]

private theorem kept_cases {r : Ref sig .tc} (hr : r ∈ kept) :
    r = main_v3 ∨ r = main_v6 ∨ r = main_v29 ∨ r = main_arg4 ∨ r = main_arg5 := by
  simpa only [kept, List.mem_cons, List.not_mem_nil, or_false] using hr

/-- The first region has none of them among its arrays' outputs or inputs. -/
private theorem keep4 {r : Ref sig .tc} (hr : r ∈ kept) :
    W4 m ρ c (Proc.devRef .tc r) = W3 m ρ c (Proc.devRef .tc r) := by
  rcases kept_cases hr with rfl | rfl | rfl | rfl | rfl <;> exact W4_of_ne m ρ c _ (by decide)

/-- The first aggregating stretch reads them and writes none. -/
private theorem keep5 {r : Ref sig .tc} (hr : r ∈ kept) :
    W5 m ρ c (Proc.devRef .tc r) = W4 m ρ c (Proc.devRef .tc r) := by
  rcases kept_cases hr with rfl | rfl | rfl | rfl | rfl <;> host_skip

private theorem keep6 {r : Ref sig .tc} (hr : r ∈ kept) :
    W6 m ρ c (Proc.devRef .tc r) = W5 m ρ c (Proc.devRef .tc r) := by
  rcases kept_cases hr with rfl | rfl | rfl | rfl | rfl <;> exact W6_of_ne m ρ c _ (by decide)

private theorem keep7 {r : Ref sig .tc} (hr : r ∈ kept) :
    W7 m ρ c (Proc.devRef .tc r) = W6 m ρ c (Proc.devRef .tc r) := by
  rcases kept_cases hr with rfl | rfl | rfl | rfl | rfl <;> host_skip

private theorem keep8 {r : Ref sig .tc} (hr : r ∈ kept) :
    W8 m ρ c (Proc.devRef .tc r) = W7 m ρ c (Proc.devRef .tc r) := by
  rcases kept_cases hr with rfl | rfl | rfl | rfl | rfl <;> exact W8_of_ne m ρ c _ (by decide)

/-- At the second aggregating stretch's entry. -/
private theorem carry6 {r : Ref sig .tc} (hr : r ∈ kept) :
    W6 m ρ c (Proc.devRef .tc r) = W3 m ρ c (Proc.devRef .tc r) :=
  (keep6 m ρ c hr).trans ((keep5 m ρ c hr).trans (keep4 m ρ c hr))

/-- At the third aggregating stretch's entry. -/
private theorem carry8 {r : Ref sig .tc} (hr : r ∈ kept) :
    W8 m ρ c (Proc.devRef .tc r) = W3 m ρ c (Proc.devRef .tc r) :=
  (keep8 m ρ c hr).trans ((keep7 m ρ c hr).trans (carry6 m ρ c hr))

/-- The arguments the walk reads up to the third layer, other than the edge list. -/
private def early : List (Ref sig .tc) := [main_arg0, main_arg2, main_arg4, main_arg5]

private theorem early_cases {r : Ref sig .tc} (hr : r ∈ early) :
    r = main_arg0 ∨ r = main_arg2 ∨ r = main_arg4 ∨ r = main_arg5 := by
  simpa only [early, List.mem_cons, List.not_mem_nil, or_false] using hr

/-- None of the three stretches before the first region writes an argument: at the first region's entry it holds what
    the launch gave it. -/
private theorem entry_arg {r : Ref sig .tc} (hr : r ∈ early) :
    W3 m ρ c (Proc.devRef .tc r) = m ((c : Thread nD τ).loc r) := by
  have h3 : W3 m ρ c (Proc.devRef .tc r) = W2 m ρ c (Proc.devRef .tc r) := by
    rcases early_cases hr with rfl | rfl | rfl | rfl <;> host_skip
  have h2 : W2 m ρ c (Proc.devRef .tc r) = W1 m ρ c (Proc.devRef .tc r) := by
    rcases early_cases hr with rfl | rfl | rfl | rfl <;> host_skip
  have h1 : W1 m ρ c (Proc.devRef .tc r) = W0 m ρ c (Proc.devRef .tc r) := by
    rcases early_cases hr with rfl | rfl | rfl | rfl <;> host_skip
  exact h3.trans (h2.trans (h1.trans rfl))

/-! ## The features, region by region -/

/-- The input projection over core c's arguments. -/
private abbrev f0 : Fin 50000 → Fin 128 → EReal :=
  Cert.Net.h0 (m ((c : Thread nD τ).loc main_arg0)) (m ((c : Thread nD τ).loc main_arg2)) (m ((c : Thread nD τ).loc main_arg3))
/-- The first, second and third aggregate-first layers over core c's arguments. -/
private abbrev f1 : Fin 50000 → Fin 128 → EReal :=
  Cert.Net.hK1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
private abbrev f2 : Fin 50000 → Fin 128 → EReal :=
  Cert.Net.hK2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
private abbrev f3 : Fin 50000 → Fin 128 → EReal :=
  Cert.Net.hK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The first region leaves the input projection: its three inputs are two arguments and the bias laid as a row. -/
private theorem proj_arr :
    (W4 m ρ c (Proc.devRef .tc main_v31) : S50000x128.Idx → EReal) = arrOf (f0 m c) := by
  have e : (W4 m ρ c (Proc.devRef .tc main_v31) : S50000x128.Idx → EReal)
      = arrOf (lin (cur (W3 m ρ c (Proc.devRef .tc main_arg0) : S50000x256.Idx → EReal))
          (cur (W3 m ρ c (Proc.devRef .tc main_arg2) : S256x128.Idx → EReal))
          (fun j => (W3 m ρ c (Proc.devRef .tc main_v30) : S1x128.Idx → EReal) (ix2 (0 : Fin 1) j))) :=
    (W4_arr m ρ c 3).trans (region0_arr (V3 m ρ) c)
  rw [e, entry_arg m ρ c (r := main_arg0) (by decide), entry_arg m ρ c (r := main_arg2) (by decide), W3_bin m ρ c]
  exact congrArg (fun b => arrOf (lin _ _ b)) (funext fun j => binrow _ j)

/-- The first layer: the stretch after the projection forms its aggregate and slices out its matrix and bias, and
    the second region leaves the layer. -/
private theorem layer1_arr :
    (W6 m ρ c (Proc.devRef .tc main_v50) : S50000x128.Idx → EReal) = arrOf (f1 m c) := by
  have e : (W6 m ρ c (Proc.devRef .tc main_v50) : S50000x128.Idx → EReal)
      = arrOf (gcn (cur (W5 m ρ c (Proc.devRef .tc main_v44) : S50000x128.Idx → EReal))
          (cur (W5 m ρ c (Proc.devRef .tc main_v31) : S50000x128.Idx → EReal))
          (cur (W5 m ρ c (Proc.devRef .tc main_v46) : S128x128.Idx → EReal))
          (fun j => (W5 m ρ c (Proc.devRef .tc main_v49) : S1x128.Idx → EReal) (ix2 (0 : Fin 1) j))) :=
    (W6_arr m ρ c 4).trans (region1_arr (V5 m ρ) c)
  have a : (W5 m ρ c (Proc.devRef .tc main_v44) : S50000x128.Idx → EReal)
      = aggT (W4 m ρ c (Proc.devRef .tc main_v31)) (W4 m ρ c (Proc.devRef .tc main_v3))
          (W4 m ρ c (Proc.devRef .tc main_v6)) (W4 m ρ c (Proc.devRef .tc main_v29)) := by
    unfold aggT
    show StableHlo.after hostOps1 _ (Proc.devRef .tc main_v44) = _
    after_results_simp <;> rfl
  have f : W5 m ρ c (Proc.devRef .tc main_v31) = W4 m ρ c (Proc.devRef .tc main_v31) := by host_skip
  have w : (W5 m ρ c (Proc.devRef .tc main_v46) : S128x128.Idx → EReal)
      = shapeCast S128x128 (extractStridedSlice S1x128x128 ![0, 0, 0]
          (W4 m ρ c (Proc.devRef .tc main_arg4) : S3x128x128.Idx → EReal) slices_S3x128x128_S1x128x128_0_0_0)
          shapeCasts_S1x128x128_S128x128 := by
    show StableHlo.after hostOps1 _ (Proc.devRef .tc main_v46) = _
    after_results
    rfl
  have b : (W5 m ρ c (Proc.devRef .tc main_v49) : S1x128.Idx → EReal)
      = shapeCast S1x128 (shapeCast S128 (extractStridedSlice S1x128 ![0, 0]
          (W4 m ρ c (Proc.devRef .tc main_arg5) : S3x128.Idx → EReal) slices_S3x128_S1x128_0_0) shapeCasts_S1x128_S128)
          shapeCasts_S128_S1x128 := by
    show StableHlo.after hostOps1 _ (Proc.devRef .tc main_v49) = _
    after_results
    rfl
  rw [e, a, f, w, b, proj_arr m ρ c, keep4 m ρ c (r := main_v3) (by decide), keep4 m ρ c (r := main_v6) (by decide),
    keep4 m ρ c (r := main_v29) (by decide), keep4 m ρ c (r := main_arg4) (by decide),
    keep4 m ρ c (r := main_arg5) (by decide), entry_arg m ρ c (r := main_arg4) (by decide),
    entry_arg m ρ c (r := main_arg5) (by decide)]
  refine congrArg arrOf (layer_step (m ((c : Thread nD τ).loc main_arg1)) _ _ _ _ _ _ _ _ _ ?_ ?_ ?_ ?_ ?_ ?_)
  · exact W3_row m ρ c
  · exact W3_col m ρ c
  · exact W3_nrm m ρ c
  · rfl
  · exact fun k j => wslice0 _ k j
  · exact fun j => bslice0 _ j

/-- The second layer, over the first. -/
private theorem layer2_arr :
    (W8 m ρ c (Proc.devRef .tc main_v69) : S50000x128.Idx → EReal) = arrOf (f2 m c) := by
  have e : (W8 m ρ c (Proc.devRef .tc main_v69) : S50000x128.Idx → EReal)
      = arrOf (gcn (cur (W7 m ρ c (Proc.devRef .tc main_v63) : S50000x128.Idx → EReal))
          (cur (W7 m ρ c (Proc.devRef .tc main_v50) : S50000x128.Idx → EReal))
          (cur (W7 m ρ c (Proc.devRef .tc main_v65) : S128x128.Idx → EReal))
          (fun j => (W7 m ρ c (Proc.devRef .tc main_v68) : S1x128.Idx → EReal) (ix2 (0 : Fin 1) j))) :=
    (W8_arr m ρ c 4).trans (region2_arr (V7 m ρ) c)
  have a : (W7 m ρ c (Proc.devRef .tc main_v63) : S50000x128.Idx → EReal)
      = aggT (W6 m ρ c (Proc.devRef .tc main_v50)) (W6 m ρ c (Proc.devRef .tc main_v3))
          (W6 m ρ c (Proc.devRef .tc main_v6)) (W6 m ρ c (Proc.devRef .tc main_v29)) := by
    unfold aggT
    show StableHlo.after hostOps2 _ (Proc.devRef .tc main_v63) = _
    after_results_simp <;> rfl
  have f : W7 m ρ c (Proc.devRef .tc main_v50) = W6 m ρ c (Proc.devRef .tc main_v50) := by host_skip
  have w : (W7 m ρ c (Proc.devRef .tc main_v65) : S128x128.Idx → EReal)
      = shapeCast S128x128 (extractStridedSlice S1x128x128 ![1, 0, 0]
          (W6 m ρ c (Proc.devRef .tc main_arg4) : S3x128x128.Idx → EReal) slices_S3x128x128_S1x128x128_1_0_0)
          shapeCasts_S1x128x128_S128x128 := by
    show StableHlo.after hostOps2 _ (Proc.devRef .tc main_v65) = _
    after_results
    rfl
  have b : (W7 m ρ c (Proc.devRef .tc main_v68) : S1x128.Idx → EReal)
      = shapeCast S1x128 (shapeCast S128 (extractStridedSlice S1x128 ![1, 0]
          (W6 m ρ c (Proc.devRef .tc main_arg5) : S3x128.Idx → EReal) slices_S3x128_S1x128_1_0) shapeCasts_S1x128_S128)
          shapeCasts_S128_S1x128 := by
    show StableHlo.after hostOps2 _ (Proc.devRef .tc main_v68) = _
    after_results
    rfl
  rw [e, a, f, w, b, layer1_arr m ρ c, carry6 m ρ c (r := main_v3) (by decide), carry6 m ρ c (r := main_v6) (by decide),
    carry6 m ρ c (r := main_v29) (by decide), carry6 m ρ c (r := main_arg4) (by decide),
    carry6 m ρ c (r := main_arg5) (by decide), entry_arg m ρ c (r := main_arg4) (by decide),
    entry_arg m ρ c (r := main_arg5) (by decide)]
  refine congrArg arrOf (layer_step (m ((c : Thread nD τ).loc main_arg1)) _ _ _ _ _ _ _ _ _ ?_ ?_ ?_ ?_ ?_ ?_)
  · exact W3_row m ρ c
  · exact W3_col m ρ c
  · exact W3_nrm m ρ c
  · rfl
  · exact fun k j => wslice1 _ k j
  · exact fun j => bslice1 _ j

end Walk

/-- The features at the fourth region's exit are the third aggregate-first layer, over the second. -/
theorem W10_h (c : Dev nD) :
    (W10 m ρ c (Proc.devRef .tc main_v88) : S50000x128.Idx → EReal)
      = arrOf (Cert.Net.hK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have e : (W10 m ρ c (Proc.devRef .tc main_v88) : S50000x128.Idx → EReal)
      = arrOf (gcn (cur (W9 m ρ c (Proc.devRef .tc main_v82) : S50000x128.Idx → EReal))
          (cur (W9 m ρ c (Proc.devRef .tc main_v69) : S50000x128.Idx → EReal))
          (cur (W9 m ρ c (Proc.devRef .tc main_v84) : S128x128.Idx → EReal))
          (fun j => (W9 m ρ c (Proc.devRef .tc main_v87) : S1x128.Idx → EReal) (ix2 (0 : Fin 1) j))) :=
    (W10_arr m ρ c 4).trans (region3_arr (V9 m ρ) c)
  have a : (W9 m ρ c (Proc.devRef .tc main_v82) : S50000x128.Idx → EReal)
      = aggT (W8 m ρ c (Proc.devRef .tc main_v69)) (W8 m ρ c (Proc.devRef .tc main_v3))
          (W8 m ρ c (Proc.devRef .tc main_v6)) (W8 m ρ c (Proc.devRef .tc main_v29)) := by
    unfold aggT
    show StableHlo.after hostOps3 _ (Proc.devRef .tc main_v82) = _
    after_results_simp <;> rfl
  have f : W9 m ρ c (Proc.devRef .tc main_v69) = W8 m ρ c (Proc.devRef .tc main_v69) := by host_skip
  have w : (W9 m ρ c (Proc.devRef .tc main_v84) : S128x128.Idx → EReal)
      = shapeCast S128x128 (extractStridedSlice S1x128x128 ![2, 0, 0]
          (W8 m ρ c (Proc.devRef .tc main_arg4) : S3x128x128.Idx → EReal) slices_S3x128x128_S1x128x128_2_0_0)
          shapeCasts_S1x128x128_S128x128 := by
    show StableHlo.after hostOps3 _ (Proc.devRef .tc main_v84) = _
    after_results
    rfl
  have b : (W9 m ρ c (Proc.devRef .tc main_v87) : S1x128.Idx → EReal)
      = shapeCast S1x128 (shapeCast S128 (extractStridedSlice S1x128 ![2, 0]
          (W8 m ρ c (Proc.devRef .tc main_arg5) : S3x128.Idx → EReal) slices_S3x128_S1x128_2_0) shapeCasts_S1x128_S128)
          shapeCasts_S128_S1x128 := by
    show StableHlo.after hostOps3 _ (Proc.devRef .tc main_v87) = _
    after_results
    rfl
  rw [e, a, f, w, b, layer2_arr m ρ c, carry8 m ρ c (r := main_v3) (by decide), carry8 m ρ c (r := main_v6) (by decide),
    carry8 m ρ c (r := main_v29) (by decide), carry8 m ρ c (r := main_arg4) (by decide),
    carry8 m ρ c (r := main_arg5) (by decide), entry_arg m ρ c (r := main_arg4) (by decide),
    entry_arg m ρ c (r := main_arg5) (by decide)]
  refine congrArg arrOf (layer_step (m ((c : Thread nD τ).loc main_arg1)) _ _ _ _ _ _ _ _ _ ?_ ?_ ?_ ?_ ?_ ?_)
  · exact W3_row m ρ c
  · exact W3_col m ρ c
  · exact W3_nrm m ρ c
  · rfl
  · exact fun k j => wslice2 _ k j
  · exact fun j => bslice2 _ j

/-- The features the program returns are the third aggregate-first layer: after the fourth region nothing writes them
    (the heads' stretch and the last stretch do not, and the last region only reads them). -/
theorem out_h (c : Dev nD) :
    (W13 m ρ c (Proc.devRef .tc main_v88) : S50000x128.Idx → EReal)
      = arrOf (Cert.Net.hK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  have h13 : W13 m ρ c (Proc.devRef .tc main_v88) = W12 m ρ c (Proc.devRef .tc main_v88) := by host_skip
  have h12 : W12 m ρ c (Proc.devRef .tc main_v88) = W11 m ρ c (Proc.devRef .tc main_v88) :=
    (W12_arr m ρ c 0).trans (((dat4 (V11 m ρ) c).arrAt_in 0 rfl _).trans (A_eq4 (V11 m ρ) c 0))
  have h11 : W11 m ρ c (Proc.devRef .tc main_v88) = W10 m ρ c (Proc.devRef .tc main_v88) := by host_skip
  exact (h13.trans (h12.trans h11)).trans (W10_h m ρ c)

end Cert.KernelIdeal.Val

end
-- ==== Proof.KRegion4.lean ====
/-
  The heads' kernel, read as a whole array.

  The kernel runs on ten blocks of 5000 rows.  At a block it loads the block of the features, the 128 by 256 first
  layer, its bias row, the 256 by 2 second layer and its bias row, and stores
  logistic (max (h w1 + b1) 0 w2 + b2).  The blocks tile the array.
-/
import proofs.«419781_j4337916969237_4_alg».proof.Proof.Gen.KernelIdeal.Frame
import proofs.«419781_j4337916969237_4_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec
open Idealize.ShloMosaic.Pipeline (Dat)

/-! ## The block's arithmetic at one entry -/

/-- Offsets that are both zero, as a constant function. -/
private theorem zeros2 : (![0, 0] : Fin 2 → Nat) = fun _ => 0 := funext fun a => by fin_cases a <;> rfl

/-- Along the rows the left factor of the hidden layer's product is read at the output's row. -/
private theorem hid_lhs_row (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl

/-- Along the columns the left factor of the hidden layer's product is read at the summation index. -/
private theorem hid_lhs_col (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q

/-- Along the rows the right factor of the hidden layer's product is read at the summation index. -/
private theorem hid_rhs_row (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q

/-- Along the columns the right factor of the hidden layer's product is read at the output's column. -/
private theorem hid_rhs_col (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The hidden layer's product started from zero, at entry (p, k): the sum over j of h p j * w1 j k. -/
private theorem hid_entry (x : FVec Ideal S5000x128 .f32) (w : FVec Ideal S128x256 .f32) (p : Fin 5000) (q : Fin 256) :
    matmul dot_S5000x128_S128x256_S5000x256_1_0_0_1_n_n (some .fp32) x w (constant (F := Ideal) S5000x256 .f32 0x00000000#32) (ix2 p q)
      = ∑ k : Fin 128, x (ix2 p k) * w (ix2 k q) := by
  refine (Ideal.matmul_constant_zero_apply dot_S5000x128_S128x256_S5000x256_1_0_0_1_n_n (some .fp32) x w (ix2 p q)).trans ?_
  rw [← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact hid_lhs_row _ _
    | ⟨1, _⟩ => exact (hid_lhs_col _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (hid_rhs_row _ _).trans hk
    | ⟨1, _⟩ => exact hid_rhs_col _ _)
  rw [el, er]

/-- Along the rows the left factor of the second layer's product is read at the output's row. -/
private theorem outp_lhs_row (i : S5000x2.Idx) (q : dot_S5000x256_S256x2_S5000x2_1_0_0_1_n_n.contr.Idx) :
    (dot_S5000x256_S256x2_S5000x2_1_0_0_1_n_n.lhsIdx i q 0).val = (i 0).val := by
  unfold DotDims.lhsIdx
  rw [dif_neg (show ¬(0 : Fin S5000x256.rank) ∈ dot_S5000x256_S256x2_S5000x2_1_0_0_1_n_n.lhsBatch by decide), dif_pos (show (0 : Fin S5000x256.rank) ∈ dot_S5000x256_S256x2_S5000x2_1_0_0_1_n_n.lhsNonContracting by decide)]
  rfl

/-- Along the columns the left factor of the second layer's product is read at the summation index. -/
private theorem outp_lhs_col (i : S5000x2.Idx) (q : dot_S5000x256_S256x2_S5000x2_1_0_0_1_n_n.contr.Idx) :
    (dot_S5000x256_S256x2_S5000x2_1_0_0_1_n_n.lhsIdx i q 1).val = (q ⟨0, by decide⟩).val :=
  dot_S5000x256_S256x2_S5000x2_1_0_0_1_n_n.lhsIdx_val_of_single rfl i q

/-- Along the rows the right factor of the second layer's product is read at the summation index. -/
private theorem outp_rhs_row (i : S5000x2.Idx) (q : dot_S5000x256_S256x2_S5000x2_1_0_0_1_n_n.contr.Idx) :
    (dot_S5000x256_S256x2_S5000x2_1_0_0_1_n_n.rhsIdx i q 0).val = (q ⟨0, by decide⟩).val :=
  dot_S5000x256_S256x2_S5000x2_1_0_0_1_n_n.rhsIdx_val_of_single rfl i q

/-- Along the columns the right factor of the second layer's product is read at the output's column. -/
private theorem outp_rhs_col (i : S5000x2.Idx) (q : dot_S5000x256_S256x2_S5000x2_1_0_0_1_n_n.contr.Idx) :
    (dot_S5000x256_S256x2_S5000x2_1_0_0_1_n_n.rhsIdx i q 1).val = (i 1).val := by
  unfold DotDims.rhsIdx
  rw [dif_neg (show ¬(1 : Fin S256x2.rank) ∈ dot_S5000x256_S256x2_S5000x2_1_0_0_1_n_n.rhsBatch by decide), dif_pos (show (1 : Fin S256x2.rank) ∈ dot_S5000x256_S256x2_S5000x2_1_0_0_1_n_n.rhsNonContracting by decide)]
  rfl

/-- The second layer's product started from zero, at entry (p, c): the sum over k of a p k * w2 k c. -/
private theorem outp_entry (x : FVec Ideal S5000x256 .f32) (w : FVec Ideal S256x2 .f32) (p : Fin 5000) (q : Fin 2) :
    matmul dot_S5000x256_S256x2_S5000x2_1_0_0_1_n_n (some .fp32) x w (constant (F := Ideal) S5000x2 .f32 0x00000000#32) (ix2 p q)
      = ∑ k : Fin 256, x (ix2 p k) * w (ix2 k q) := by
  refine (Ideal.matmul_constant_zero_apply dot_S5000x256_S256x2_S5000x2_1_0_0_1_n_n (some .fp32) x w (ix2 p q)).trans ?_
  rw [← Equiv.sum_comp (contrEquiv1 dot_S5000x256_S256x2_S5000x2_1_0_0_1_n_n 256 rfl rfl).symm]
  refine Finset.sum_congr rfl fun k _ => ?_
  have hk := contrEquiv1_symm_val dot_S5000x256_S256x2_S5000x2_1_0_0_1_n_n 256 rfl rfl k
  have el : dot_S5000x256_S256x2_S5000x2_1_0_0_1_n_n.lhsIdx (ix2 p q) ((contrEquiv1 dot_S5000x256_S256x2_S5000x2_1_0_0_1_n_n 256 rfl rfl).symm k) = ix2 p k := funext fun a => Fin.ext (by
    match a with
    | ⟨0, _⟩ => exact outp_lhs_row _ _
    | ⟨1, _⟩ => exact (outp_lhs_col _ _).trans hk)
  have er : dot_S5000x256_S256x2_S5000x2_1_0_0_1_n_n.rhsIdx (ix2 p q) ((contrEquiv1 dot_S5000x256_S256x2_S5000x2_1_0_0_1_n_n 256 rfl rfl).symm k) = ix2 k q := funext fun a => Fin.ext (by
    match a with
    | ⟨0, _⟩ => exact (outp_rhs_row _ _).trans hk
    | ⟨1, _⟩ => exact outp_rhs_col _ _)
  rw [el, er]

/-- What the body stores, at entry (p, c) of the block: the logistic function of the second layer applied to the positive
    part of the hidden layer. -/
private theorem stored_entry (h : Vec Ideal S5000x128 .f32) (w1 : Vec Ideal S128x256 .f32) (b1 : Vec Ideal S1x256 .f32)
    (w2 : Vec Ideal S256x2 .f32) (b2 : Vec Ideal S1x2 .f32) (p : Fin 5000) (c : Fin 2) :
    (k4_pay1 (F := Ideal) h w1 b1 w2 b2 : S5000x2.Idx → EReal) (ix2 p c)
      = Ideal.logistic ((∑ k : Fin 256, max ((∑ j : Fin 128, (h (ix2 p j) : EReal) * (w1 (ix2 j k) : EReal)) + (b1 (ix2 (0 : Fin 1) k) : EReal)) 0
          * (w2 (ix2 k c) : EReal)) + (b2 (ix2 (0 : Fin 1) c) : EReal)) := by
  unfold k4_pay1
  show Ideal.logistic _ = Ideal.logistic _
  refine congrArg Ideal.logistic ?_
  refine (addf_apply _ _ (ix2 p c)).trans ?_
  refine congrArg₂ (· + ·) ?_ ?_
  · refine (outp_entry _ _ p c).trans ?_
    refine Finset.sum_congr rfl fun k _ => ?_
    refine congrArg₂ (· * ·) ?_ (congrFun (shapeCast_self w2 _) (ix2 k c))
    refine (maximumf_apply _ _ (ix2 p k)).trans ?_
    refine congrArg₂ max ?_ Ideal.ofBits_zero_f32
    refine (addf_apply _ _ (ix2 p k)).trans ?_
    refine congrArg₂ (· + ·) ?_ ?_
    · refine (hid_entry _ _ p k).trans ?_
      exact Finset.sum_congr rfl fun j _ =>
        congrArg₂ (· * ·) (congrFun (shapeCast_self h _) (ix2 p j)) (congrFun (shapeCast_self w1 _) (ix2 j k))
    · refine (broadcastTo_1b_ab_apply _ _ p k).trans ?_
      exact congrFun (shapeCast_self b1 _) (ix2 (0 : Fin 1) k)
  · refine (broadcastTo_1b_ab_apply _ _ p c).trans ?_
    exact congrFun (shapeCast_self b2 _) (ix2 (0 : Fin 1) c)

/-- An array of two coordinates read where the coordinates are known. -/
private theorem arrOf_at {n0 n1 : Nat} (f : Fin n0 → Fin n1 → EReal) (i : (⟨2, ![n0, n1]⟩ : Shape).Idx) (a : Fin n0) (b : Fin n1)
    (ha : (i 0).val = a.val) (hb : (i 1).val = b.val) : arrOf f i = f a b := by
  show f ⟨(i 0).val, idx2_lt0 i⟩ ⟨(i 1).val, idx2_lt1 i⟩ = f a b
  rw [show (⟨(i 0).val, idx2_lt0 i⟩ : Fin n0) = a from Fin.ext ha, show (⟨(i 1).val, idx2_lt1 i⟩ : Fin n1) = b from Fin.ext hb]

variable (V : (c : Dev nD) → (b : Ref sig .tc) → Buf (Elt Ideal) ((c : Thread nD τ).loc b))

/-! ## Where each window's block lies -/

/-- The block indices over the grid: the windows of the features and of the output move down the rows with the point,
    the two layers and their bias rows stay. -/
private theorem where_blocks : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = t.val ∧ win4_5.index t (1 : Fin 2) = 0) :=
  (by decide +kernel : ∀ t : Fin grid4.N, _)

/-- Row p of point t's block of the features is row 5000 t + p of the features. -/
private theorem h_block (c : Dev nD) (t : Fin cfg4.N) (p : Fin 5000) (j : Fin 128) (n : Fin 50000)
    (hn : n.val = t.val * 5000 + p.val) :
    (iblk4 V c 0 t : Vec Ideal S5000x128 .f32) (ix2 p j) = (V c main_v88 : S50000x128.Idx → EReal) (ix2 n j) := by
  obtain ⟨⟨e0, e1⟩, -⟩ := where_blocks t
  unfold iblk4
  rw [View.read_apply]
  show V c main_v88 _ = V c main_v88 _
  congr 1
  funext a
  apply Fin.ext
  match a with
  | ⟨0, _⟩ => show win4_0.index t (0 : Fin 2) * 5000 + 1 * p.val = n.val; rw [e0, hn]; omega
  | ⟨1, _⟩ => show win4_0.index t (1 : Fin 2) * 128 + 1 * j.val = j.val; rw [e1]; omega

/-- Every point's block of the first layer is the first layer. -/
private theorem w1_block (c : Dev nD) (t : Fin cfg4.N) (j : Fin 128) (k : Fin 256) :
    (iblk4 V c 1 t : Vec Ideal S128x256 .f32) (ix2 j k) = (V c main_v89 : S128x256.Idx → EReal) (ix2 j k) := by
  obtain ⟨-, ⟨e0, e1⟩, -⟩ := where_blocks t
  unfold iblk4
  rw [View.read_apply]
  show V c main_v89 _ = V c main_v89 _
  congr 1
  funext a
  apply Fin.ext
  match a with
  | ⟨0, _⟩ => show win4_1.index t (0 : Fin 2) * 128 + 1 * j.val = j.val; rw [e0]; omega
  | ⟨1, _⟩ => show win4_1.index t (1 : Fin 2) * 256 + 1 * k.val = k.val; rw [e1]; omega

/-- Every point's block of the first bias row is that row. -/
private theorem b1_block (c : Dev nD) (t : Fin cfg4.N) (k : Fin 256) :
    (iblk4 V c 2 t : Vec Ideal S1x256 .f32) (ix2 (0 : Fin 1) k) = (V c main_v103 : S1x256.Idx → EReal) (ix2 (0 : Fin 1) k) := by
  obtain ⟨-, -, ⟨e0, e1⟩, -⟩ := where_blocks t
  unfold iblk4
  rw [View.read_apply]
  show V c main_v103 _ = V c main_v103 _
  congr 1
  funext a
  apply Fin.ext
  match a with
  | ⟨0, _⟩ => show win4_2.index t (0 : Fin 2) * 1 + 1 * 0 = 0; rw [e0]
  | ⟨1, _⟩ => show win4_2.index t (1 : Fin 2) * 256 + 1 * k.val = k.val; rw [e1]; omega

/-- Every point's block of the second layer is the second layer. -/
private theorem w2_block (c : Dev nD) (t : Fin cfg4.N) (k : Fin 256) (d : Fin 2) :
    (iblk4 V c 3 t : Vec Ideal S256x2 .f32) (ix2 k d) = (V c main_v101 : S256x2.Idx → EReal) (ix2 k d) := by
  obtain ⟨-, -, -, ⟨e0, e1⟩, -⟩ := where_blocks t
  unfold iblk4
  rw [View.read_apply]
  show V c main_v101 _ = V c main_v101 _
  congr 1
  funext a
  apply Fin.ext
  match a with
  | ⟨0, _⟩ => show win4_3.index t (0 : Fin 2) * 256 + 1 * k.val = k.val; rw [e0]; omega
  | ⟨1, _⟩ => show win4_3.index t (1 : Fin 2) * 2 + 1 * d.val = d.val; rw [e1]; omega

/-- Every point's block of the second bias row is that row. -/
private theorem b2_block (c : Dev nD) (t : Fin cfg4.N) (d : Fin 2) :
    (iblk4 V c 4 t : Vec Ideal S1x2 .f32) (ix2 (0 : Fin 1) d) = (V c main_v104 : S1x2.Idx → EReal) (ix2 (0 : Fin 1) d) := by
  obtain ⟨-, -, -, -, ⟨e0, e1⟩, -⟩ := where_blocks t
  unfold iblk4
  rw [View.read_apply]
  show V c main_v104 _ = V c main_v104 _
  congr 1
  funext a
  apply Fin.ext
  match a with
  | ⟨0, _⟩ => show win4_4.index t (0 : Fin 2) * 1 + 1 * 0 = 0; rw [e0]
  | ⟨1, _⟩ => show win4_4.index t (1 : Fin 2) * 2 + 1 * d.val = d.val; rw [e1]; omega

/-! ## From the blocks to the array -/

/-- What point t writes back is block t of the two heads of the arrays the region found. -/
private theorem block_written (c : Dev nD) (t : Fin cfg4.N) :
    (dat4 (F := Ideal) V c).flushed 5 t = ((cfg4.win 5).blk t).view.read (Elt Ideal)
      (arrOf (headK (D := 128) (cur (V c main_v88 : S50000x128.Idx → EReal)) (cur (V c main_v89 : S128x256.Idx → EReal))
        (fun k => (V c main_v103 : S1x256.Idx → EReal) (ix2 (0 : Fin 1) k)) (cur (V c main_v101 : S256x2.Idx → EReal))
        (fun k => (V c main_v104 : S1x2.Idx → EReal) (ix2 (0 : Fin 1) k)))) := by
  show (cfg4.win 5).cut (grid4.coords t) ((dat4 V c).after 5 t) = _
  rw [after4_5]
  unfold out4_5
  rw [View.canon_unit_zero zeros2]
  simp only [View.ld_unit_zero (S := S5000x128) zeros2, View.ld_unit_zero (S := S128x256) zeros2, View.ld_unit_zero (S := S1x256) zeros2,
    View.ld_unit_zero (S := S256x2) zeros2, View.ld_unit_zero (S := S1x2) zeros2]
  obtain ⟨-, -, -, -, -, ⟨e0, e1⟩⟩ := where_blocks t
  have ht : t.val < 10 := lt_of_lt_of_eq t.isLt N_4
  show (k4_pay1 (F := Ideal) (iblk4 V c 0 t) (iblk4 V c 1 t) (iblk4 V c 2 t) (iblk4 V c 3 t) (iblk4 V c 4 t) : S5000x2.Idx → EReal)
    = fun j : S5000x2.Idx => arrOf (headK (D := 128) (cur (V c main_v88 : S50000x128.Idx → EReal)) (cur (V c main_v89 : S128x256.Idx → EReal))
        (fun k => (V c main_v103 : S1x256.Idx → EReal) (ix2 (0 : Fin 1) k)) (cur (V c main_v101 : S256x2.Idx → EReal))
        (fun k => (V c main_v104 : S1x2.Idx → EReal) (ix2 (0 : Fin 1) k))) (((cfg4.win 5).blk t).view.emb j)
  funext j
  obtain ⟨p, d, rfl⟩ : ∃ (p : Fin 5000) (d : Fin 2), j = ix2 p d := ⟨j 0, j 1, eq_ix2 j⟩
  refine (stored_entry (iblk4 V c 0 t) (iblk4 V c 1 t) (iblk4 V c 2 t) (iblk4 V c 3 t) (iblk4 V c 4 t) p d).trans ?_
  have hp : p.val < 5000 := p.isLt
  have hn : t.val * 5000 + p.val < 50000 := by omega
  refine Eq.trans ?_ (arrOf_at _ (((cfg4.win 5).blk t).view.emb (ix2 p d)) ⟨t.val * 5000 + p.val, hn⟩ d ?_ ?_).symm
  · unfold headK cur
    refine congrArg Ideal.logistic (congrArg₂ (· + ·) ?_ (b2_block V c t d))
    show (∑ k : Fin 256, _) = ∑ k : Fin 256, _
    exact Finset.sum_congr rfl fun k _ => congrArg₂ (· * ·)
      (congrArg₂ max (congrArg₂ (· + ·) (Finset.sum_congr rfl fun j _ =>
        congrArg₂ (· * ·) (h_block V c t p j ⟨t.val * 5000 + p.val, hn⟩ rfl) (w1_block V c t j k)) (b1_block V c t k)) rfl)
      (w2_block V c t k d)
  · show win4_5.index t (0 : Fin 2) * 5000 + 1 * p.val = t.val * 5000 + p.val
    rw [e0]; omega
  · show win4_5.index t (1 : Fin 2) * 2 + 1 * d.val = d.val
    rw [e1]; omega

/-- An entry of the array is in point t's block when each coordinate is in the block's range. -/
private theorem in_block (t : Fin cfg4.N) (i : S50000x2.Idx) :
    i ∈ ((cfg4.win 5).blk t).view.set ↔ ∀ a : Fin 2, win4_5.index t a * S5000x2.size a ≤ (i a).val ∧ (i a).val < win4_5.index t a * S5000x2.size a + S5000x2.size a := by
  show i ∈ ((View.whole main_v105).slice (win4_5.rect t)).set ↔ _
  rw [View.set_slice_whole, Rect.mem_set_unit]
  exact Iff.rfl

/-- Row r lies in the block of point r / 5000, so the ten blocks fill the array. -/
private theorem blocks_fill (i : S50000x2.Idx) :
    ∃ t : Fin cfg4.N, (cfg4.win 5).flush t = true ∧ i ∈ ((cfg4.win 5).blk t).view.set := by
  have h0 : (i 0).val < 50000 := idx2_lt0 i
  have h1 : (i 1).val < 2 := idx2_lt1 i
  have hN : cfg4.N = 10 := N_4
  refine ⟨⟨(i 0).val / 5000, by rw [hN]; omega⟩, flush4_5 _, ?_⟩
  rw [in_block]
  obtain ⟨-, -, -, -, -, ⟨e0, e1⟩⟩ := where_blocks ⟨(i 0).val / 5000, by rw [hN]; omega⟩
  intro a
  match a with
  | ⟨0, _⟩ =>
    show win4_5.index _ (0 : Fin 2) * 5000 ≤ (i 0).val ∧ (i 0).val < win4_5.index _ (0 : Fin 2) * 5000 + 5000
    rw [e0]; show (i 0).val / 5000 * 5000 ≤ (i 0).val ∧ (i 0).val < (i 0).val / 5000 * 5000 + 5000; omega
  | ⟨1, _⟩ =>
    show win4_5.index _ (1 : Fin 2) * 2 ≤ (i 1).val ∧ (i 1).val < win4_5.index _ (1 : Fin 2) * 2 + 2
    rw [e1]; omega

/-- After the last region its output array holds both heads of the arrays the region found. -/
theorem region4_arr (c : Dev nD) :
    ((dat4 (F := Ideal) V c).arrAt 5 cfg4.N : S50000x2.Idx → EReal)
      = arrOf (headK (D := 128) (cur (V c main_v88 : S50000x128.Idx → EReal)) (cur (V c main_v89 : S128x256.Idx → EReal))
          (fun k => (V c main_v103 : S1x256.Idx → EReal) (ix2 (0 : Fin 1) k)) (cur (V c main_v101 : S256x2.Idx → EReal))
          (fun k => (V c main_v104 : S1x2.Idx → EReal) (ix2 (0 : Fin 1) k))) :=
  (dat4 (F := Ideal) V c).arrAt_eq_of_cover 5 _ (fun t _ => block_written V c t) blocks_fill

end Cert.KernelIdeal.Val

end
-- ==== Proof.KHostCat.lean ====
/-
  The heads' operands as the kernel's program builds them, read at an index.

  The first layers of the two heads are laid side by side: columns 0 to 127 of the 128 by 256 matrix are the node
  head's matrix, columns 128 to 255 the origin head's; the bias row likewise.  The second layer is a 256 by 2 matrix
  of zeros into which the node head's column is written at rows 0 to 127 of column 0 and the origin head's column at
  rows 128 to 255 of column 1: it is block diagonal.  The second bias is the two scalars side by side.

  A concatenation of two pieces is read piece by piece: an index whose coordinate on the joined axis lies below the
  first extent reads the first piece at the same coordinates, one at or past it reads the second piece with the first
  extent taken off.  A reshape keeps the row-major position.

  A write of a vector into an array ("set" scatter: the body returns the update) is a left fold over the update
  indices; each step overwrites the one element its update lands at.  If no update lands at i the fold leaves the
  operand's element there; if exactly one update j lands at i the result there is update j, whatever the fold does
  before or after.  For the second layer the vector of 128 updates runs down one column from a start row: update k
  lands at (start row + k, start column), so the map from updates to landing places is injective, a place in the
  other column or outside the 128 rows is missed, and a place inside is hit by exactly one update.
-/
import proofs.«419781_j4337916969237_4_alg».proof.Proof.Gen.KernelIdeal
import proofs.«419781_j4337916969237_4_alg».proof.Proof.Spec
import Idealize.ShloMosaic.PureOps.Ideal.Laws
import Idealize.ShloMosaic.PureOps.ShapeOps
import Idealize.ShloMosaic.Lib.ValueLayout

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec
open Idealize.ShloMosaic.Pipeline (Dat)

/-! ## A left fold of overwriting steps, read at one place -/

section Fold
variable {ι κ α : Type} (g : ι → Option κ) (v : ι → α) (step : (κ → α) → ι → (κ → α))

/-- If no step of the list writes at i, the fold leaves the accumulator's value at i. -/
private theorem foldl_miss (hmiss : ∀ r n i, g n ≠ some i → step r n i = r i) (i : κ) :
    ∀ (l : List ι) (r : κ → α), (∀ n ∈ l, g n ≠ some i) → l.foldl step r i = r i := by
  intro l
  induction l with
  | nil => intro r _; rfl
  | cons n l ih =>
    intro r h
    rw [List.foldl_cons, ih (step r n) (fun m hm => h m (List.mem_cons_of_mem _ hm))]
    exact hmiss r n i (h n (List.mem_cons.2 (Or.inl rfl)))

/-- If n0 is in the list and is the only step that writes at i, the fold's value at i is what n0 writes: later steps
    miss i, and earlier ones are overwritten. -/
private theorem foldl_hit (hmiss : ∀ r n i, g n ≠ some i → step r n i = r i)
    (hhit : ∀ r n i, g n = some i → step r n i = v n) (i : κ) (n0 : ι) (h0 : g n0 = some i) :
    ∀ (l : List ι) (r : κ → α), n0 ∈ l → (∀ n ∈ l, g n = some i → n = n0) → l.foldl step r i = v n0 := by
  intro l
  induction l with
  | nil => intro r h; cases h
  | cons n l ih =>
    intro r hmem huniq
    rw [List.foldl_cons]
    by_cases hl : n0 ∈ l
    · exact ih _ hl (fun m hm => huniq m (List.mem_cons_of_mem _ hm))
    · have hn : n = n0 := by
        rcases List.mem_cons.1 hmem with h | h
        · exact h.symm
        · exact absurd h hl
      subst hn
      rw [foldl_miss g step hmiss i l _ (fun m hm hg => hl (huniq m (List.mem_cons_of_mem _ hm) hg ▸ hm))]
      exact hhit r n i h0

end Fold

/-! ## A scatter whose body returns the update -/

section Scatter
variable {s si u : Shape} {w : Nat} {α : Type} (d : ScatterDims s si u)

/-- Where no update lands, the operand's element stays. -/
private theorem scatter_set_miss (x : s.Idx → α) (idx : IVec si w) (upd : u.Idx → α) (i : s.Idx)
    (h : ∀ j, d.resultIdx? j idx ≠ some i) : Host.scatter d (fun _ b => b) x idx upd i = x i := by
  unfold Host.scatter
  refine foldl_miss (fun n => d.resultIdx? (u.rowMajor.symm n) idx) _ ?_ i _ x (fun n _ => h _)
  intro r n i0 hne
  dsimp only
  generalize d.resultIdx? (u.rowMajor.symm n) idx = o at hne ⊢
  cases o with
  | none => rfl
  | some i1 =>
    show (if i0 = i1 then _ else r i0) = r i0
    rw [if_neg]
    rintro rfl
    exact hne rfl

/-- Where exactly one update lands, the result is that update. -/
private theorem scatter_set_hit (x : s.Idx → α) (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  unfold Host.scatter
  have key := foldl_hit (fun n => d.resultIdx? (u.rowMajor.symm n) idx) (fun n => upd (u.rowMajor.symm n))
    (fun r n => match d.resultIdx? (u.rowMajor.symm n) idx with
      | some i => fun i' => if i' = i then (fun _ b => b) (r i) (upd (u.rowMajor.symm n)) else r i'
      | none => r) ?_ ?_ i (u.rowMajor j0) (by rw [Equiv.symm_apply_apply]; exact h0)
    (List.finRange u.numel) x (List.mem_finRange _)
    (fun n _ hn => by
      have := huniq _ hn
      rw [← this, Equiv.apply_symm_apply])
  · rw [Equiv.symm_apply_apply] at key
    exact key
  · intro r n i0 hne
    dsimp only
    generalize d.resultIdx? (u.rowMajor.symm n) idx = o at hne ⊢
    cases o with
    | none => rfl
    | some i1 =>
      show (if i0 = i1 then _ else r i0) = r i0
      rw [if_neg]
      rintro rfl
      exact hne rfl
  · intro r n i0 hi
    dsimp only
    rw [hi]
    show (if i0 = i0 then _ else r i0) = _
    rw [if_pos rfl]

end Scatter

/-! ## A vector written down one column of a matrix from a start place -/

/-- An axis is kept exactly when it is not among the removed ones. -/
private theorem mem_kept {s : Shape} (axes : List (Fin s.rank)) (a : Fin s.rank) : a ∈ s.kept axes ↔ a ∉ axes := by
  simp [Shape.kept, List.mem_filter, List.mem_finRange]

section Column
variable {N C U w : Nat} (d : ScatterDims ⟨2, ![N, C]⟩ ⟨1, ![2]⟩ ⟨1, ![U]⟩)

/-- The start row of every update is the first entry of the start vector, read signed. -/
private theorem col_start0 (hsd : d.scatterDimsToOperandDims = [0, 1]) (hivd : d.indexVectorDim = 0)
    (idx : IVec ⟨1, ![2]⟩ w) (j : (⟨1, ![U]⟩ : Shape).Idx) :
    d.start j idx 0 = (idx (ix1 (0 : Fin 2))).toInt := by
  obtain ⟨uw, iw, sd, ivd, wf⟩ := d
  simp only at hsd hivd
  subst hsd hivd
  unfold ScatterDims.start
  rw [dif_pos (show (0 : Fin 2) ∈ [0, 1] by decide)]
  congr 2
  funext b
  match b with
  | ⟨0, _⟩ => rfl

/-- The start column is the second entry. -/
private theorem col_start1 (hsd : d.scatterDimsToOperandDims = [0, 1]) (hivd : d.indexVectorDim = 0)
    (idx : IVec ⟨1, ![2]⟩ w) (j : (⟨1, ![U]⟩ : Shape).Idx) :
    d.start j idx 1 = (idx (ix1 (1 : Fin 2))).toInt := by
  obtain ⟨uw, iw, sd, ivd, wf⟩ := d
  simp only at hsd hivd
  subst hsd hivd
  unfold ScatterDims.start
  rw [dif_pos (show (1 : Fin 2) ∈ [0, 1] by decide)]
  congr 2
  funext b
  match b with
  | ⟨0, _⟩ => rfl

/-- Along the rows the update's own coordinate is added. -/
private theorem col_window0 (huw : d.updateWindowDims = [0]) (hiw : d.insertedWindowDims = [1])
    (j : (⟨1, ![U]⟩ : Shape).Idx) : d.window j 0 = (j 0).val := by
  obtain ⟨uw, iw, sd, ivd, wf⟩ := d
  simp only at huw hiw
  subst huw hiw
  unfold ScatterDims.window
  rw [dif_pos (by rw [ScatterDims.sKept, mem_kept]; exact (by decide : (0 : Fin 2) ∉ [1]))]
  rfl

/-- The column axis is inserted: nothing is added there. -/
private theorem col_window1 (hiw : d.insertedWindowDims = [1]) (j : (⟨1, ![U]⟩ : Shape).Idx) : d.window j 1 = 0 := by
  unfold ScatterDims.window
  rw [dif_neg (by rw [ScatterDims.sKept, mem_kept, hiw]; exact fun h => h (List.mem_singleton.mpr rfl))]

/-- Update k lands at (r, c) exactly when r is the start row plus k and c is the start column. -/
private theorem col_resultIdx (huw : d.updateWindowDims = [0]) (hiw : d.insertedWindowDims = [1])
    (hsd : d.scatterDimsToOperandDims = [0, 1]) (hivd : d.indexVectorDim = 0)
    (idx : IVec ⟨1, ![2]⟩ w) (p q : Nat)
    (hp : (idx (ix1 (0 : Fin 2))).toInt = (p : Int)) (hq : (idx (ix1 (1 : Fin 2))).toInt = (q : Int))
    (k : Fin U) (r : Fin N) (c : Fin C) :
    d.resultIdx? (ix1 k) idx = some (ix2 r c) ↔ p + k.val = r.val ∧ q = c.val := by
  have hs0 : d.start (ix1 k) idx 0 = (p : Int) := (col_start0 d hsd hivd idx _).trans hp
  have hs1 : d.start (ix1 k) idx 1 = (q : Int) := (col_start1 d hsd hivd idx _).trans hq
  have hw0 : d.window (ix1 k) 0 = k.val := col_window0 d huw hiw _
  have hw1 : d.window (ix1 k) 1 = 0 := col_window1 d hiw _
  have hr := r.isLt
  have hc := c.isLt
  unfold ScatterDims.resultIdx?
  split
  · next h =>
    rw [Option.some.injEq]
    constructor
    · intro hf
      have h0 : (d.start (ix1 k) idx 0 + (d.window (ix1 k) 0 : Int)).toNat = r.val :=
        congrArg (fun f : (⟨2, ![N, C]⟩ : Shape).Idx => (f 0).val) hf
      have h1 : (d.start (ix1 k) idx 1 + (d.window (ix1 k) 1 : Int)).toNat = c.val :=
        congrArg (fun f : (⟨2, ![N, C]⟩ : Shape).Idx => (f 1).val) hf
      rw [hs0, hw0] at h0
      rw [hs1, hw1] at h1
      exact ⟨by omega, by omega⟩
    · rintro ⟨hz, hz'⟩
      funext a
      match a with
      | ⟨0, _⟩ =>
        refine Fin.ext ?_
        show (d.start (ix1 k) idx 0 + (d.window (ix1 k) 0 : Int)).toNat = r.val
        rw [hs0, hw0]; omega
      | ⟨1, _⟩ =>
        refine Fin.ext ?_
        show (d.start (ix1 k) idx 1 + (d.window (ix1 k) 1 : Int)).toNat = c.val
        rw [hs1, hw1]; omega
  · next h =>
    constructor
    · intro hf; cases hf
    · rintro ⟨hz, hz'⟩
      refine absurd ?_ h
      intro a
      match a with
      | ⟨0, _⟩ =>
        show 0 ≤ d.start (ix1 k) idx 0 + (d.window (ix1 k) 0 : Int)
          ∧ d.start (ix1 k) idx 0 + (d.window (ix1 k) 0 : Int) < (N : Int)
        rw [hs0, hw0]; omega
      | ⟨1, _⟩ =>
        show 0 ≤ d.start (ix1 k) idx 1 + (d.window (ix1 k) 1 : Int)
          ∧ d.start (ix1 k) idx 1 + (d.window (ix1 k) 1 : Int) < (C : Int)
        rw [hs1, hw1]; omega

/-- A place in the start column, k rows below the start row, holds update k after the write. -/
private theorem col_scatter_hit {α : Type} (huw : d.updateWindowDims = [0]) (hiw : d.insertedWindowDims = [1])
    (hsd : d.scatterDimsToOperandDims = [0, 1]) (hivd : d.indexVectorDim = 0)
    (idx : IVec ⟨1, ![2]⟩ w) (p q : Nat)
    (hp : (idx (ix1 (0 : Fin 2))).toInt = (p : Int)) (hq : (idx (ix1 (1 : Fin 2))).toInt = (q : Int))
    (x : (⟨2, ![N, C]⟩ : Shape).Idx → α) (upd : (⟨1, ![U]⟩ : Shape).Idx → α)
    (k : Fin U) (r : Fin N) (c : Fin C) (hr : p + k.val = r.val) (hc : q = c.val) :
    Host.scatter d (fun _ b => b) x idx upd (ix2 r c) = upd (ix1 k) := by
  refine scatter_set_hit d x idx upd _ (ix1 k) ((col_resultIdx d huw hiw hsd hivd idx p q hp hq k r c).2 ⟨hr, hc⟩) ?_
  intro j hj
  obtain ⟨k', rfl⟩ : ∃ k' : Fin U, j = ix1 k' := ⟨j 0, eq_ix1 j⟩
  have h1 := ((col_resultIdx d huw hiw hsd hivd idx p q hp hq k' r c).1 hj).1
  have : k' = k := Fin.ext (by omega)
  rw [this]

/-- A place no update reaches keeps the operand's element. -/
private theorem col_scatter_miss {α : Type} (huw : d.updateWindowDims = [0]) (hiw : d.insertedWindowDims = [1])
    (hsd : d.scatterDimsToOperandDims = [0, 1]) (hivd : d.indexVectorDim = 0)
    (idx : IVec ⟨1, ![2]⟩ w) (p q : Nat)
    (hp : (idx (ix1 (0 : Fin 2))).toInt = (p : Int)) (hq : (idx (ix1 (1 : Fin 2))).toInt = (q : Int))
    (x : (⟨2, ![N, C]⟩ : Shape).Idx → α) (upd : (⟨1, ![U]⟩ : Shape).Idx → α)
    (r : Fin N) (c : Fin C) (hno : ∀ k : Fin U, ¬(p + k.val = r.val ∧ q = c.val)) :
    Host.scatter d (fun _ b => b) x idx upd (ix2 r c) = x (ix2 r c) := by
  refine scatter_set_miss d x idx upd _ ?_
  intro j hj
  obtain ⟨k', rfl⟩ : ∃ k' : Fin U, j = ix1 k' := ⟨j 0, eq_ix1 j⟩
  exact hno k' ((col_resultIdx d huw hiw hsd hivd idx p q hp hq k' r c).1 hj)

end Column

section IdxVec
/-- A two-entry integer vector built by joining two one-entry constants holds the first constant at 0 and the
    second at 1. -/
private theorem pair_vals (h : Shape.Concatenates [(⟨1, ![1]⟩ : Shape), ⟨1, ![1]⟩] ⟨1, ![2]⟩ 0)
    (hb : (⟨0, ![]⟩ : Shape).BroadcastsInDim ⟨1, ![1]⟩ (![] : Fin 0 → Fin 1)) (a b : BitVec 32) :
    (concatenate (⟨1, ![2]⟩ : Shape) 0 [⟨⟨1, ![1]⟩, broadcastInDim ⟨1, ![1]⟩ ![] hb (constantI ⟨0, ![]⟩ 32 a)⟩,
        ⟨⟨1, ![1]⟩, broadcastInDim ⟨1, ![1]⟩ ![] hb (constantI ⟨0, ![]⟩ 32 b)⟩] h) (ix1 (0 : Fin 2)) = a ∧
    (concatenate (⟨1, ![2]⟩ : Shape) 0 [⟨⟨1, ![1]⟩, broadcastInDim ⟨1, ![1]⟩ ![] hb (constantI ⟨0, ![]⟩ 32 a)⟩,
        ⟨⟨1, ![1]⟩, broadcastInDim ⟨1, ![1]⟩ ![] hb (constantI ⟨0, ![]⟩ 32 b)⟩] h) (ix1 (1 : Fin 2)) = b := by
  constructor
  · exact concatenate_pair_apply_left (t := ⟨1, ![2]⟩) (s₁ := ⟨1, ![1]⟩) (s₂ := ⟨1, ![1]⟩) (0 : Fin 1) _ _ h (ix1 (0 : Fin 2)) rfl (ix1 (0 : Fin 1))
      (fun c => match c with | ⟨0, _⟩ => rfl)
  · exact concatenate_pair_apply_right (t := ⟨1, ![2]⟩) (s₁ := ⟨1, ![1]⟩) (s₂ := ⟨1, ![1]⟩) (0 : Fin 1) _ _ h (ix1 (1 : Fin 2)) rfl rfl (ix1 (0 : Fin 1))
      (fun c hc => match c, hc with | ⟨0, _⟩, hc => absurd rfl hc) rfl
end IdxVec

/-- The same two entries read as signed integers. -/
private theorem pair_toInt (h : Shape.Concatenates [(⟨1, ![1]⟩ : Shape), ⟨1, ![1]⟩] ⟨1, ![2]⟩ 0)
    (hb : (⟨0, ![]⟩ : Shape).BroadcastsInDim ⟨1, ![1]⟩ (![] : Fin 0 → Fin 1)) (a b : BitVec 32) (p q : Nat)
    (ha : a.toInt = (p : Int)) (hq : b.toInt = (q : Int)) :
    ((concatenate (⟨1, ![2]⟩ : Shape) 0 [⟨⟨1, ![1]⟩, broadcastInDim ⟨1, ![1]⟩ ![] hb (constantI ⟨0, ![]⟩ 32 a)⟩,
        ⟨⟨1, ![1]⟩, broadcastInDim ⟨1, ![1]⟩ ![] hb (constantI ⟨0, ![]⟩ 32 b)⟩] h) (ix1 (0 : Fin 2))).toInt = (p : Int) ∧
    ((concatenate (⟨1, ![2]⟩ : Shape) 0 [⟨⟨1, ![1]⟩, broadcastInDim ⟨1, ![1]⟩ ![] hb (constantI ⟨0, ![]⟩ 32 a)⟩,
        ⟨⟨1, ![1]⟩, broadcastInDim ⟨1, ![1]⟩ ![] hb (constantI ⟨0, ![]⟩ 32 b)⟩] h) (ix1 (1 : Fin 2))).toInt = (q : Int) := by
  rw [(pair_vals h hb a b).1, (pair_vals h hb a b).2]
  exact ⟨ha, hq⟩

/-! ## The operands of the heads -/

/-- The two first-layer matrices side by side: the left half. -/
theorem cat1_left (a b : S128x128.Idx → EReal) (j k : Fin 128) :
    concatenate (α := EReal) S128x256 1 [⟨S128x128, a⟩, ⟨S128x128, b⟩] concatenates_S128x128_S128x128_S128x256_d1
      (ix2 j (Fin.castAdd 128 k)) = a (ix2 j k) :=
  concatenate_pair_apply_left (t := S128x256) (s₁ := S128x128) (s₂ := S128x128) (1 : Fin 2) a b _ _ rfl (ix2 j k)
    (fun c => match c with | ⟨0, _⟩ => rfl | ⟨1, _⟩ => rfl)
/-- The two first-layer matrices side by side: the right half. -/
theorem cat1_right (a b : S128x128.Idx → EReal) (j k : Fin 128) :
    concatenate (α := EReal) S128x256 1 [⟨S128x128, a⟩, ⟨S128x128, b⟩] concatenates_S128x128_S128x128_S128x256_d1
      (ix2 j (Fin.natAdd 128 k)) = b (ix2 j k) :=
  concatenate_pair_apply_right (t := S128x256) (s₁ := S128x128) (s₂ := S128x128) (1 : Fin 2) a b _ _ rfl rfl (ix2 j k)
    (fun c hc => match c, hc with | ⟨0, _⟩, _ => rfl | ⟨1, _⟩, hc => absurd rfl hc)
    (by show k.val + 128 = 128 + k.val; omega)

/-- The two first-layer biases side by side as a 1 by 256 row: the left half. -/
theorem brow_left (a b : S128.Idx → EReal) (k : Fin 128) :
    shapeCast S1x256 (concatenate (α := EReal) S256 0 [⟨S128, a⟩, ⟨S128, b⟩] concatenates_S128_S128_S256_d0) shapeCasts_S256_S1x256
      (ix2 (0 : Fin 1) (Fin.castAdd 128 k)) = a (ix1 k) := by
  refine (shapeCast_a_1a_apply (a := 256) _ _ (0 : Fin 1) (Fin.castAdd 128 k)).trans ?_
  exact concatenate_pair_apply_left (t := S256) (s₁ := S128) (s₂ := S128) (0 : Fin 1) a b _ _ rfl (ix1 k)
    (fun c => match c with | ⟨0, _⟩ => rfl)
/-- The right half. -/
theorem brow_right (a b : S128.Idx → EReal) (k : Fin 128) :
    shapeCast S1x256 (concatenate (α := EReal) S256 0 [⟨S128, a⟩, ⟨S128, b⟩] concatenates_S128_S128_S256_d0) shapeCasts_S256_S1x256
      (ix2 (0 : Fin 1) (Fin.natAdd 128 k)) = b (ix1 k) := by
  refine (shapeCast_a_1a_apply (a := 256) _ _ (0 : Fin 1) (Fin.natAdd 128 k)).trans ?_
  exact concatenate_pair_apply_right (t := S256) (s₁ := S128) (s₂ := S128) (0 : Fin 1) a b _ _ rfl rfl (ix1 k)
    (fun c hc => match c, hc with | ⟨0, _⟩, hc => absurd rfl hc)
    (by show k.val + 128 = 128 + k.val; omega)

/-- The block-diagonal second layer: zeros, then u0 written down column 0 from row 0, then u1 down column 1 from row 128. -/
def w2blk (u0 u1 : S128.Idx → EReal) : S256x2.Idx → EReal :=
  Host.scatter scatter_S256x2_S2_S128_0_1_01_0 (fun _ b => b)
    (Host.scatter scatter_S256x2_S2_S128_0_1_01_0 (fun _ b => b)
      (broadcastInDim S256x2 ![] bcast_S_S256x2 (constant (F := Ideal) S_ .f32 0x00000000#32))
      (concatenate S2 0 [⟨S1, broadcastInDim S1 ![] bcast_S_S1 (constantI S_ 32 0#32)⟩,
        ⟨S1, broadcastInDim S1 ![] bcast_S_S1 (constantI S_ 32 0#32)⟩] concatenates_S1_S1_S2_d0) u0)
    (concatenate S2 0 [⟨S1, broadcastInDim S1 ![] bcast_S_S1 (constantI S_ 32 128#32)⟩,
      ⟨S1, broadcastInDim S1 ![] bcast_S_S1 (constantI S_ 32 1#32)⟩] concatenates_S1_S1_S2_d0) u1

/-- The first write starts at row 0 of column 0. -/
private theorem start_first :
    ((concatenate S2 0 [⟨S1, broadcastInDim S1 ![] bcast_S_S1 (constantI S_ 32 0#32)⟩,
        ⟨S1, broadcastInDim S1 ![] bcast_S_S1 (constantI S_ 32 0#32)⟩] concatenates_S1_S1_S2_d0) (ix1 (0 : Fin 2))).toInt
      = ((0 : Nat) : Int) ∧
    ((concatenate S2 0 [⟨S1, broadcastInDim S1 ![] bcast_S_S1 (constantI S_ 32 0#32)⟩,
        ⟨S1, broadcastInDim S1 ![] bcast_S_S1 (constantI S_ 32 0#32)⟩] concatenates_S1_S1_S2_d0) (ix1 (1 : Fin 2))).toInt
      = ((0 : Nat) : Int) :=
  pair_toInt concatenates_S1_S1_S2_d0 bcast_S_S1 0#32 0#32 0 0 (by decide) (by decide)
/-- The second write starts at row 128 of column 1. -/
private theorem start_second :
    ((concatenate S2 0 [⟨S1, broadcastInDim S1 ![] bcast_S_S1 (constantI S_ 32 128#32)⟩,
        ⟨S1, broadcastInDim S1 ![] bcast_S_S1 (constantI S_ 32 1#32)⟩] concatenates_S1_S1_S2_d0) (ix1 (0 : Fin 2))).toInt
      = ((128 : Nat) : Int) ∧
    ((concatenate S2 0 [⟨S1, broadcastInDim S1 ![] bcast_S_S1 (constantI S_ 32 128#32)⟩,
        ⟨S1, broadcastInDim S1 ![] bcast_S_S1 (constantI S_ 32 1#32)⟩] concatenates_S1_S1_S2_d0) (ix1 (1 : Fin 2))).toInt
      = ((1 : Nat) : Int) :=
  pair_toInt concatenates_S1_S1_S2_d0 bcast_S_S1 128#32 1#32 128 1 (by decide) (by decide)

theorem w2blk_a0 (u0 u1 : S128.Idx → EReal) (k : Fin 128) :
    w2blk u0 u1 (ix2 (Fin.castAdd 128 k) (0 : Fin 2)) = u0 (ix1 k) := by
  unfold w2blk
  -- the second write goes down column 1 and misses column 0; the first puts u0 k at row k
  refine (col_scatter_miss scatter_S256x2_S2_S128_0_1_01_0 rfl rfl rfl rfl _ 128 1 start_second.1 start_second.2
    _ u1 (Fin.castAdd 128 k) (0 : Fin 2) (fun k' h => absurd h.2 (by decide))).trans ?_
  exact col_scatter_hit scatter_S256x2_S2_S128_0_1_01_0 rfl rfl rfl rfl _ 0 0 start_first.1 start_first.2
    _ u0 k (Fin.castAdd 128 k) (0 : Fin 2) (Nat.zero_add k.val) rfl
theorem w2blk_b0 (u0 u1 : S128.Idx → EReal) (k : Fin 128) :
    w2blk u0 u1 (ix2 (Fin.natAdd 128 k) (0 : Fin 2)) = 0 := by
  unfold w2blk
  -- column 0 below row 127: the second write is in column 1, the first stops at row 127; the zero stays
  refine (col_scatter_miss scatter_S256x2_S2_S128_0_1_01_0 rfl rfl rfl rfl _ 128 1 start_second.1 start_second.2
    _ u1 (Fin.natAdd 128 k) (0 : Fin 2) (fun k' h => absurd h.2 (by decide))).trans ?_
  refine (col_scatter_miss scatter_S256x2_S2_S128_0_1_01_0 rfl rfl rfl rfl _ 0 0 start_first.1 start_first.2
    _ u0 (Fin.natAdd 128 k) (0 : Fin 2) (fun k' h => ?_)).trans ?_
  · have h1 : 0 + k'.val = 128 + k.val := h.1
    have := k'.isLt
    omega
  · show Ideal.ofBits .f32 0x00000000#32 = 0
    exact Ideal.ofBits_zero_f32
theorem w2blk_a1 (u0 u1 : S128.Idx → EReal) (k : Fin 128) :
    w2blk u0 u1 (ix2 (Fin.castAdd 128 k) (1 : Fin 2)) = 0 := by
  unfold w2blk
  -- column 1 above row 128: the second write starts at row 128, the first is in column 0; the zero stays
  refine (col_scatter_miss scatter_S256x2_S2_S128_0_1_01_0 rfl rfl rfl rfl _ 128 1 start_second.1 start_second.2
    _ u1 (Fin.castAdd 128 k) (1 : Fin 2) (fun k' h => ?_)).trans ?_
  · have h1 : 128 + k'.val = k.val := h.1
    have := k.isLt
    omega
  refine (col_scatter_miss scatter_S256x2_S2_S128_0_1_01_0 rfl rfl rfl rfl _ 0 0 start_first.1 start_first.2
    _ u0 (Fin.castAdd 128 k) (1 : Fin 2) (fun k' h => absurd h.2 (by decide))).trans ?_
  show Ideal.ofBits .f32 0x00000000#32 = 0
  exact Ideal.ofBits_zero_f32
theorem w2blk_b1 (u0 u1 : S128.Idx → EReal) (k : Fin 128) :
    w2blk u0 u1 (ix2 (Fin.natAdd 128 k) (1 : Fin 2)) = u1 (ix1 k) := by
  unfold w2blk
  -- the second write puts u1 k at row 128 + k of column 1
  exact col_scatter_hit scatter_S256x2_S2_S128_0_1_01_0 rfl rfl rfl rfl _ 128 1 start_second.1 start_second.2
    _ u1 k (Fin.natAdd 128 k) (1 : Fin 2) rfl rfl

/-- A 128 by 1 column read as a vector. -/
theorem col_of (x : S128x1.Idx → EReal) (k : Fin 128) :
    shapeCast S128 x shapeCasts_S128x1_S128 (ix1 k) = x (ix2 k (0 : Fin 1)) :=
  shapeCast_apply x shapeCasts_S128x1_S128 (ix1 k) (ix2 k (0 : Fin 1)) (by
    rw [Shape.rowMajor_val_two, Shape.rowMajor_val_one]
    show k.val * 1 + 0 = k.val
    omega)

/-- The two second-layer biases side by side as a 1 by 2 row. -/
theorem b2row_0 (a b : S1.Idx → EReal) :
    shapeCast S1x2 (concatenate (α := EReal) S2 0 [⟨S1, a⟩, ⟨S1, b⟩] concatenates_S1_S1_S2_d0) shapeCasts_S2_S1x2
      (ix2 (0 : Fin 1) (0 : Fin 2)) = a (ix1 (0 : Fin 1)) := by
  refine (shapeCast_a_1a_apply (a := 2) _ _ (0 : Fin 1) (0 : Fin 2)).trans ?_
  exact concatenate_pair_apply_left (t := S2) (s₁ := S1) (s₂ := S1) (0 : Fin 1) a b _ _ rfl (ix1 (0 : Fin 1))
    (fun c => match c with | ⟨0, _⟩ => rfl)
theorem b2row_1 (a b : S1.Idx → EReal) :
    shapeCast S1x2 (concatenate (α := EReal) S2 0 [⟨S1, a⟩, ⟨S1, b⟩] concatenates_S1_S1_S2_d0) shapeCasts_S2_S1x2
      (ix2 (0 : Fin 1) (1 : Fin 2)) = b (ix1 (0 : Fin 1)) := by
  refine (shapeCast_a_1a_apply (a := 2) _ _ (0 : Fin 1) (1 : Fin 2)).trans ?_
  exact concatenate_pair_apply_right (t := S2) (s₁ := S1) (s₂ := S1) (0 : Fin 1) a b _ _ rfl rfl (ix1 (0 : Fin 1))
    (fun c hc => match c, hc with | ⟨0, _⟩, hc => absurd rfl hc) rfl

end Cert.KernelIdeal.Val

end
-- ==== Proof.KHeads.lean ====
/-
  The kernel program's two heads and its constant result, from the features the last layer leaves.

  After the third layer the program lays the two heads' first layers side by side, their second layers block
  diagonally, and runs one kernel over the features; the last stretch splits the two-column result into two vectors.
  Column 0 is the node head and column 1 the origin head, because each column of the block-diagonal product meets
  the other head's hidden layer only through zeros.
-/
import proofs.«419781_j4337916969237_4_alg».proof.Proof.Gen.KernelIdeal.Frame
import proofs.«419781_j4337916969237_4_alg».proof.Proof.Net
import proofs.«419781_j4337916969237_4_alg».proof.Proof.KRegion4
import proofs.«419781_j4337916969237_4_alg».proof.Proof.KHost
import proofs.«419781_j4337916969237_4_alg».proof.Proof.KHostCat

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Spec
open Idealize.ShloMosaic.Pipeline (Dat)

/-! ## The two heads over operands laid out as the program lays them -/

/-- Both heads over features h: the first layers a6, a10 side by side, their biases a7, a11 joined and laid as a row,
    the second-layer columns a8, a12 written block-diagonally into a 256 by 2 matrix of zeros, the second biases a9, a13
    joined and laid as a row. -/
private def laid (h : Fin 50000 → Fin 128 → EReal) (a6 a10 : S128x128.Idx → EReal) (a7 a11 : S128.Idx → EReal)
    (a8 a12 : S128x1.Idx → EReal) (a9 a13 : S1.Idx → EReal) : Fin 50000 → Fin 2 → EReal :=
  headK (D := 128) h
    (cur (concatenate (α := EReal) S128x256 1 [⟨S128x128, a6⟩, ⟨S128x128, a10⟩] concatenates_S128x128_S128x128_S128x256_d1))
    (fun k => shapeCast S1x256 (concatenate (α := EReal) S256 0 [⟨S128, a7⟩, ⟨S128, a11⟩] concatenates_S128_S128_S256_d0)
      shapeCasts_S256_S1x256 (ix2 (0 : Fin 1) k))
    (cur (w2blk (shapeCast S128 a8 shapeCasts_S128x1_S128) (shapeCast S128 a12 shapeCasts_S128x1_S128)))
    (fun k => shapeCast S1x2 (concatenate (α := EReal) S2 0 [⟨S1, a9⟩, ⟨S1, a13⟩] concatenates_S1_S1_S2_d0)
      shapeCasts_S2_S1x2 (ix2 (0 : Fin 1) k))

/-- Column 0 of the laid-out heads is the head of a6, a7, a8, a9 and column 1 the head of a10, a11, a12, a13: the left
    halves of the joined operands are the first head's, the right halves the second's, and the block-diagonal second
    layer is zero off its two blocks. -/
private theorem laid_cols (h : Fin 50000 → Fin 128 → EReal) (a6 a10 : S128x128.Idx → EReal) (a7 a11 : S128.Idx → EReal)
    (a8 a12 : S128x1.Idx → EReal) (a9 a13 : S1.Idx → EReal) (n : Fin 50000) :
    laid h a6 a10 a7 a11 a8 a12 a9 a13 n 0 = Cert.Net.head h a6 a7 a8 a9 n
    ∧ laid h a6 a10 a7 a11 a8 a12 a9 a13 n 1 = Cert.Net.head h a10 a11 a12 a13 n := by
  unfold laid Cert.Net.head
  exact headK_eq (D := 128) h _ _ _ _ (cur a6) (cur a10) (fun k => a7 (ix1 k)) (fun k => a11 (ix1 k))
    (fun k => a8 (ix2 k (0 : Fin 1))) (fun k => a12 (ix2 k (0 : Fin 1))) (a9 (ix1 (0 : Fin 1))) (a13 (ix1 (0 : Fin 1)))
    (fun j k => cat1_left a6 a10 j k) (fun j k => cat1_right a6 a10 j k)
    (fun k => brow_left a7 a11 k) (fun k => brow_right a7 a11 k)
    (fun k => (w2blk_a0 _ _ k).trans (col_of a8 k)) (fun k => w2blk_b0 _ _ k)
    (fun k => w2blk_a1 _ _ k) (fun k => (w2blk_b1 _ _ k).trans (col_of a12 k))
    (b2row_0 a9 a13) (b2row_1 a9 a13) n

variable (m : (ℓ : Loc nD τ sig) → Buf (Elt Ideal) ℓ) (ρ : Dev nD → PrngReg)

/-! ## The arguments and the features at the last region's entry -/

/-- A buffer that no operation of the named stretch writes holds after the stretch what it held before. -/
local macro "stretch_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! The heads' parameters are arguments of the program.  Nothing after the third layer writes an argument, and an
    argument ends the run as launched, so it holds its launch contents at the third layer's exit. -/

private theorem arg6_kept (c : Dev nD) : W10 m ρ c (Proc.devRef .tc main_arg6) = m ((c : Thread nD τ).loc main_arg6) :=
  calc W10 m ρ c (Proc.devRef .tc main_arg6)
    _ = W11 m ρ c (Proc.devRef .tc main_arg6) := Eq.symm (by stretch_keeps hostOps4)
    _ = W12 m ρ c (Proc.devRef .tc main_arg6) := (W12_of_ne m ρ c main_arg6 (by decide)).symm
    _ = W13 m ρ c (Proc.devRef .tc main_arg6) := Eq.symm (by stretch_keeps hostOps5)
    _ = m ((c : Thread nD τ).loc main_arg6) := W13_main_arg6 m ρ c

private theorem arg7_kept (c : Dev nD) : W10 m ρ c (Proc.devRef .tc main_arg7) = m ((c : Thread nD τ).loc main_arg7) :=
  calc W10 m ρ c (Proc.devRef .tc main_arg7)
    _ = W11 m ρ c (Proc.devRef .tc main_arg7) := Eq.symm (by stretch_keeps hostOps4)
    _ = W12 m ρ c (Proc.devRef .tc main_arg7) := (W12_of_ne m ρ c main_arg7 (by decide)).symm
    _ = W13 m ρ c (Proc.devRef .tc main_arg7) := Eq.symm (by stretch_keeps hostOps5)
    _ = m ((c : Thread nD τ).loc main_arg7) := W13_main_arg7 m ρ c

private theorem arg8_kept (c : Dev nD) : W10 m ρ c (Proc.devRef .tc main_arg8) = m ((c : Thread nD τ).loc main_arg8) :=
  calc W10 m ρ c (Proc.devRef .tc main_arg8)
    _ = W11 m ρ c (Proc.devRef .tc main_arg8) := Eq.symm (by stretch_keeps hostOps4)
    _ = W12 m ρ c (Proc.devRef .tc main_arg8) := (W12_of_ne m ρ c main_arg8 (by decide)).symm
    _ = W13 m ρ c (Proc.devRef .tc main_arg8) := Eq.symm (by stretch_keeps hostOps5)
    _ = m ((c : Thread nD τ).loc main_arg8) := W13_main_arg8 m ρ c

private theorem arg9_kept (c : Dev nD) : W10 m ρ c (Proc.devRef .tc main_arg9) = m ((c : Thread nD τ).loc main_arg9) :=
  calc W10 m ρ c (Proc.devRef .tc main_arg9)
    _ = W11 m ρ c (Proc.devRef .tc main_arg9) := Eq.symm (by stretch_keeps hostOps4)
    _ = W12 m ρ c (Proc.devRef .tc main_arg9) := (W12_of_ne m ρ c main_arg9 (by decide)).symm
    _ = W13 m ρ c (Proc.devRef .tc main_arg9) := Eq.symm (by stretch_keeps hostOps5)
    _ = m ((c : Thread nD τ).loc main_arg9) := W13_main_arg9 m ρ c

private theorem arg10_kept (c : Dev nD) : W10 m ρ c (Proc.devRef .tc main_arg10) = m ((c : Thread nD τ).loc main_arg10) :=
  calc W10 m ρ c (Proc.devRef .tc main_arg10)
    _ = W11 m ρ c (Proc.devRef .tc main_arg10) := Eq.symm (by stretch_keeps hostOps4)
    _ = W12 m ρ c (Proc.devRef .tc main_arg10) := (W12_of_ne m ρ c main_arg10 (by decide)).symm
    _ = W13 m ρ c (Proc.devRef .tc main_arg10) := Eq.symm (by stretch_keeps hostOps5)
    _ = m ((c : Thread nD τ).loc main_arg10) := W13_main_arg10 m ρ c

private theorem arg11_kept (c : Dev nD) : W10 m ρ c (Proc.devRef .tc main_arg11) = m ((c : Thread nD τ).loc main_arg11) :=
  calc W10 m ρ c (Proc.devRef .tc main_arg11)
    _ = W11 m ρ c (Proc.devRef .tc main_arg11) := Eq.symm (by stretch_keeps hostOps4)
    _ = W12 m ρ c (Proc.devRef .tc main_arg11) := (W12_of_ne m ρ c main_arg11 (by decide)).symm
    _ = W13 m ρ c (Proc.devRef .tc main_arg11) := Eq.symm (by stretch_keeps hostOps5)
    _ = m ((c : Thread nD τ).loc main_arg11) := W13_main_arg11 m ρ c

private theorem arg12_kept (c : Dev nD) : W10 m ρ c (Proc.devRef .tc main_arg12) = m ((c : Thread nD τ).loc main_arg12) :=
  calc W10 m ρ c (Proc.devRef .tc main_arg12)
    _ = W11 m ρ c (Proc.devRef .tc main_arg12) := Eq.symm (by stretch_keeps hostOps4)
    _ = W12 m ρ c (Proc.devRef .tc main_arg12) := (W12_of_ne m ρ c main_arg12 (by decide)).symm
    _ = W13 m ρ c (Proc.devRef .tc main_arg12) := Eq.symm (by stretch_keeps hostOps5)
    _ = m ((c : Thread nD τ).loc main_arg12) := W13_main_arg12 m ρ c

private theorem arg13_kept (c : Dev nD) : W10 m ρ c (Proc.devRef .tc main_arg13) = m ((c : Thread nD τ).loc main_arg13) :=
  calc W10 m ρ c (Proc.devRef .tc main_arg13)
    _ = W11 m ρ c (Proc.devRef .tc main_arg13) := Eq.symm (by stretch_keeps hostOps4)
    _ = W12 m ρ c (Proc.devRef .tc main_arg13) := (W12_of_ne m ρ c main_arg13 (by decide)).symm
    _ = W13 m ρ c (Proc.devRef .tc main_arg13) := Eq.symm (by stretch_keeps hostOps5)
    _ = m ((c : Thread nD τ).loc main_arg13) := W13_main_arg13 m ρ c

/-- The last stretch before the heads' kernel does not touch the features. -/
private theorem feat_entry (c : Dev nD) : V11 m ρ c main_v88 = W10 m ρ c (Proc.devRef .tc main_v88) := by
  show StableHlo.after hostOps4 (W10 m ρ c) (Proc.devRef .tc main_v88) = _
  stretch_keeps hostOps4

/-- The first layers side by side, at the kernel's entry. -/
private theorem w1_entry (c : Dev nD) :
    (V11 m ρ c main_v89 : S128x256.Idx → EReal)
      = concatenate (α := EReal) S128x256 1 [⟨S128x128, W10 m ρ c (Proc.devRef .tc main_arg6)⟩,
          ⟨S128x128, W10 m ρ c (Proc.devRef .tc main_arg10)⟩] concatenates_S128x128_S128x128_S128x256_d1 := by
  show StableHlo.after hostOps4 (W10 m ρ c) (Proc.devRef .tc main_v89) = _
  after_results

/-- The first biases joined and laid as a row, at the kernel's entry. -/
private theorem b1_entry (c : Dev nD) :
    (V11 m ρ c main_v103 : S1x256.Idx → EReal)
      = shapeCast S1x256 (concatenate (α := EReal) S256 0 [⟨S128, W10 m ρ c (Proc.devRef .tc main_arg7)⟩,
          ⟨S128, W10 m ρ c (Proc.devRef .tc main_arg11)⟩] concatenates_S128_S128_S256_d0) shapeCasts_S256_S1x256 := by
  show StableHlo.after hostOps4 (W10 m ρ c) (Proc.devRef .tc main_v103) = _
  after_results
  rfl

/-- The second biases joined and laid as a row, at the kernel's entry. -/
private theorem b2_entry (c : Dev nD) :
    (V11 m ρ c main_v104 : S1x2.Idx → EReal)
      = shapeCast S1x2 (concatenate (α := EReal) S2 0 [⟨S1, W10 m ρ c (Proc.devRef .tc main_arg9)⟩,
          ⟨S1, W10 m ρ c (Proc.devRef .tc main_arg13)⟩] concatenates_S1_S1_S2_d0) shapeCasts_S2_S1x2 := by
  show StableHlo.after hostOps4 (W10 m ρ c) (Proc.devRef .tc main_v104) = _
  after_results
  rfl

set_option maxHeartbeats 4000000 in
/-- The block-diagonal second layer, at the kernel's entry: the two columns, each read as a vector, written into
    zeros one after the other. -/
private theorem w2_entry (c : Dev nD) :
    (V11 m ρ c main_v101 : S256x2.Idx → EReal)
      = w2blk (shapeCast S128 (W10 m ρ c (Proc.devRef .tc main_arg8) : S128x1.Idx → EReal) shapeCasts_S128x1_S128)
          (shapeCast S128 (W10 m ρ c (Proc.devRef .tc main_arg12) : S128x1.Idx → EReal) shapeCasts_S128x1_S128) := by
  show StableHlo.after hostOps4 (W10 m ρ c) (Proc.devRef .tc main_v101) = _
  after_results
  rfl

/-! ## The kernel's output and its two columns -/

/-- The last region leaves both heads, in the laid-out form, of the features it finds. -/
private theorem heads_arr (c : Dev nD) (h : Fin 50000 → Fin 128 → EReal)
    (hfeat : (W10 m ρ c (Proc.devRef .tc main_v88) : S50000x128.Idx → EReal) = arrOf h) :
    (W12 m ρ c (Proc.devRef .tc main_v105) : S50000x2.Idx → EReal)
      = arrOf (laid h (m ((c : Thread nD τ).loc main_arg6)) (m ((c : Thread nD τ).loc main_arg10)) (m ((c : Thread nD τ).loc main_arg7)) (m ((c : Thread nD τ).loc main_arg11))
          (m ((c : Thread nD τ).loc main_arg8)) (m ((c : Thread nD τ).loc main_arg12)) (m ((c : Thread nD τ).loc main_arg9)) (m ((c : Thread nD τ).loc main_arg13))) := by
  refine ((W12_arr m ρ c 5).trans (region4_arr (V11 m ρ) c)).trans ?_
  rw [feat_entry m ρ c, hfeat, cur_arrOf, w1_entry m ρ c, b1_entry m ρ c, w2_entry m ρ c, b2_entry m ρ c,
    arg6_kept m ρ c, arg7_kept m ρ c, arg8_kept m ρ c, arg9_kept m ρ c, arg10_kept m ρ c, arg11_kept m ρ c,
    arg12_kept m ρ c, arg13_kept m ρ c]
  rfl

/-- The third result is column 0 of the kernel's output, as a vector. -/
private theorem node_col (c : Dev nD) :
    (W13 m ρ c (Proc.devRef .tc main_v107) : S50000.Idx → EReal)
      = shapeCast S50000 (extractStridedSlice S50000x1 ![0, 0] (W12 m ρ c (Proc.devRef .tc main_v105) : S50000x2.Idx → EReal)
          slices_S50000x2_S50000x1_0_0) shapeCasts_S50000x1_S50000 := by
  show StableHlo.after hostOps5 (W12 m ρ c) (Proc.devRef .tc main_v107) = _
  after_results
  rfl

/-- The second result is column 1 of the kernel's output, as a vector. -/
private theorem origin_col (c : Dev nD) :
    (W13 m ρ c (Proc.devRef .tc main_v109) : S50000.Idx → EReal)
      = shapeCast S50000 (extractStridedSlice S50000x1 ![0, 1] (W12 m ρ c (Proc.devRef .tc main_v105) : S50000x2.Idx → EReal)
          slices_S50000x2_S50000x1_0_1) shapeCasts_S50000x1_S50000 := by
  show StableHlo.after hostOps5 (W12 m ρ c) (Proc.devRef .tc main_v109) = _
  after_results
  rfl

/-- The node head, given the features at the third layer's exit. -/
theorem out_node (c : Dev nD) (hfeat : (W10 m ρ c (Proc.devRef .tc main_v88) : S50000x128.Idx → EReal) = arrOf (Cert.Net.hK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) :
    (W13 m ρ c (Proc.devRef .tc main_v107) : S50000.Idx → EReal)
      = Cert.Net.vecOf (Cert.Net.head (Cert.Net.hK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
          (m ((c : Thread nD τ).loc main_arg6)) (m ((c : Thread nD τ).loc main_arg7)) (m ((c : Thread nD τ).loc main_arg8)) (m ((c : Thread nD τ).loc main_arg9))) := by
  refine (node_col m ρ c).trans ?_
  rw [heads_arr m ρ c _ hfeat]
  funext i
  obtain ⟨n, rfl⟩ : ∃ n : Fin 50000, i = ix1 n := ⟨i 0, eq_ix1 i⟩
  refine (col0 _ n).trans ?_
  exact (laid_cols _ _ _ _ _ _ _ _ _ n).1

/-- The origin head, given the features at the third layer's exit. -/
theorem out_origin (c : Dev nD) (hfeat : (W10 m ρ c (Proc.devRef .tc main_v88) : S50000x128.Idx → EReal) = arrOf (Cert.Net.hK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) :
    (W13 m ρ c (Proc.devRef .tc main_v109) : S50000.Idx → EReal)
      = Cert.Net.vecOf (Cert.Net.head (Cert.Net.hK3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
          (m ((c : Thread nD τ).loc main_arg10)) (m ((c : Thread nD τ).loc main_arg11)) (m ((c : Thread nD τ).loc main_arg12)) (m ((c : Thread nD τ).loc main_arg13))) := by
  refine (origin_col m ρ c).trans ?_
  rw [heads_arr m ρ c _ hfeat]
  funext i
  obtain ⟨n, rfl⟩ : ∃ n : Fin 50000, i = ix1 n := ⟨i 0, eq_ix1 i⟩
  refine (col1 _ n).trans ?_
  exact (laid_cols _ _ _ _ _ _ _ _ _ n).2

/-- The fourth result is a constant array of zeros. -/
theorem out_err (c : Dev nD) :
    (W13 m ρ c (Proc.devRef .tc main_v110) : S50000x4.Idx → EReal)
      = broadcastInDim S50000x4 ![] bcast_S_S50000x4 (constant (F := Ideal) S_ .f32 0x00000000#32) := by
  show StableHlo.after hostOps5 (W12 m ρ c) (Proc.devRef .tc main_v110) = _
  after_results

end Cert.KernelIdeal.Val

end
-- ==== Proof.RefValue.lean ====
/-
  The reference program's results as functions of its arguments.

  The reference's stages are read one at a time.  A layer multiplies the features by the layer's matrix, gathers the
  source row of every edge, scales it by the edge's weight, segment-sums over the edges' targets, adds the features
  and the bias and takes the positive part: the product-first layer.  A head is a hidden layer with the positive
  part, a product with one column, a bias and the logistic function written as 1 / (1 + exp (-z)).
-/
import proofs.«419781_j4337916969237_4_alg».proof.Proof.Net
import proofs.«419781_j4337916969237_4_alg».proof.Proof.LibRows

noncomputable section

open scoped BigOperators

namespace Cert.ReferenceIdeal.RefValue

open Idealize.ShloMosaic Idealize.ShloMosaic.ValueIdx Cert.ReferenceIdeal Cert.ReferenceIdeal.ReadP Cert.Spec Cert.Net

/-! ## Matrix products read at an index -/

/-- A product of a 50000 by 128 array with a 128 by 128 matrix, at row n and column j: the sum over k of the row's
    entries times the matrix's column. -/
theorem dot_rows (h : FVec Ideal S50000x128 .f32) (W : FVec Ideal S128x128 .f32) (n : Fin 50000) (j : Fin 128) :
    Host.dotGeneral dot_S50000x128_S128x128_S50000x128_1_0_0_1_n_n none h W (ix2 n j)
      = ∑ k : Fin 128, h (ix2 n k) * W (ix2 k j) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 n j)
      ((contrEquiv1 dot_S50000x128_S128x128_S50000x128_1_0_0_1_n_n 128 rfl rfl).symm k) = ix2 n k :=
    funext fun a => Fin.ext (by
      match a with
      | ⟨0, _⟩ => exact lhs_main_v37_0 _ _
      | ⟨1, _⟩ => exact (lhs_main_v37_1 _ _).trans hk)
  have er : dot_S50000x128_S128x128_S50000x128_1_0_0_1_n_n.rhsIdx (ix2 n j)
      ((contrEquiv1 dot_S50000x128_S128x128_S50000x128_1_0_0_1_n_n 128 rfl rfl).symm k) = ix2 k j :=
    funext fun a => Fin.ext (by
      match a with
      | ⟨0, _⟩ => exact (rhs_main_v37_0 _ _).trans hk
      | ⟨1, _⟩ => exact rhs_main_v37_1 _ _)
  rw [el, er]

/-- A product of a 50000 by 128 array with a 128 by 1 column, at row n: the sum over k of the row's entries times
    the column's. -/
theorem dot_col (g : FVec Ideal S50000x128 .f32) (v : FVec Ideal S128x1 .f32) (n : Fin 50000) :
    Host.dotGeneral dot_S50000x128_S128x1_S50000x1_1_0_0_1_n_n none g v (ix2 n (0 : Fin 1))
      = ∑ k : Fin 128, g (ix2 n k) * v (ix2 k (0 : Fin 1)) := by
  simp only [Host.dotGeneral]
  rw [Ideal.dotGeneral_apply,
    ← Equiv.sum_comp (contrEquiv1 dot_S50000x128_S128x1_S50000x1_1_0_0_1_n_n 128 rfl rfl).symm]
  refine Finset.sum_congr rfl fun k _ => ?_
  have hk := contrEquiv1_symm_val dot_S50000x128_S128x1_S50000x1_1_0_0_1_n_n 128 rfl rfl k
  have el : dot_S50000x128_S128x1_S50000x1_1_0_0_1_n_n.lhsIdx (ix2 n (0 : Fin 1))
      ((contrEquiv1 dot_S50000x128_S128x1_S50000x1_1_0_0_1_n_n 128 rfl rfl).symm k) = ix2 n k :=
    funext fun a => Fin.ext (by
      match a with
      | ⟨0, _⟩ => exact lhs_main_v109_0 _ _
      | ⟨1, _⟩ => exact (lhs_main_v109_1 _ _).trans hk)
  have er : dot_S50000x128_S128x1_S50000x1_1_0_0_1_n_n.rhsIdx (ix2 n (0 : Fin 1))
      ((contrEquiv1 dot_S50000x128_S128x1_S50000x1_1_0_0_1_n_n 128 rfl rfl).symm k) = ix2 k (0 : Fin 1) :=
    funext fun a => Fin.ext (by
      match a with
      | ⟨0, _⟩ => exact (rhs_main_v109_0 _ _).trans hk
      | ⟨1, _⟩ => exact rhs_main_v109_1 _ _)
  rw [el, er]

/-! ## One layer, over any features, matrix, bias, index columns and edge weights -/

/-- The product-first layer as the reference spells it: multiply the features by the matrix, take for every edge the
    row its source column names (clamped into the node range), scale it by the edge's weight, add up over the edges
    whose target column names the node, starting from zero, add the features and the bias, take the positive part.
    The broadcasts are given by what they read: nb reads the weight of its row's edge, bb the bias of its column,
    z and zr are zero everywhere. -/
theorem layer_read (h : FVec Ideal S50000x128 .f32) (W : FVec Ideal S128x128 .f32) (brow : FVec Ideal S128 .f32)
    (rowcol colcol : IVec S650000x1 32) (nv : FVec Ideal S650000 .f32)
    (z zr bb : FVec Ideal S50000x128 .f32) (nb : FVec Ideal S650000x128 .f32)
    (hz : ∀ i, z i = 0) (hzr : ∀ i, zr i = 0)
    (hbb : ∀ (n : Fin 50000) (j : Fin 128), bb (ix2 n j) = brow (ix1 j))
    (hnb : ∀ (e : Fin 650000) (j : Fin 128), nb (ix2 e j) = nv (ix1 e))
    (n : Fin 50000) (j : Fin 128) :
    maximumf (addf (addf h (Host.scatterAdd scatter_S50000x128_S650000x1_S650000x128_1_0_0_1 z colcol
        (mulf (Host.gather gather_S50000x128_S650000x1_S650000x128_1_0_n_n_0_1_1128
          (Host.dotGeneral dot_S50000x128_S128x128_S50000x128_1_0_0_1_n_n none h W) rowcol) nb))) bb) zr (ix2 n j)
      = layR (fun e : Fin 650000 =>
            (⟨min (rowcol (ix2 e (0 : Fin 1))).toInt.toNat (50000 - 1), by omega⟩ : Fin 50000))
          (fun n : Fin 50000 =>
            Finset.univ.filter fun e : Fin 650000 => (colcol (ix2 e (0 : Fin 1))).toInt = (n.val : Int))
          (fun e => nv (ix1 e)) (cur h) (cur W) (fun j => brow (ix1 j)) n j := by
  show max ((h (ix2 n j) + Ideal.hostScatterAdd scatter_S50000x128_S650000x1_S650000x128_1_0_0_1 z colcol
      (mulf (Host.gather gather_S50000x128_S650000x1_S650000x128_1_0_n_n_0_1_1128
        (Host.dotGeneral dot_S50000x128_S128x128_S50000x128_1_0_0_1_n_n none h W) rowcol) nb) (ix2 n j))
      + bb (ix2 n j)) (zr (ix2 n j)) = _
  rw [Cert.LibRows.scatterAdd_rows2 _ rfl rfl rfl rfl, hz, hzr, hbb]
  unfold layR
  refine congrArg (fun s => max ((h (ix2 n j) + ((0 : EReal) + s)) + brow (ix1 j)) 0)
    (Finset.sum_congr rfl fun e _ => ?_)
  show Host.gather gather_S50000x128_S650000x1_S650000x128_1_0_n_n_0_1_1128
      (Host.dotGeneral dot_S50000x128_S128x128_S50000x128_1_0_0_1_n_n none h W) rowcol (ix2 e j) * nb (ix2 e j) = _
  rw [Cert.LibRows.gather_rows2 (by decide) _ rfl rfl rfl rfl rfl, hnb, dot_rows]
  rfl

/-! ## One head, over any features and weights -/

/-- A head as the reference spells it: a hidden layer with the positive part, a product with one column, a bias,
    then one over one plus the exponential of the negated value. bb1 reads the hidden bias of its column, bb2 the
    output bias, one1 and one2 are one everywhere, zr is zero everywhere. -/
theorem head_read (h : FVec Ideal S50000x128 .f32) (w1 : FVec Ideal S128x128 .f32) (b1 : FVec Ideal S128 .f32)
    (w2 : FVec Ideal S128x1 .f32) (b2 : FVec Ideal S1 .f32)
    (bb1 zr : FVec Ideal S50000x128 .f32) (bb2 one1 one2 : FVec Ideal S50000x1 .f32)
    (hbb1 : ∀ (n : Fin 50000) (k : Fin 128), bb1 (ix2 n k) = b1 (ix1 k)) (hzr : ∀ i, zr i = 0)
    (hbb2 : ∀ n : Fin 50000, bb2 (ix2 n (0 : Fin 1)) = b2 (ix1 (0 : Fin 1)))
    (h1 : ∀ i, one1 i = 1) (h2 : ∀ i, one2 i = 1) (n : Fin 50000) :
    Host.divf one1 (addf one2 (Host.exp (Host.negf (addf
        (Host.dotGeneral dot_S50000x128_S128x1_S50000x1_1_0_0_1_n_n none
          (maximumf (addf (Host.dotGeneral dot_S50000x128_S128x128_S50000x128_1_0_0_1_n_n none h w1) bb1) zr) w2)
        bb2)))) (ix2 n (0 : Fin 1))
      = headR (cur h) (cur w1) (fun k => b1 (ix1 k)) (fun k => w2 (ix2 k (0 : Fin 1))) (b2 (ix1 (0 : Fin 1))) n := by
  show Ideal.div (one1 (ix2 n (0 : Fin 1))) (one2 (ix2 n (0 : Fin 1)) + Ideal.exp (-(
      Host.dotGeneral dot_S50000x128_S128x1_S50000x1_1_0_0_1_n_n none
        (maximumf (addf (Host.dotGeneral dot_S50000x128_S128x128_S50000x128_1_0_0_1_n_n none h w1) bb1) zr) w2
        (ix2 n (0 : Fin 1)) + bb2 (ix2 n (0 : Fin 1))))) = _
  rw [h1, h2, hbb2, dot_col]
  unfold headR
  refine congrArg (fun s => Ideal.div 1 (1 + Ideal.exp (-(s + b2 (ix1 (0 : Fin 1))))))
    (Finset.sum_congr rfl fun k _ => ?_)
  show max (Host.dotGeneral dot_S50000x128_S128x128_S50000x128_1_0_0_1_n_n none h w1 (ix2 n k) + bb1 (ix2 n k))
      (zr (ix2 n k)) * w2 (ix2 k (0 : Fin 1)) = _
  rw [dot_rows, hbb1, hzr]
  rfl

/-! ## The constant arrays -/

/-- The word of the number one. -/
theorem one_f32 : Ideal.ofBits .f32 0x3F800000#32 = 1 := IdealRules.sign_bit.ideal_onePat .f32

/-- The zero array a segment sum starts from, and the one a positive part compares with, is zero everywhere. -/
theorem zeros_read (i : S50000x128.Idx) : val_main_v48 (F := Ideal) i = 0 := by
  rw [val_main_v48_apply, val_main_cst_8_apply]
  exact Ideal.ofBits_zero_f32

/-- The array of ones of the logistic function is one everywhere. -/
theorem ones_read (i : S50000x1.Idx) : val_main_v115 (F := Ideal) i = 1 := by
  rw [val_main_v115_apply, val_main_cst_15_apply]
  exact one_f32

/-! ## The index columns and the edge weights are the same in every layer -/

/-- Layer 1 gathers by the source column. -/
theorem col43 (x1 : S2x600000.Idx → BitVec 32) : val_main_v43 (F := Ideal) x1 = val_main_v20 (F := Ideal) x1 := rfl
/-- Layer 2 gathers by the source column. -/
theorem col66 (x1 : S2x600000.Idx → BitVec 32) : val_main_v66 (F := Ideal) x1 = val_main_v20 (F := Ideal) x1 := rfl
/-- Layer 3 gathers by the source column. -/
theorem col89 (x1 : S2x600000.Idx → BitVec 32) : val_main_v89 (F := Ideal) x1 = val_main_v20 (F := Ideal) x1 := rfl
/-- Layer 1 sums by the target column. -/
theorem col49 (x1 : S2x600000.Idx → BitVec 32) : val_main_v49 (F := Ideal) x1 = val_main_v9 (F := Ideal) x1 := rfl
/-- Layer 2 sums by the target column. -/
theorem col72 (x1 : S2x600000.Idx → BitVec 32) : val_main_v72 (F := Ideal) x1 = val_main_v9 (F := Ideal) x1 := rfl
/-- Layer 3 sums by the target column. -/
theorem col95 (x1 : S2x600000.Idx → BitVec 32) : val_main_v95 (F := Ideal) x1 = val_main_v9 (F := Ideal) x1 := rfl

/-- Layer 1's weights along a row: entry (e, j) is the weight of edge e. -/
theorem nrm_bcast1 (x1 : S2x600000.Idx → BitVec 32) (e : Fin 650000) (j : Fin 128) :
    val_main_v46 (F := Ideal) x1 (ix2 e j) = val_main_v29 (F := Ideal) x1 (ix1 e) := by
  rw [val_main_v46_apply, val_main_v45_apply]
  exact congrArg _ (funext fun a => by match a with | ⟨0, _⟩ => rfl)
/-- Layer 2's weights along a row. -/
theorem nrm_bcast2 (x1 : S2x600000.Idx → BitVec 32) (e : Fin 650000) (j : Fin 128) :
    val_main_v69 (F := Ideal) x1 (ix2 e j) = val_main_v29 (F := Ideal) x1 (ix1 e) := by
  rw [val_main_v69_apply, val_main_v68_apply]
  exact congrArg _ (funext fun a => by match a with | ⟨0, _⟩ => rfl)
/-- Layer 3's weights along a row. -/
theorem nrm_bcast3 (x1 : S2x600000.Idx → BitVec 32) (e : Fin 650000) (j : Fin 128) :
    val_main_v92 (F := Ideal) x1 (ix2 e j) = val_main_v29 (F := Ideal) x1 (ix1 e) := by
  rw [val_main_v92_apply, val_main_v91_apply]
  exact congrArg _ (funext fun a => by match a with | ⟨0, _⟩ => rfl)

/-! ## The layers' matrices and biases -/

/-- Slice 0 of the stacked matrices, as a matrix. -/
theorem w_read1 (x4 : S3x128x128.Idx → EReal) : cur (val_main_v36 (F := Ideal) x4) = Wl x4 0 := by
  funext k j
  show val_main_v36 (F := Ideal) x4 (ix2 k j) = x4 (ix3 0 k j)
  rw [val_main_v36_apply, val_main_v35_apply]
  have hk := k.isLt
  have hj := j.isLt
  refine congrArg x4 (funext fun a => Fin.ext ?_)
  match a with
  | ⟨0, _⟩ => rfl
  | ⟨1, _⟩ => show (k.val * 128 + j.val) / 128 % 128 = k.val; omega
  | ⟨2, _⟩ => show (k.val * 128 + j.val) % 128 = j.val; omega
/-- Slice 1 of the stacked matrices. -/
theorem w_read2 (x4 : S3x128x128.Idx → EReal) : cur (val_main_v59 (F := Ideal) x4) = Wl x4 1 := by
  funext k j
  show val_main_v59 (F := Ideal) x4 (ix2 k j) = x4 (ix3 1 k j)
  rw [val_main_v59_apply, val_main_v58_apply]
  have hk := k.isLt
  have hj := j.isLt
  refine congrArg x4 (funext fun a => Fin.ext ?_)
  match a with
  | ⟨0, _⟩ => rfl
  | ⟨1, _⟩ => show (k.val * 128 + j.val) / 128 % 128 = k.val; omega
  | ⟨2, _⟩ => show (k.val * 128 + j.val) % 128 = j.val; omega
/-- Slice 2 of the stacked matrices. -/
theorem w_read3 (x4 : S3x128x128.Idx → EReal) : cur (val_main_v82 (F := Ideal) x4) = Wl x4 2 := by
  funext k j
  show val_main_v82 (F := Ideal) x4 (ix2 k j) = x4 (ix3 2 k j)
  rw [val_main_v82_apply, val_main_v81_apply]
  have hk := k.isLt
  have hj := j.isLt
  refine congrArg x4 (funext fun a => Fin.ext ?_)
  match a with
  | ⟨0, _⟩ => rfl
  | ⟨1, _⟩ => show (k.val * 128 + j.val) / 128 % 128 = k.val; omega
  | ⟨2, _⟩ => show (k.val * 128 + j.val) % 128 = j.val; omega

/-- Row 0 of the stacked biases. -/
theorem b_read1 (x5 : S3x128.Idx → EReal) : (fun j : Fin 128 => val_main_v53 (F := Ideal) x5 (ix1 j)) = bl x5 0 := by
  funext j
  show val_main_v53 (F := Ideal) x5 (ix1 j) = x5 (ix2 0 j)
  rw [val_main_v53_apply, val_main_v52_apply]
  have hj := j.isLt
  refine congrArg x5 (funext fun a => Fin.ext ?_)
  match a with
  | ⟨0, _⟩ => rfl
  | ⟨1, _⟩ => show j.val % 128 = j.val; omega
/-- Row 1 of the stacked biases. -/
theorem b_read2 (x5 : S3x128.Idx → EReal) : (fun j : Fin 128 => val_main_v76 (F := Ideal) x5 (ix1 j)) = bl x5 1 := by
  funext j
  show val_main_v76 (F := Ideal) x5 (ix1 j) = x5 (ix2 1 j)
  rw [val_main_v76_apply, val_main_v75_apply]
  have hj := j.isLt
  refine congrArg x5 (funext fun a => Fin.ext ?_)
  match a with
  | ⟨0, _⟩ => rfl
  | ⟨1, _⟩ => show j.val % 128 = j.val; omega
/-- Row 2 of the stacked biases. -/
theorem b_read3 (x5 : S3x128.Idx → EReal) : (fun j : Fin 128 => val_main_v99 (F := Ideal) x5 (ix1 j)) = bl x5 2 := by
  funext j
  show val_main_v99 (F := Ideal) x5 (ix1 j) = x5 (ix2 2 j)
  rw [val_main_v99_apply, val_main_v98_apply]
  have hj := j.isLt
  refine congrArg x5 (funext fun a => Fin.ext ?_)
  match a with
  | ⟨0, _⟩ => rfl
  | ⟨1, _⟩ => show j.val % 128 = j.val; omega

/-- Layer 1's bias along a column: entry (n, j) is the bias of column j. -/
theorem b_bcast1 (x5 : S3x128.Idx → EReal) (n : Fin 50000) (j : Fin 128) :
    val_main_v55 (F := Ideal) x5 (ix2 n j) = val_main_v53 (F := Ideal) x5 (ix1 j) := by
  rw [val_main_v55_apply, val_main_v54_apply]
  exact congrArg _ (funext fun a => by match a with | ⟨0, _⟩ => rfl)
/-- Layer 2's bias along a column. -/
theorem b_bcast2 (x5 : S3x128.Idx → EReal) (n : Fin 50000) (j : Fin 128) :
    val_main_v78 (F := Ideal) x5 (ix2 n j) = val_main_v76 (F := Ideal) x5 (ix1 j) := by
  rw [val_main_v78_apply, val_main_v77_apply]
  exact congrArg _ (funext fun a => by match a with | ⟨0, _⟩ => rfl)
/-- Layer 3's bias along a column. -/
theorem b_bcast3 (x5 : S3x128.Idx → EReal) (n : Fin 50000) (j : Fin 128) :
    val_main_v101 (F := Ideal) x5 (ix2 n j) = val_main_v99 (F := Ideal) x5 (ix1 j) := by
  rw [val_main_v101_apply, val_main_v100_apply]
  exact congrArg _ (funext fun a => by match a with | ⟨0, _⟩ => rfl)

/-! ## The input projection and the three layers -/

/-- The reference's first stage is the input projection. -/
theorem h0_read (x0 : S50000x256.Idx → EReal) (x2 : S256x128.Idx → EReal) (x3 : S128.Idx → EReal) :
    val_main_v34 (F := Ideal) x0 x2 x3 = arrOf (h0 x0 x2 x3) := by
  funext i
  obtain ⟨n, j, rfl⟩ : ∃ (n : Fin 50000) (j : Fin 128), i = ix2 n j := ⟨i 0, i 1, eq_ix2 i⟩
  rw [val_main_v34_apply, val_main_v33_apply, val_main_v30_apply, val_main_v32_apply, val_main_v31_apply,
    val_main_call1_v0_apply, val_main_call1_cst_apply]
  have el : ∀ k : Fin 256, lidx_main_v30 (ix2 n j) k = ix2 n k := fun k => funext fun a => by
    match a with
    | ⟨0, _⟩ => rfl
    | ⟨1, _⟩ => rfl
  have er : ∀ k : Fin 256, ridx_main_v30 (ix2 n j) k = ix2 k j := fun k => funext fun a => by
    match a with
    | ⟨0, _⟩ => rfl
    | ⟨1, _⟩ => rfl
  have eb : idx_main_v31 (idx_main_v32 (ix2 n j)) = ix1 j := funext fun a => by
    match a with
    | ⟨0, _⟩ => rfl
  have hs : (∑ k : Fin 256, x0 (lidx_main_v30 (ix2 n j) k) * x2 (ridx_main_v30 (ix2 n j) k))
      = ∑ k : Fin 256, x0 (ix2 n k) * x2 (ix2 k j) :=
    Finset.sum_congr rfl fun k _ => by rw [el k, er k]
  rw [hs, eb]
  show max ((∑ k : Fin 256, x0 (ix2 n k) * x2 (ix2 k j)) + x3 (ix1 j)) (Ideal.ofBits .f32 0x00000000#32)
    = max ((∑ k : Fin 256, x0 (ix2 n k) * x2 (ix2 k j)) + x3 (ix1 j)) 0
  rw [Ideal.ofBits_zero_f32]

/-- The first layer. -/
theorem layer1 (x0 : S50000x256.Idx → EReal) (x1 : S2x600000.Idx → BitVec 32) (x2 : S256x128.Idx → EReal)
    (x3 : S128.Idx → EReal) (x4 : S3x128x128.Idx → EReal) (x5 : S3x128.Idx → EReal) :
    val_main_v57 (F := Ideal) x0 x1 x2 x3 x4 x5 = arrOf (hR1 x0 x1 x2 x3 x4 x5) := by
  funext i
  obtain ⟨n, j, rfl⟩ : ∃ (n : Fin 50000) (j : Fin 128), i = ix2 n j := ⟨i 0, i 1, eq_ix2 i⟩
  refine (layer_read (val_main_v34 (F := Ideal) x0 x2 x3) (val_main_v36 (F := Ideal) x4)
    (val_main_v53 (F := Ideal) x5) (val_main_v43 (F := Ideal) x1) (val_main_v49 (F := Ideal) x1)
    (val_main_v29 (F := Ideal) x1) (val_main_v48 (F := Ideal)) (val_main_call2_v0 (F := Ideal))
    (val_main_v55 (F := Ideal) x5) (val_main_v46 (F := Ideal) x1)
    zeros_read (fun i => zeros_read i) (b_bcast1 x5) (nrm_bcast1 x1) n j).trans ?_
  rw [col43, col49, h0_read, w_read1, b_read1]
  rfl

/-- The second layer. -/
theorem layer2 (x0 : S50000x256.Idx → EReal) (x1 : S2x600000.Idx → BitVec 32) (x2 : S256x128.Idx → EReal)
    (x3 : S128.Idx → EReal) (x4 : S3x128x128.Idx → EReal) (x5 : S3x128.Idx → EReal) :
    val_main_v80 (F := Ideal) x0 x1 x2 x3 x4 x5 = arrOf (hR2 x0 x1 x2 x3 x4 x5) := by
  funext i
  obtain ⟨n, j, rfl⟩ : ∃ (n : Fin 50000) (j : Fin 128), i = ix2 n j := ⟨i 0, i 1, eq_ix2 i⟩
  refine (layer_read (val_main_v57 (F := Ideal) x0 x1 x2 x3 x4 x5) (val_main_v59 (F := Ideal) x4)
    (val_main_v76 (F := Ideal) x5) (val_main_v66 (F := Ideal) x1) (val_main_v72 (F := Ideal) x1)
    (val_main_v29 (F := Ideal) x1) (val_main_v71 (F := Ideal)) (val_main_call3_v0 (F := Ideal))
    (val_main_v78 (F := Ideal) x5) (val_main_v69 (F := Ideal) x1)
    (fun i => zeros_read i) (fun i => zeros_read i) (b_bcast2 x5) (nrm_bcast2 x1) n j).trans ?_
  rw [col66, col72, layer1, w_read2, b_read2]
  rfl

/-- The third layer. -/
theorem layer3 (x0 : S50000x256.Idx → EReal) (x1 : S2x600000.Idx → BitVec 32) (x2 : S256x128.Idx → EReal)
    (x3 : S128.Idx → EReal) (x4 : S3x128x128.Idx → EReal) (x5 : S3x128.Idx → EReal) :
    val_main_v103 (F := Ideal) x0 x1 x2 x3 x4 x5 = arrOf (hR3 x0 x1 x2 x3 x4 x5) := by
  funext i
  obtain ⟨n, j, rfl⟩ : ∃ (n : Fin 50000) (j : Fin 128), i = ix2 n j := ⟨i 0, i 1, eq_ix2 i⟩
  refine (layer_read (val_main_v80 (F := Ideal) x0 x1 x2 x3 x4 x5) (val_main_v82 (F := Ideal) x4)
    (val_main_v99 (F := Ideal) x5) (val_main_v89 (F := Ideal) x1) (val_main_v95 (F := Ideal) x1)
    (val_main_v29 (F := Ideal) x1) (val_main_v94 (F := Ideal)) (val_main_call4_v0 (F := Ideal))
    (val_main_v101 (F := Ideal) x5) (val_main_v92 (F := Ideal) x1)
    (fun i => zeros_read i) (fun i => zeros_read i) (b_bcast3 x5) (nrm_bcast3 x1) n j).trans ?_
  rw [col89, col95, layer2, w_read3, b_read3]
  rfl

/-! ## The results -/

/-- The features the reference returns are the third product-first layer. -/
theorem ref_h (x0 : S50000x256.Idx → EReal) (x1 : S2x600000.Idx → BitVec 32) (x2 : S256x128.Idx → EReal) (x3 : S128.Idx → EReal) (x4 : S3x128x128.Idx → EReal) (x5 : S3x128.Idx → EReal) :
    val_main_v103 (F := Ideal) x0 x1 x2 x3 x4 x5 = arrOf (hR3 x0 x1 x2 x3 x4 x5) :=
  layer3 x0 x1 x2 x3 x4 x5

/-- The node head. -/
theorem ref_node (x0 : S50000x256.Idx → EReal) (x1 : S2x600000.Idx → BitVec 32) (x2 : S256x128.Idx → EReal) (x3 : S128.Idx → EReal) (x4 : S3x128x128.Idx → EReal) (x5 : S3x128.Idx → EReal) (x6 : S128x128.Idx → EReal) (x7 : S128.Idx → EReal) (x8 : S128x1.Idx → EReal) (x9 : S1.Idx → EReal) :
    val_main_v119 (F := Ideal) x0 x1 x2 x3 x4 x5 x6 x7 x8 x9 = vecOf (head (hR3 x0 x1 x2 x3 x4 x5) x6 x7 x8 x9) := by
  funext i
  obtain ⟨n, rfl⟩ : ∃ n : Fin 50000, i = ix1 n := ⟨i 0, eq_ix1 i⟩
  have hi : idx_main_v119 (ix1 n) = ix2 n (0 : Fin 1) := funext fun a => Fin.ext (by
    match a with
    | ⟨0, _⟩ => show n.val / 1 = n.val; omega
    | ⟨1, _⟩ => rfl)
  have hb1 : ∀ (m : Fin 50000) (k : Fin 128), val_main_v106 (F := Ideal) x7 (ix2 m k) = x7 (ix1 k) := fun m k => by
    rw [val_main_v106_apply, val_main_v105_apply]
    exact congrArg x7 (funext fun a => by match a with | ⟨0, _⟩ => rfl)
  have hb2 : ∀ m : Fin 50000, val_main_v111 (F := Ideal) x9 (ix2 m (0 : Fin 1)) = x9 (ix1 (0 : Fin 1)) := fun m => by
    rw [val_main_v111_apply, val_main_v110_apply]
    exact congrArg x9 (funext fun a => by match a with | ⟨0, _⟩ => rfl)
  rw [val_main_v119_apply, hi]
  refine (head_read (val_main_v103 (F := Ideal) x0 x1 x2 x3 x4 x5) x6 x7 x8 x9
    (val_main_v106 (F := Ideal) x7) (val_main_call5_v0 (F := Ideal)) (val_main_v111 (F := Ideal) x9)
    (val_main_v117 (F := Ideal)) (val_main_v115 (F := Ideal))
    hb1 (fun i => zeros_read i) hb2 (fun i => ones_read i) ones_read n).trans ?_
  rw [ref_h]
  rfl

/-- The origin head. -/
theorem ref_origin (x0 : S50000x256.Idx → EReal) (x1 : S2x600000.Idx → BitVec 32) (x2 : S256x128.Idx → EReal) (x3 : S128.Idx → EReal) (x4 : S3x128x128.Idx → EReal) (x5 : S3x128.Idx → EReal) (x10 : S128x128.Idx → EReal) (x11 : S128.Idx → EReal) (x12 : S128x1.Idx → EReal) (x13 : S1.Idx → EReal) :
    val_main_v135 (F := Ideal) x0 x1 x2 x3 x4 x5 x10 x11 x12 x13 = vecOf (head (hR3 x0 x1 x2 x3 x4 x5) x10 x11 x12 x13) := by
  funext i
  obtain ⟨n, rfl⟩ : ∃ n : Fin 50000, i = ix1 n := ⟨i 0, eq_ix1 i⟩
  have hi : idx_main_v135 (ix1 n) = ix2 n (0 : Fin 1) := funext fun a => Fin.ext (by
    match a with
    | ⟨0, _⟩ => show n.val / 1 = n.val; omega
    | ⟨1, _⟩ => rfl)
  have hb1 : ∀ (m : Fin 50000) (k : Fin 128), val_main_v122 (F := Ideal) x11 (ix2 m k) = x11 (ix1 k) := fun m k => by
    rw [val_main_v122_apply, val_main_v121_apply]
    exact congrArg x11 (funext fun a => by match a with | ⟨0, _⟩ => rfl)
  have hb2 : ∀ m : Fin 50000, val_main_v127 (F := Ideal) x13 (ix2 m (0 : Fin 1)) = x13 (ix1 (0 : Fin 1)) := fun m => by
    rw [val_main_v127_apply, val_main_v126_apply]
    exact congrArg x13 (funext fun a => by match a with | ⟨0, _⟩ => rfl)
  rw [val_main_v135_apply, hi]
  refine (head_read (val_main_v103 (F := Ideal) x0 x1 x2 x3 x4 x5) x10 x11 x12 x13
    (val_main_v122 (F := Ideal) x11) (val_main_call6_v0 (F := Ideal)) (val_main_v127 (F := Ideal) x13)
    (val_main_v133 (F := Ideal)) (val_main_v131 (F := Ideal))
    hb1 (fun i => zeros_read i) hb2 (fun i => ones_read i) (fun i => ones_read i) n).trans ?_
  rw [ref_h]
  rfl

end Cert.ReferenceIdeal.RefValue

end
-- ==== Proof.LibRows1.lean ====
/-
  A gather from a vector and a scatter-add into a vector, read at an index.

  x[i] of a vector is a gather whose start indices are an [E, 1] column: the operand's one axis is collapsed and
  start-indexed and there is no offset axis.  Result e is the operand's entry whose number is entry e of the column,
  read as a signed integer and clamped into [0, N - 1].

  A segment sum of a vector is a scatter with an add body over the same column: the operand's one axis is inserted
  and indexed, the updates have no window axis.  On the extended reals the result at n is the operand's entry plus
  the sum of the updates e whose entry, read signed and not clamped, is n; an entry outside [0, N) lands nowhere.
-/
import Idealize.ShloMosaic.PureOps.Ideal
import Idealize.ShloMosaic.PureOps.ShapeOps
import Idealize.ShloMosaic.PureOps.Contract
import Idealize.ShloMosaic.Lib.ValueIdx

noncomputable section

open scoped BigOperators

namespace Cert.LibRows1

open Idealize.ShloMosaic Idealize.ShloMosaic.ValueIdx

/-- An axis survives the removal of a list of axes exactly when it is not in that list. -/
private theorem mem_kept {s : Shape} (axes : List (Fin s.rank)) (a : Fin s.rank) : a ∈ s.kept axes ↔ a ∉ axes := by
  simp [Shape.kept, List.mem_filter, List.mem_finRange]

/-! ## The scatter-add into a vector: [N] operand, [E, 1] entry column, [E] updates -/

section Scatter1
variable {N E w : Nat} (d : ScatterDims ⟨1, ![N]⟩ ⟨2, ![E, 1]⟩ ⟨1, ![E]⟩)

/-- On the operand's one axis the window of update e starts at entry e of the column, read signed: the update's one
    axis is a scatter axis, so it supplies the column's row, and the index vector's axis supplies component 0. -/
private theorem sc1_start (huw : d.updateWindowDims = []) (hsd : d.scatterDimsToOperandDims = [0])
    (hivd : d.indexVectorDim = 1) (idx : IVec ⟨2, ![E, 1]⟩ w) (j : (⟨1, ![E]⟩ : Shape).Idx) :
    d.start j idx 0 = (idx (ix2 (j 0) (0 : Fin 1))).toInt := by
  obtain ⟨uw, iw, sd, ivd, wf⟩ := d
  simp only at huw hsd hivd
  subst huw hsd hivd
  unfold ScatterDims.start
  rw [dif_pos (List.mem_singleton.mpr rfl)]
  congr 2
  funext b
  match b with
  | ⟨0, _⟩ => rfl
  | ⟨1, _⟩ => rfl

/-- The operand's one axis is inserted, so the window coordinate on it is 0. -/
private theorem sc1_window (hiw : d.insertedWindowDims = [0]) (j : (⟨1, ![E]⟩ : Shape).Idx) :
    d.window j 0 = 0 := by
  unfold ScatterDims.window
  rw [dif_neg (by rw [ScatterDims.sKept, mem_kept, hiw]; exact fun h => h (List.mem_singleton.mpr rfl))]

/-- Update e lands at n exactly when entry e of the column, read signed, is n; an entry outside [0, N) lands
    nowhere. -/
private theorem sc1_resultIdx (huw : d.updateWindowDims = []) (hiw : d.insertedWindowDims = [0])
    (hsd : d.scatterDimsToOperandDims = [0]) (hivd : d.indexVectorDim = 1)
    (idx : IVec ⟨2, ![E, 1]⟩ w) (e : Fin E) (n : Fin N) :
    d.resultIdx? (ix1 e) idx = some (ix1 n) ↔ (idx (ix2 e (0 : Fin 1))).toInt = (n.val : Int) := by
  have hs : d.start (ix1 e) idx 0 = (idx (ix2 e (0 : Fin 1))).toInt := sc1_start d huw hsd hivd idx _
  have hw : d.window (ix1 e) 0 = 0 := sc1_window d hiw _
  generalize (idx (ix2 e (0 : Fin 1))).toInt = z at hs ⊢
  have hn := n.isLt
  unfold ScatterDims.resultIdx?
  split
  · next h =>
    rw [Option.some.injEq]
    constructor
    · intro hf
      have h0 : (d.start (ix1 e) idx 0 + (d.window (ix1 e) 0 : Int)).toNat = n.val :=
        congrArg (fun f : (⟨1, ![N]⟩ : Shape).Idx => (f 0).val) hf
      have h00 := (h 0).1
      rw [hs, hw] at h0 h00
      omega
    · intro hz
      funext a
      match a with
      | ⟨0, _⟩ =>
        refine Fin.ext ?_
        show (d.start (ix1 e) idx 0 + (d.window (ix1 e) 0 : Int)).toNat = n.val
        rw [hs, hw]; omega
  · next h =>
    constructor
    · intro hf; cases hf
    · intro hz
      refine absurd ?_ h
      intro a
      match a with
      | ⟨0, _⟩ =>
        show 0 ≤ d.start (ix1 e) idx 0 + (d.window (ix1 e) 0 : Int)
          ∧ d.start (ix1 e) idx 0 + (d.window (ix1 e) 0 : Int) < (N : Int)
        rw [hs, hw]; omega

end Scatter1

/-- THE SCATTER-ADD INTO A VECTOR READ AT n: the operand's entry plus the sum of the updates e whose entry of the
    [E, 1] index column, read signed, is n.  An entry outside [0, N) contributes nowhere. -/
theorem scatterAdd_rows1 {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n) = x (ix1 n)
      + ∑ e ∈ Finset.univ.filter (fun e : Fin E => (idx (ix2 e (0 : Fin 1))).toInt = (n.val : Int)), upd (ix1 e) := by
  unfold Ideal.hostScatterAdd
  congr 1
  -- An update index is its one coordinate, so the sum over landing update indices is the sum over landing rows.
  refine Finset.sum_bij' (fun j _ => (j 0 : Fin E)) (fun e _ => ix1 e) ?_ ?_ ?_ ?_ ?_
  · intro j hj
    obtain ⟨e, rfl⟩ : ∃ e : Fin E, j = ix1 e := ⟨j 0, eq_ix1 j⟩
    exact Finset.mem_filter.2 ⟨Finset.mem_univ _,
      (sc1_resultIdx d huw hiw hsd hivd idx e n).1 (Finset.mem_filter.1 hj).2⟩
  · intro e he
    exact Finset.mem_filter.2 ⟨Finset.mem_univ _,
      (sc1_resultIdx d huw hiw hsd hivd idx e n).2 (Finset.mem_filter.1 he).2⟩
  · intro j _
    exact (eq_ix1 j).symm
  · intro e _
    rfl
  · intro j _
    exact congrArg upd (eq_ix1 j)

/-! ## The gather from a vector: [N] operand, [E, 1] entry column, [E] result -/

section Gather1
variable {N E w : Nat} (d : GatherDims ⟨1, ![N]⟩ ⟨2, ![E, 1]⟩ ⟨1, ![E]⟩)

/-- On the operand's one axis the slice of result e starts at entry e of the column, read signed and clamped into
    [0, N - 1]: the axis is collapsed, so its slice has size 1 and the clamp's upper end is N - 1. -/
private theorem g1_start (hoff : d.offsetDims = []) (hcoll : d.collapsedSliceDims = [0])
    (hsim : d.startIndexMap = [0]) (hivd : d.indexVectorDim = 1)
    (idx : IVec ⟨2, ![E, 1]⟩ w) (j : (⟨1, ![E]⟩ : Shape).Idx) :
    d.start j idx 0 = min (idx (ix2 (j 0) (0 : Fin 1))).toInt.toNat (N - 1) := by
  have hsl : d.sliceSizes 0 = 1 := d.slice_collapsed 0 (by rw [hcoll]; exact List.mem_singleton.mpr rfl)
  obtain ⟨od, cd, ob, sb, sm, ivd, ss, wf⟩ := d
  simp only at hoff hsim hivd hsl
  subst hoff hsim hivd
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- The operand's one axis is collapsed, so the offset coordinate on it is 0. -/
private theorem g1_off (hcoll : d.collapsedSliceDims = [0]) (j : (⟨1, ![E]⟩ : Shape).Idx) :
    d.offCoord j 0 = 0 :=
  d.offCoord_eq_zero j 0 fun h => ((d.mem_sKept 0).1 h).1 (by rw [hcoll]; exact List.mem_singleton.mpr rfl)

end Gather1

/-- THE GATHER FROM A VECTOR READ AT e: the operand's entry whose number is entry e of the [E, 1] index column, read
    signed and clamped into [0, N - 1]. -/
theorem gather_rows1 {α : Type} {N E w : Nat} (hN : 0 < N) (d : GatherDims ⟨1, ![N]⟩ ⟨2, ![E, 1]⟩ ⟨1, ![E]⟩)
    (hoff : d.offsetDims = []) (hcoll : d.collapsedSliceDims = [0])
    (hob : d.operandBatchingDims = []) (hsim : d.startIndexMap = [0]) (hivd : d.indexVectorDim = 1)
    (x : (⟨1, ![N]⟩ : Shape).Idx → α) (idx : IVec ⟨2, ![E, 1]⟩ w) (e : Fin E) :
    Host.gather d x idx (ix1 e)
      = x (ix1 ⟨min (idx (ix2 e (0 : Fin 1))).toInt.toNat (N - 1), by omega⟩) := by
  have hb : ∀ a, d.batchCoord (ix1 e) a = 0 := fun a =>
    d.batchCoord_eq_zero _ a (by rw [hob]; exact List.not_mem_nil)
  unfold Host.gather
  congr 1
  funext a
  refine Fin.ext ?_
  match a with
  | ⟨0, _⟩ =>
    show d.start (ix1 e) idx 0 + d.batchCoord (ix1 e) 0 + d.offCoord (ix1 e) 0 = _
    rw [hb, g1_off d hcoll, g1_start d hoff hcoll hsim hivd]
    rfl

end Cert.LibRows1

end
-- ==== Proof.Graph.lean ====
/-
  Every edge weight is a real number.

  The degree of a node is a segment sum of ones from zero: the number of edges that land on it, a natural number.
  The inverse square root is taken only where the degree is positive, and is then a positive real; elsewhere the
  value is zero.  An edge's weight is the product of two such values, gathered at its two clamped end nodes.
-/
import proofs.«419781_j4337916969237_4_alg».proof.Proof.Net
import proofs.«419781_j4337916969237_4_alg».proof.Proof.LibRows1
import Idealize.ShloMosaic.Lib.IdealHost

noncomputable section

namespace Cert.Net

open Idealize.ShloMosaic Idealize.ShloMosaic.ValueIdx Cert.ReferenceIdeal Cert.ReferenceIdeal.ReadP Cert.Spec

/-- Where the strict comparison of a real number against zero holds, the number is positive, and its inverse square
    root is again a real number: the reciprocal of its square root. -/
private theorem rsqrt_real_of_bit (r : ℝ) (hc : Ideal.cmp .ogt (r : EReal) 0 = 1) :
    IsReal (Ideal.rsqrt (r : EReal)) := by
  have hpos : 0 < r := by
    by_contra hn
    have hz : Ideal.cmp .ogt (r : EReal) 0 = 0 := by
      unfold Ideal.cmp
      have : ¬ ((0 : EReal) < (r : EReal)) := fun h => hn (EReal.coe_pos.1 h)
      simp [this]
    rw [hz] at hc
    exact absurd hc (by decide)
  refine ⟨(Real.sqrt r)⁻¹, ?_⟩
  rw [Ideal.rsqrt_coe, if_neg (not_lt.2 hpos.le), if_neg hpos.ne']

/-- The degree of every node is a real number: it is zero plus one for each edge that lands on the node. -/
private theorem deg_real (x1 : S2x600000.Idx → BitVec 32) (n : Fin 50000) :
    IsReal (val_main_v10 (F := Ideal) x1 (ix1 n)) := by
  have hv : val_main_v10 (F := Ideal) x1 (ix1 n)
      = Ideal.hostScatterAdd scatter_S50000_S650000x1_S650000_n_0_0_1 (val_main_v8 (F := Ideal))
          (val_main_v9 (F := Ideal) x1) (val_main_v7 (F := Ideal)) (ix1 n) := rfl
  rw [hv, Cert.LibRows1.scatterAdd_rows1 scatter_S50000_S650000x1_S650000_n_0_0_1 rfl rfl rfl rfl]
  refine IsReal.add ?_ (isReal_sum _ _ fun e _ => ?_)
  · rw [val_main_v8_apply, val_main_cst_0_apply, Ideal.ofBits_def, Ideal.ofBits_zero_f32]
    exact isReal_zero
  · rw [val_main_v7_apply, val_main_cst_apply, Ideal.ofBits_def, Ideal.ofBits_one_f32]
    exact isReal_one

/-- The value kept at every node is a real number: the inverse square root of the degree where the degree is
    positive, zero elsewhere. -/
private theorem node_real (x1 : S2x600000.Idx → BitVec 32) (n : Fin 50000) :
    IsReal (val_main_v14 (F := Ideal) x1 (ix1 n)) := by
  rw [val_main_v14_apply]
  unfold Scalar.select
  split
  · next hc =>
    obtain ⟨r, hr⟩ := deg_real x1 n
    rw [val_main_v12_apply, Ideal.cmpf_def, val_main_v11_apply, val_main_cst_1_apply, Ideal.ofBits_def,
      Ideal.ofBits_zero_f32, hr] at hc
    rw [val_main_v13_apply, Ideal.hostUnary_rsqrt_def, hr]
    exact rsqrt_real_of_bit r hc
  · rw [val_main_call0_v1_apply, val_main_call0_v0_apply, val_main_cst_2_apply, Ideal.ofBits_def,
      Ideal.ofBits_zero_f32]
    exact isReal_zero

/-- The weight of every edge is a real number, whatever the edge list holds. -/
theorem nrm_real (x1 : S2x600000.Idx → BitVec 32) (e : Fin 650000) : IsReal (nrm x1 e) := by
  unfold nrm
  rw [val_main_v29_apply, Ideal.mulf_def]
  -- Each factor is the node value at an end node of the edge, the end read off a column and clamped into range.
  refine IsReal.mul ?_ ?_
  · unfold val_main_v21
    rw [Cert.LibRows1.gather_rows1 (by decide) gather_S50000_S650000x1_S650000_n_0_n_n_0_1_1 rfl rfl rfl rfl rfl]
    exact node_real x1 _
  · unfold val_main_v28
    rw [Cert.LibRows1.gather_rows1 (by decide) gather_S50000_S650000x1_S650000_n_0_n_n_0_1_1 rfl rfl rfl rfl rfl]
    exact node_real x1 _

end Cert.Net

end
-- ==== Proof.Bridge.lean ====
/-
  On real arguments the aggregate-first layers and the product-first layers are the same features.

  The input projection of real arguments is real.  By induction over the three layers: the two forms of a layer agree
  on real features (the edge weights are always real), and the product-first layer of real features is real.
-/
import proofs.«419781_j4337916969237_4_alg».proof.Proof.Graph

noncomputable section

namespace Cert.Net

open Idealize.ShloMosaic Idealize.ShloMosaic.ValueIdx Cert.ReferenceIdeal Cert.Spec

theorem hK3_eq_hR3 (x0 : S50000x256.Idx → EReal) (x1 : S2x600000.Idx → BitVec 32) (x2 : S256x128.Idx → EReal) (x3 : S128.Idx → EReal) (x4 : S3x128x128.Idx → EReal) (x5 : S3x128.Idx → EReal)
    (r0 : ∀ i, IsReal (x0 i)) (r2 : ∀ i, IsReal (x2 i)) (r3 : ∀ i, IsReal (x3 i)) (r4 : ∀ i, IsReal (x4 i))
    (r5 : ∀ i, IsReal (x5 i)) : hK3 x0 x1 x2 x3 x4 x5 = hR3 x0 x1 x2 x3 x4 x5 := by
  have hn : ∀ e, IsReal (nrm x1 e) := nrm_real x1
  have hW : ∀ l k j, IsReal (Wl x4 l k j) := fun l k j => r4 _
  have hb : ∀ l j, IsReal (bl x5 l j) := fun l j => r5 _
  have h0r : ∀ n k, IsReal (h0 x0 x2 x3 n k) := lin_real _ _ _ (fun n k => r0 _) (fun k j => r2 _) (fun j => r3 _)
  have e1 : hK1 x0 x1 x2 x3 x4 x5 = hR1 x0 x1 x2 x3 x4 x5 := layK_eq_layR _ _ _ _ _ _ h0r hn (hW 0)
  have h1r : ∀ n k, IsReal (hR1 x0 x1 x2 x3 x4 x5 n k) := layR_real _ _ _ _ _ _ h0r hn (hW 0) (hb 0)
  have e2 : hK2 x0 x1 x2 x3 x4 x5 = hR2 x0 x1 x2 x3 x4 x5 := by
    unfold hK2 hR2; rw [e1]; exact layK_eq_layR _ _ _ _ _ _ h1r hn (hW 1)
  have h2r : ∀ n k, IsReal (hR2 x0 x1 x2 x3 x4 x5 n k) := layR_real _ _ _ _ _ _ h1r hn (hW 1) (hb 1)
  unfold hK3 hR3; rw [e2]; exact layK_eq_layR _ _ _ _ _ _ h2r hn (hW 2)

end Cert.Net

end
-- ==== Proof.Pre.lean ====
/-
  Under the precondition every float argument holds real numbers.

  The precondition is a conjunction, one conjunct per float argument, each saying that every entry's absolute value
  is below plus infinity.  An extended real whose absolute value is below plus infinity is neither infinity: it is a
  real number.
-/
import proofs.«419781_j4337916969237_4_alg».proof.Pre_finite_inputs
import proofs.«419781_j4337916969237_4_alg».proof.Proof.Spec
import Idealize.ShloMosaic.Lib.ReduceAll

noncomputable section

namespace Cert.PreReal

open Idealize.ShloMosaic Cert.Spec Cert.Pre_finite_inputs

/-- The scalar shape has exactly one index. -/
private instance : Subsingleton S_.Idx := ⟨fun a b => funext fun d => d.elim0⟩

/-- The pattern with all exponent bits set and no fraction bits is plus infinity. -/
private theorem inf_bits : Ideal.ofBits .f32 0x7F800000#32 = (⊤ : EReal) := by
  simp [Ideal.ofBits, Ideal.ieee]

/-- If max x (-x) is strictly below plus infinity then x is a real number: at either infinity the maximum is
    plus infinity itself. -/
private theorem isReal_of_abs_lt (x : EReal)
    (h : Ideal.cmp .olt (max x (-x)) (Ideal.ofBits .f32 0x7F800000#32) = 1#1) : IsReal x := by
  rw [inf_bits] at h
  induction x using EReal.rec with
  | bot => simp [Ideal.cmp] at h
  | coe r => exact ⟨r, rfl⟩
  | top => simp [Ideal.cmp] at h

/-- One conjunct of the precondition, for an array of any shape: if the conjunction over all entries of
    "|x i| < +infinity" holds, every entry is real. -/
private theorem real_of_all {s : Shape} {axes : List (Fin s.rank)} (x : FVec Ideal s .f32)
    (hb : S_.BroadcastsInDim s (![] : Fin 0 → Fin s.rank)) (hr : s.ReducesTo axes S_) (hS : 0 < S_.numel) (j : S_.Idx)
    (e : Host.reduce IntOp.andi
          (cmpf .olt (Host.absf x) (broadcastInDim s ![] hb (constant S_ .f32 0x7F800000#32)))
          (constantI S_ 1 1#1) hr hS j = 1#1) (i : s.Idx) : IsReal (x i) :=
  isReal_of_abs_lt (x i) (Host.reduce_andi_all _ _ hr hS j e i)

/-- A conjunction of two scalar bits that is 1 had both bits 1. -/
private theorem and_bits {a b : IVec S_ 1} {j : S_.Idx} (h : andi a b j = 1#1) : a j = 1#1 ∧ b j = 1#1 :=
  IntOp.andi_eq_one.1 h

/-- If the printed precondition evaluates to true, the five arguments the layers read hold real numbers. -/
theorem real_of_fn [Cert.Pre_finite_inputs.Facts]
    (x0 : FVec Ideal S50000x256 .f32) (x1 : IVec S2x600000 32) (x2 : FVec Ideal S256x128 .f32) (x3 : FVec Ideal S128 .f32)
    (x4 : FVec Ideal S3x128x128 .f32) (x5 : FVec Ideal S3x128 .f32) (x6 : FVec Ideal S128x128 .f32) (x7 : FVec Ideal S128 .f32)
    (x8 : FVec Ideal S128x1 .f32) (x9 : FVec Ideal S1 .f32) (x10 : FVec Ideal S128x128 .f32) (x11 : FVec Ideal S128 .f32)
    (x12 : FVec Ideal S128x1 .f32) (x13 : FVec Ideal S1 .f32)
    (h : Cert.Pre_finite_inputs.fn (F := Ideal) x0 x1 x2 x3 x4 x5 x6 x7 x8 x9 x10 x11 x12 x13 = fun _ => 1#1) :
    (∀ i, IsReal (x0 i)) ∧ (∀ i, IsReal (x2 i)) ∧ (∀ i, IsReal (x3 i)) ∧ (∀ i, IsReal (x4 i)) ∧ (∀ i, IsReal (x5 i)) := by
  have h0 := congrFun h ValueIdx.ix0
  dsimp only [fn, fn_part1, fn_part2, fn_part3] at h0
  -- the conjunction nests to the left, the last argument outermost: drop the eight conjuncts of x13 down to x6
  have h6 := (and_bits (and_bits (and_bits (and_bits (and_bits (and_bits (and_bits (and_bits h0).1).1).1).1).1).1).1).1
  obtain ⟨h5, e5⟩ := and_bits h6
  obtain ⟨h4, e4⟩ := and_bits h5
  obtain ⟨h3, e3⟩ := and_bits h4
  obtain ⟨e0, e2⟩ := and_bits h3
  exact ⟨real_of_all x0 _ _ _ _ e0, real_of_all x2 _ _ _ _ e2, real_of_all x3 _ _ _ _ e3, real_of_all x4 _ _ _ _ e4,
    real_of_all x5 _ _ _ _ e5⟩

end Cert.PreReal

end
-- ==== Proof.lean ====
/-
  The certificate of the graph network: a Pallas program of five kernels against its jnp reference.

  Both programs build the same edge data from the edge list, project the node features, run three message-passing
  layers and two classifier heads.  They differ in one place: a layer of the kernel program sums the neighbours'
  rows first and multiplies the sum by the layer's matrix inside a kernel, while the reference multiplies every row
  by the matrix first and sums the products.  Over the reals these are one double sum.  On the extended reals the
  exchange needs every number to be real, which the precondition gives for the arguments, the edge weights have by
  construction, and each layer hands to the next.  The kernel program also computes both heads at once, with the
  first layers side by side and the second layer block diagonal; each column of that product is one head.

  The three frames are the generated ones (the reference's is its generated run with the results dropped).  The
  idealization rewrote nothing.  For the value claim the kernel program's run is taken from its frame's launch with
  every buffer named, its results are read region by region and stretch by stretch, the reference's results are read
  stage by stage, and the two meet in the layer functions.
-/
import proofs.«419781_j4337916969237_4_alg».proof.Defs
import proofs.«419781_j4337916969237_4_alg».proof.Proof.Gen.Kernel
import proofs.«419781_j4337916969237_4_alg».proof.Proof.Gen.Kernel.Skeleton
import proofs.«419781_j4337916969237_4_alg».proof.Proof.Gen.Kernel.Launch
import proofs.«419781_j4337916969237_4_alg».proof.Proof.Gen.Kernel.Points
import proofs.«419781_j4337916969237_4_alg».proof.Proof.Gen.Kernel.Frame
import proofs.«419781_j4337916969237_4_alg».proof.Proof.Gen.KernelIdeal
import proofs.«419781_j4337916969237_4_alg».proof.Proof.Gen.KernelIdeal.Skeleton
import proofs.«419781_j4337916969237_4_alg».proof.Proof.Gen.KernelIdeal.Launch
import proofs.«419781_j4337916969237_4_alg».proof.Proof.Gen.KernelIdeal.Points
import proofs.«419781_j4337916969237_4_alg».proof.Proof.Gen.KernelIdeal.Frame
import proofs.«419781_j4337916969237_4_alg».proof.Proof.Gen.ReferenceIdeal
import proofs.«419781_j4337916969237_4_alg».proof.Proof.RefRun
import proofs.«419781_j4337916969237_4_alg».proof.Proof.RefRead
import proofs.«419781_j4337916969237_4_alg».proof.Proof.Gen.Pre_finite_inputs
import proofs.«419781_j4337916969237_4_alg».proof.Proof.KRun
import proofs.«419781_j4337916969237_4_alg».proof.Proof.KChain
import proofs.«419781_j4337916969237_4_alg».proof.Proof.KHeads
import proofs.«419781_j4337916969237_4_alg».proof.Proof.RefValue
import proofs.«419781_j4337916969237_4_alg».proof.Proof.Bridge
import proofs.«419781_j4337916969237_4_alg».proof.Proof.Pre
import Idealize.ShloMosaic.Adequacy
import Idealize.ShloMosaic.Init

set_option maxRecDepth 16384

noncomputable section

namespace Cert.Proof

open Idealize.ShloMosaic Idealize.ShloMosaic.TcCoe Idealize.SL.Sem

/-- The two programs, run from memories that agree on the arguments, end with equal results. -/
theorem algebraic : Cert.algebraic_KernelIdeal_ReferenceIdeal := by
  intro m ρ m' ρ' hpre hagree
  refine ⟨fun c => Cert.KernelIdeal.Gen.W13 m ρ c (Proc.devRef .tc Cert.KernelIdeal.main_v107),
    fun c => Cert.KernelIdeal.Gen.W13 m ρ c (Proc.devRef .tc Cert.KernelIdeal.main_v109),
    fun c => Cert.KernelIdeal.Gen.W13 m ρ c (Proc.devRef .tc Cert.KernelIdeal.main_v110),
    fun c => Cert.KernelIdeal.Gen.W13 m ρ c (Proc.devRef .tc Cert.KernelIdeal.main_v88), ?_, ?_⟩
  · refine (θ_run Cert.KernelIdeal.defs _ _).mono (fun r h c => ?_) (Cert.KernelIdeal.Val.run_all m ρ)
    have hk := h c
    exact ⟨hk _ (Cert.KernelIdeal.Gen.mem_uc Cert.KernelIdeal.main_v107 (by decide)),
      hk _ (Cert.KernelIdeal.Gen.mem_uc Cert.KernelIdeal.main_v109 (by decide)),
      hk _ (Cert.KernelIdeal.Gen.mem_uc Cert.KernelIdeal.main_v110 (by decide)),
      hk _ (Cert.KernelIdeal.Gen.mem_uc Cert.KernelIdeal.main_v88 (by decide)),
      (hk _ (Cert.KernelIdeal.Gen.mem_uc Cert.KernelIdeal.main_arg0 (by decide))).trans (Cert.KernelIdeal.Gen.W13_main_arg0 m ρ c),
      (hk _ (Cert.KernelIdeal.Gen.mem_uc Cert.KernelIdeal.main_arg1 (by decide))).trans (Cert.KernelIdeal.Gen.W13_main_arg1 m ρ c),
      (hk _ (Cert.KernelIdeal.Gen.mem_uc Cert.KernelIdeal.main_arg2 (by decide))).trans (Cert.KernelIdeal.Gen.W13_main_arg2 m ρ c),
      (hk _ (Cert.KernelIdeal.Gen.mem_uc Cert.KernelIdeal.main_arg3 (by decide))).trans (Cert.KernelIdeal.Gen.W13_main_arg3 m ρ c),
      (hk _ (Cert.KernelIdeal.Gen.mem_uc Cert.KernelIdeal.main_arg4 (by decide))).trans (Cert.KernelIdeal.Gen.W13_main_arg4 m ρ c),
      (hk _ (Cert.KernelIdeal.Gen.mem_uc Cert.KernelIdeal.main_arg5 (by decide))).trans (Cert.KernelIdeal.Gen.W13_main_arg5 m ρ c),
      (hk _ (Cert.KernelIdeal.Gen.mem_uc Cert.KernelIdeal.main_arg6 (by decide))).trans (Cert.KernelIdeal.Gen.W13_main_arg6 m ρ c),
      (hk _ (Cert.KernelIdeal.Gen.mem_uc Cert.KernelIdeal.main_arg7 (by decide))).trans (Cert.KernelIdeal.Gen.W13_main_arg7 m ρ c),
      (hk _ (Cert.KernelIdeal.Gen.mem_uc Cert.KernelIdeal.main_arg8 (by decide))).trans (Cert.KernelIdeal.Gen.W13_main_arg8 m ρ c),
      (hk _ (Cert.KernelIdeal.Gen.mem_uc Cert.KernelIdeal.main_arg9 (by decide))).trans (Cert.KernelIdeal.Gen.W13_main_arg9 m ρ c),
      (hk _ (Cert.KernelIdeal.Gen.mem_uc Cert.KernelIdeal.main_arg10 (by decide))).trans (Cert.KernelIdeal.Gen.W13_main_arg10 m ρ c),
      (hk _ (Cert.KernelIdeal.Gen.mem_uc Cert.KernelIdeal.main_arg11 (by decide))).trans (Cert.KernelIdeal.Gen.W13_main_arg11 m ρ c),
      (hk _ (Cert.KernelIdeal.Gen.mem_uc Cert.KernelIdeal.main_arg12 (by decide))).trans (Cert.KernelIdeal.Gen.W13_main_arg12 m ρ c),
      (hk _ (Cert.KernelIdeal.Gen.mem_uc Cert.KernelIdeal.main_arg13 (by decide))).trans (Cert.KernelIdeal.Gen.W13_main_arg13 m ρ c)⟩
  · refine (θ_run Cert.ReferenceIdeal.defs _ _).mono (fun r h c => ?_) (Cert.ReferenceIdeal.ValueP.run (F := Ideal) m' ρ')
    obtain ⟨e0, e1, e2, e3, eargs⟩ := h c
    obtain ⟨a0, a1, a2, a3, a4, a5, a6, a7, a8, a9, a10, a11, a12, a13⟩ := hagree c
    obtain ⟨r0, r2, r3, r4, r5⟩ := Cert.PreReal.real_of_fn _ _ _ _ _ _ _ _ _ _ _ _ _ _ (hpre c)
    have hb := Cert.Net.hK3_eq_hR3 _ (m ((c.tc : Thread Cert.KernelIdeal.nD Cert.KernelIdeal.τ).loc Cert.KernelIdeal.main_arg1)) _ _ _ _ r0 r2 r3 r4 r5
    refine ⟨e0.trans ?_, e1.trans ?_, e2.trans ?_, e3.trans ?_, eargs⟩
    · rw [Cert.ReferenceIdeal.ReadP.val_main_v119_eq, a0, a1, a2, a3, a4, a5, a6, a7, a8, a9, Cert.ReferenceIdeal.RefValue.ref_node, ← hb]
      exact (Cert.KernelIdeal.Val.out_node m ρ c (Cert.KernelIdeal.Val.W10_h m ρ c)).symm
    · rw [Cert.ReferenceIdeal.ReadP.val_main_v135_eq, a0, a1, a2, a3, a4, a5, a10, a11, a12, a13, Cert.ReferenceIdeal.RefValue.ref_origin, ← hb]
      exact (Cert.KernelIdeal.Val.out_origin m ρ c (Cert.KernelIdeal.Val.W10_h m ρ c)).symm
    · exact (Cert.KernelIdeal.Val.out_err m ρ c).symm
    · rw [Cert.ReferenceIdeal.ReadP.val_main_v103_eq, a0, a1, a2, a3, a4, a5, Cert.ReferenceIdeal.RefValue.ref_h, ← hb]
      exact (Cert.KernelIdeal.Val.out_h m ρ c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2.2) (Cert.ReferenceIdeal.ValueP.run (F := Ideal) m ρ),
  trivial,
  algebraic⟩

end Cert.Proof

end
